-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x25x356x1220 : Shape := ⟨4, ![4, 25, 356, 1220]⟩
abbrev S4x1x352x1216 : Shape := ⟨4, ![4, 1, 352, 1216]⟩
abbrev S_ : Shape := ⟨0, ![]⟩

class Facts : Prop where
  bcast_S_S4x25x356x1220 : S_.BroadcastsInDim S4x25x356x1220 (![] : Fin 0 → Fin S4x25x356x1220.rank)
  reducesTo_S4x25x356x1220_S_d0_1_2_3 : S4x25x356x1220.ReducesTo [0, 1, 2, 3] S_
  h_S_ : 0 < S_.numel
  bcast_S_S4x1x352x1216 : S_.BroadcastsInDim S4x1x352x1216 (![] : Fin 0 → Fin S4x1x352x1216.rank)
  reducesTo_S4x1x352x1216_S_d0_1_2_3 : S4x1x352x1216.ReducesTo [0, 1, 2, 3] S_

variable [Facts]

def fn {F : FTy → Type} [FloatOps F] (main_arg0 : FVec F S4x25x356x1220 .f32) (main_arg1 : FVec F S4x1x352x1216 .f32) (main_arg2 : FVec F S4x1x352x1216 .f32) : IVec S_ 1 :=
  let main_v0 : FVec F S4x25x356x1220 .f32 := Host.absf main_arg0
  let main_cst : FVec F S_ .f32 := constant S_ .f32 0x7F800000#32
  let main_v1 : FVec F S4x25x356x1220 .f32 := broadcastInDim S4x25x356x1220 ![] bcast_S_S4x25x356x1220 main_cst
  let main_v2 : IVec S4x25x356x1220 1 := cmpf .olt main_v0 main_v1
  let main_c : IVec S_ 1 := constantI S_ 1 1#1
  let main_v3 : IVec S_ 1 := (fun x v => Host.reduce IntOp.andi x v reducesTo_S4x25x356x1220_S_d0_1_2_3 h_S_) main_v2 main_c
  let main_v4 : FVec F S4x1x352x1216 .f32 := Host.absf main_arg1
  let main_cst_0 : FVec F S_ .f32 := constant S_ .f32 0x7F800000#32
  let main_v5 : FVec F S4x1x352x1216 .f32 := broadcastInDim S4x1x352x1216 ![] bcast_S_S4x1x352x1216 main_cst_0
  let main_v6 : IVec S4x1x352x1216 1 := cmpf .olt main_v4 main_v5
  let main_c_1 : IVec S_ 1 := constantI S_ 1 1#1
  let main_v7 : IVec S_ 1 := (fun x v => Host.reduce IntOp.andi x v reducesTo_S4x1x352x1216_S_d0_1_2_3 h_S_) main_v6 main_c_1
  let main_v8 : IVec S_ 1 := andi main_v3 main_v7
  let main_v9 : FVec F S4x1x352x1216 .f32 := Host.absf main_arg2
  let main_cst_2 : FVec F S_ .f32 := constant S_ .f32 0x7F800000#32
  let main_v10 : FVec F S4x1x352x1216 .f32 := broadcastInDim S4x1x352x1216 ![] bcast_S_S4x1x352x1216 main_cst_2
  let main_v11 : IVec S4x1x352x1216 1 := cmpf .olt main_v9 main_v10
  let main_c_3 : IVec S_ 1 := constantI S_ 1 1#1
  let main_v12 : IVec S_ 1 := (fun x v => Host.reduce IntOp.andi x v reducesTo_S4x1x352x1216_S_d0_1_2_3 h_S_) main_v11 main_c_3
  let main_v13 : IVec S_ 1 := andi main_v8 main_v12
  main_v13
-- ==== Kernel.lean ====
abbrev S4x25x356x1220 : Shape := ⟨4, ![4, 25, 356, 1220]⟩
abbrev S4x1x352x1216 : Shape := ⟨4, ![4, 1, 352, 1216]⟩
abbrev S_ : Shape := ⟨0, ![]⟩
abbrev S4x25x364x1220 : Shape := ⟨4, ![4, 25, 364, 1220]⟩
abbrev S4x352x1216 : Shape := ⟨3, ![4, 352, 1216]⟩
abbrev S4x364x1220 : Shape := ⟨3, ![4, 364, 1220]⟩
abbrev S1x25x32x1220 : Shape := ⟨4, ![1, 25, 32, 1220]⟩
abbrev S1x25x8x1220 : Shape := ⟨4, ![1, 25, 8, 1220]⟩
abbrev S1x32x1220 : Shape := ⟨3, ![1, 32, 1220]⟩
abbrev S1x8x1220 : Shape := ⟨3, ![1, 8, 1220]⟩
abbrev S1x32x1216 : Shape := ⟨3, ![1, 32, 1216]⟩
abbrev S25x32x1220 : Shape := ⟨3, ![25, 32, 1220]⟩
abbrev S25x8x1220 : Shape := ⟨3, ![25, 8, 1220]⟩
abbrev S32x1220 : Shape := ⟨2, ![32, 1220]⟩
abbrev S8x1220 : Shape := ⟨2, ![8, 1220]⟩
abbrev S25x30x1220 : Shape := ⟨3, ![25, 30, 1220]⟩
abbrev S25x2x1220 : Shape := ⟨3, ![25, 2, 1220]⟩
abbrev S25x32x1216 : Shape := ⟨3, ![25, 32, 1216]⟩
abbrev S28x1220 : Shape := ⟨2, ![28, 1220]⟩
abbrev S4x1220 : Shape := ⟨2, ![4, 1220]⟩
abbrev S29x1220 : Shape := ⟨2, ![29, 1220]⟩
abbrev S3x1220 : Shape := ⟨2, ![3, 1220]⟩
abbrev S30x1220 : Shape := ⟨2, ![30, 1220]⟩
abbrev S2x1220 : Shape := ⟨2, ![2, 1220]⟩
abbrev S31x1220 : Shape := ⟨2, ![31, 1220]⟩
abbrev S1x1220 : Shape := ⟨2, ![1, 1220]⟩
abbrev S32x1216 : Shape := ⟨2, ![32, 1216]⟩

abbrev nBuf : Space → Nat
  | .hbm => 16
  | .vmem => 14
  | .smem => 0
  | _ => 0

abbrev bufTy : (tb : Table) → Fin (tcTables nBuf tb) → BufTy
  | .hbm, ⟨0, _⟩ => ⟨S4x25x356x1220, .f32⟩
  | .hbm, ⟨1, _⟩ => ⟨S4x1x352x1216, .f32⟩
  | .hbm, ⟨2, _⟩ => ⟨S4x1x352x1216, .f32⟩
  | .hbm, ⟨3, _⟩ => ⟨S_, .i32⟩
  | .hbm, ⟨4, _⟩ => ⟨S_, .f32⟩
  | .hbm, ⟨5, _⟩ => ⟨S4x25x364x1220, .f32⟩
  | .hbm, ⟨6, _⟩ => ⟨S4x352x1216, .f32⟩
  | .hbm, ⟨7, _⟩ => ⟨S4x352x1216, .f32⟩
  | .hbm, ⟨8, _⟩ => ⟨S_, .i32⟩
  | .hbm, ⟨9, _⟩ => ⟨S_, .f32⟩
  | .hbm, ⟨10, _⟩ => ⟨S4x364x1220, .f32⟩
  | .hbm, ⟨11, _⟩ => ⟨S_, .i32⟩
  | .hbm, ⟨12, _⟩ => ⟨S_, .f32⟩
  | .hbm, ⟨13, _⟩ => ⟨S4x364x1220, .f32⟩
  | .hbm, ⟨14, _⟩ => ⟨S4x352x1216, .f32⟩
  | .hbm, ⟨15, _⟩ => ⟨S4x1x352x1216, .f32⟩
  | .local _ .vmem, ⟨0, _⟩ => ⟨S1x25x32x1220, .f32⟩
  | .local _ .vmem, ⟨1, _⟩ => ⟨S1x25x32x1220, .f32⟩
  | .local _ .vmem, ⟨2, _⟩ => ⟨S1x25x8x1220, .f32⟩
  | .local _ .vmem, ⟨3, _⟩ => ⟨S1x25x8x1220, .f32⟩
  | .local _ .vmem, ⟨4, _⟩ => ⟨S1x32x1220, .f32⟩
  | .local _ .vmem, ⟨5, _⟩ => ⟨S1x32x1220, .f32⟩
  | .local _ .vmem, ⟨6, _⟩ => ⟨S1x8x1220, .f32⟩
  | .local _ .vmem, ⟨7, _⟩ => ⟨S1x8x1220, .f32⟩
  | .local _ .vmem, ⟨8, _⟩ => ⟨S1x32x1220, .f32⟩
  | .local _ .vmem, ⟨9, _⟩ => ⟨S1x32x1220, .f32⟩
  | .local _ .vmem, ⟨10, _⟩ => ⟨S1x8x1220, .f32⟩
  | .local _ .vmem, ⟨11, _⟩ => ⟨S1x8x1220, .f32⟩
  | .local _ .vmem, ⟨12, _⟩ => ⟨S1x32x1216, .f32⟩
  | .local _ .vmem, ⟨13, _⟩ => ⟨S1x32x1216, .f32⟩
  | _, _ => ⟨S4x25x356x1220, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c0_i32 : BitVec 32 := 0#32
  let c0_i32_0 : BitVec 32 := 0#32
  let c0_i32_1 : BitVec 32 := 0#32
  ![arg0.toNat, c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x25x32x1220 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x25x8x1220 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1220 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1220 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1220 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1220 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S4x25x356x1220_S4x25x364x1220_000_000_080_000 : S4x25x356x1220.Pads (![0, 0, 0, 0] : Fin 4 → Nat) ![0, 0, 8, 0] ![0, 0, 0, 0] S4x25x364x1220
  h_S_ : 0 < S_.numel
  shapeCasts_S4x1x352x1216_S4x352x1216 : S4x1x352x1216.ShapeCasts S4x352x1216
  pads_S4x352x1216_S4x364x1220_000_2100_220 : S4x352x1216.Pads (![0, 2, 2] : Fin 3 → Nat) ![0, 10, 2] ![0, 0, 0] S4x364x1220
  inb_S1x25x32x1220_S1x25x32x1220_0_0_0_0 : ∀ a, (![0, 0, 0, 0] : Fin 4 → Nat) a + S1x25x32x1220.size a ≤ S1x25x32x1220.size a
  h_S1x25x32x1220 : 0 < S1x25x32x1220.numel
  shapeCasts_S1x25x32x1220_S25x32x1220 : S1x25x32x1220.ShapeCasts S25x32x1220
  inb_S1x25x8x1220_S1x25x8x1220_0_0_0_0 : ∀ a, (![0, 0, 0, 0] : Fin 4 → Nat) a + S1x25x8x1220.size a ≤ S1x25x8x1220.size a
  h_S1x25x8x1220 : 0 < S1x25x8x1220.numel
  shapeCasts_S1x25x8x1220_S25x8x1220 : S1x25x8x1220.ShapeCasts S25x8x1220
  inb_S1x32x1220_S1x32x1220_0_0_0 : ∀ a, (![0, 0, 0] : Fin 3 → Nat) a + S1x32x1220.size a ≤ S1x32x1220.size a
  h_S1x32x1220 : 0 < S1x32x1220.numel
  shapeCasts_S1x32x1220_S32x1220 : S1x32x1220.ShapeCasts S32x1220
  inb_S1x8x1220_S1x8x1220_0_0_0 : ∀ a, (![0, 0, 0] : Fin 3 → Nat) a + S1x8x1220.size a ≤ S1x8x1220.size a
  h_S1x8x1220 : 0 < S1x8x1220.numel
  shapeCasts_S1x8x1220_S8x1220 : S1x8x1220.ShapeCasts S8x1220
  slices_S25x32x1220_o0_2_0_S25x30x1220 : S25x32x1220.Slices ![0, 2, 0] S25x30x1220
  slices_S25x8x1220_o0_0_0_S25x2x1220 : S25x8x1220.Slices ![0, 0, 0] S25x2x1220
  concatenates_S25x30x1220_S25x2x1220_S25x32x1220_d1 : Shape.Concatenates [S25x30x1220, S25x2x1220] S25x32x1220 1
  slices_S25x32x1220_o0_0_2_S25x32x1216 : S25x32x1220.Slices ![0, 0, 2] S25x32x1216
  slices_S32x1220_o4_0_S28x1220 : S32x1220.Slices ![4, 0] S28x1220
  slices_S8x1220_o0_0_S4x1220 : S8x1220.Slices ![0, 0] S4x1220
  concatenates_S28x1220_S4x1220_S32x1220_d0 : Shape.Concatenates [S28x1220, S4x1220] S32x1220 0
  slices_S32x1220_o3_0_S29x1220 : S32x1220.Slices ![3, 0] S29x1220
  slices_S8x1220_o0_0_S3x1220 : S8x1220.Slices ![0, 0] S3x1220
  concatenates_S29x1220_S3x1220_S32x1220_d0 : Shape.Concatenates [S29x1220, S3x1220] S32x1220 0
  slices_S32x1220_o2_0_S30x1220 : S32x1220.Slices ![2, 0] S30x1220
  slices_S8x1220_o0_0_S2x1220 : S8x1220.Slices ![0, 0] S2x1220
  concatenates_S30x1220_S2x1220_S32x1220_d0 : Shape.Concatenates [S30x1220, S2x1220] S32x1220 0
  slices_S32x1220_o1_0_S31x1220 : S32x1220.Slices ![1, 0] S31x1220
  slices_S8x1220_o0_0_S1x1220 : S8x1220.Slices ![0, 0] S1x1220
  concatenates_S31x1220_S1x1220_S32x1220_d0 : Shape.Concatenates [S31x1220, S1x1220] S32x1220 0
  slices_S32x1220_o0_4_S32x1216 : S32x1220.Slices ![0, 4] S32x1216
  slices_S25x32x1216_o0_0_0_S1x32x1216 : S25x32x1216.Slices ![0, 0, 0] S1x32x1216
  shapeCasts_S1x32x1216_S32x1216 : S1x32x1216.ShapeCasts S32x1216
  slices_S32x1220_o0_3_S32x1216 : S32x1220.Slices ![0, 3] S32x1216
  slices_S25x32x1216_o1_0_0_S1x32x1216 : S25x32x1216.Slices ![1, 0, 0] S1x32x1216
  slices_S32x1220_o0_2_S32x1216 : S32x1220.Slices ![0, 2] S32x1216
  slices_S25x32x1216_o2_0_0_S1x32x1216 : S25x32x1216.Slices ![2, 0, 0] S1x32x1216
  slices_S32x1220_o0_1_S32x1216 : S32x1220.Slices ![0, 1] S32x1216
  slices_S25x32x1216_o3_0_0_S1x32x1216 : S25x32x1216.Slices ![3, 0, 0] S1x32x1216
  slices_S32x1220_o0_0_S32x1216 : S32x1220.Slices ![0, 0] S32x1216
  slices_S25x32x1216_o4_0_0_S1x32x1216 : S25x32x1216.Slices ![4, 0, 0] S1x32x1216
  slices_S25x32x1216_o5_0_0_S1x32x1216 : S25x32x1216.Slices ![5, 0, 0] S1x32x1216
  slices_S25x32x1216_o6_0_0_S1x32x1216 : S25x32x1216.Slices ![6, 0, 0] S1x32x1216
  slices_S25x32x1216_o7_0_0_S1x32x1216 : S25x32x1216.Slices ![7, 0, 0] S1x32x1216
  slices_S25x32x1216_o8_0_0_S1x32x1216 : S25x32x1216.Slices ![8, 0, 0] S1x32x1216
  slices_S25x32x1216_o9_0_0_S1x32x1216 : S25x32x1216.Slices ![9, 0, 0] S1x32x1216
  slices_S25x32x1216_o10_0_0_S1x32x1216 : S25x32x1216.Slices ![10, 0, 0] S1x32x1216
  slices_S25x32x1216_o11_0_0_S1x32x1216 : S25x32x1216.Slices ![11, 0, 0] S1x32x1216
  slices_S25x32x1216_o12_0_0_S1x32x1216 : S25x32x1216.Slices ![12, 0, 0] S1x32x1216
  slices_S25x32x1216_o13_0_0_S1x32x1216 : S25x32x1216.Slices ![13, 0, 0] S1x32x1216
  slices_S25x32x1216_o14_0_0_S1x32x1216 : S25x32x1216.Slices ![14, 0, 0] S1x32x1216
  slices_S25x32x1216_o15_0_0_S1x32x1216 : S25x32x1216.Slices ![15, 0, 0] S1x32x1216
  slices_S25x32x1216_o16_0_0_S1x32x1216 : S25x32x1216.Slices ![16, 0, 0] S1x32x1216
  slices_S25x32x1216_o17_0_0_S1x32x1216 : S25x32x1216.Slices ![17, 0, 0] S1x32x1216
  slices_S25x32x1216_o18_0_0_S1x32x1216 : S25x32x1216.Slices ![18, 0, 0] S1x32x1216
  slices_S25x32x1216_o19_0_0_S1x32x1216 : S25x32x1216.Slices ![19, 0, 0] S1x32x1216
  slices_S25x32x1216_o20_0_0_S1x32x1216 : S25x32x1216.Slices ![20, 0, 0] S1x32x1216
  slices_S25x32x1216_o21_0_0_S1x32x1216 : S25x32x1216.Slices ![21, 0, 0] S1x32x1216
  slices_S25x32x1216_o22_0_0_S1x32x1216 : S25x32x1216.Slices ![22, 0, 0] S1x32x1216
  slices_S25x32x1216_o23_0_0_S1x32x1216 : S25x32x1216.Slices ![23, 0, 0] S1x32x1216
  slices_S25x32x1216_o24_0_0_S1x32x1216 : S25x32x1216.Slices ![24, 0, 0] S1x32x1216
  inb_S1x32x1216_S1x32x1216_0_0_0 : ∀ a, (![0, 0, 0] : Fin 3 → Nat) a + S1x32x1216.size a ≤ S1x32x1216.size a
  h_S1x32x1216 : 0 < S1x32x1216.numel
  shapeCasts_S32x1216_S1x32x1216 : S32x1216.ShapeCasts S1x32x1216
  bcast_S4x352x1216_S4x1x352x1216_0_2_3 : S4x352x1216.BroadcastsInDim S4x1x352x1216 (![0, 2, 3] : Fin 3 → Fin S4x1x352x1216.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x25x32x1220.size a < S4x25x364x1220.size a
  hwx0_0 : ∀ i : grid0.Coords, EltTy.bits .f32 = 32 ∨ (Rect.unit (s := S4x25x364x1220) (fun a => cc0_transform_0 i a * S1x25x32x1220.size a) (fun a => (Pipeline.Clip.of (cc0_transform_0 i a) (S1x25x32x1220.size a) (S4x25x364x1220.size a)).extent (S1x25x32x1220.size a)) fun a => Pipeline.Clip.inb (Pipeline.Clip.ok_of (hstart0_0 i a))).WholeWords (EltTy.packing .f32)
  hwxs0_0 : ∀ i : grid0.Coords, EltTy.bits .f32 = 32 ∨ (Rect.unit (s := S1x25x32x1220) (fun _ => 0) (fun a => (Pipeline.Clip.of (cc0_transform_0 i a) (S1x25x32x1220.size a) (S4x25x364x1220.size a)).extent (S1x25x32x1220.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x25x8x1220.size a < S4x25x364x1220.size a
  hwx0_1 : ∀ i : grid0.Coords, EltTy.bits .f32 = 32 ∨ (Rect.unit (s := S4x25x364x1220) (fun a => cc0_transform_1 i a * S1x25x8x1220.size a) (fun a => (Pipeline.Clip.of (cc0_transform_1 i a) (S1x25x8x1220.size a) (S4x25x364x1220.size a)).extent (S1x25x8x1220.size a)) fun a => Pipeline.Clip.inb (Pipeline.Clip.ok_of (hstart0_1 i a))).WholeWords (EltTy.packing .f32)
  hwxs0_1 : ∀ i : grid0.Coords, EltTy.bits .f32 = 32 ∨ (Rect.unit (s := S1x25x8x1220) (fun _ => 0) (fun a => (Pipeline.Clip.of (cc0_transform_1 i a) (S1x25x8x1220.size a) (S4x25x364x1220.size a)).extent (S1x25x8x1220.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x32x1220.size a < S4x364x1220.size a
  hwx0_2 : ∀ i : grid0.Coords, EltTy.bits .f32 = 32 ∨ (Rect.unit (s := S4x364x1220) (fun a => cc0_transform_2 i a * S1x32x1220.size a) (fun a => (Pipeline.Clip.of (cc0_transform_2 i a) (S1x32x1220.size a) (S4x364x1220.size a)).extent (S1x32x1220.size a)) fun a => Pipeline.Clip.inb (Pipeline.Clip.ok_of (hstart0_2 i a))).WholeWords (EltTy.packing .f32)
  hwxs0_2 : ∀ i : grid0.Coords, EltTy.bits .f32 = 32 ∨ (Rect.unit (s := S1x32x1220) (fun _ => 0) (fun a => (Pipeline.Clip.of (cc0_transform_2 i a) (S1x32x1220.size a) (S4x364x1220.size a)).extent (S1x32x1220.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x8x1220.size a < S4x364x1220.size a
  hwx0_3 : ∀ i : grid0.Coords, EltTy.bits .f32 = 32 ∨ (Rect.unit (s := S4x364x1220) (fun a => cc0_transform_3 i a * S1x8x1220.size a) (fun a => (Pipeline.Clip.of (cc0_transform_3 i a) (S1x8x1220.size a) (S4x364x1220.size a)).extent (S1x8x1220.size a)) fun a => Pipeline.Clip.inb (Pipeline.Clip.ok_of (hstart0_3 i a))).WholeWords (EltTy.packing .f32)
  hwxs0_3 : ∀ i : grid0.Coords, EltTy.bits .f32 = 32 ∨ (Rect.unit (s := S1x8x1220) (fun _ => 0) (fun a => (Pipeline.Clip.of (cc0_transform_3 i a) (S1x8x1220.size a) (S4x364x1220.size a)).extent (S1x8x1220.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x32x1220.size a < S4x364x1220.size a
  hwx0_4 : ∀ i : grid0.Coords, EltTy.bits .f32 = 32 ∨ (Rect.unit (s := S4x364x1220) (fun a => cc0_transform_4 i a * S1x32x1220.size a) (fun a => (Pipeline.Clip.of (cc0_transform_4 i a) (S1x32x1220.size a) (S4x364x1220.size a)).extent (S1x32x1220.size a)) fun a => Pipeline.Clip.inb (Pipeline.Clip.ok_of (hstart0_4 i a))).WholeWords (EltTy.packing .f32)
  hwxs0_4 : ∀ i : grid0.Coords, EltTy.bits .f32 = 32 ∨ (Rect.unit (s := S1x32x1220) (fun _ => 0) (fun a => (Pipeline.Clip.of (cc0_transform_4 i a) (S1x32x1220.size a) (S4x364x1220.size a)).extent (S1x32x1220.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x8x1220.size a < S4x364x1220.size a
  hwx0_5 : ∀ i : grid0.Coords, EltTy.bits .f32 = 32 ∨ (Rect.unit (s := S4x364x1220) (fun a => cc0_transform_5 i a * S1x8x1220.size a) (fun a => (Pipeline.Clip.of (cc0_transform_5 i a) (S1x8x1220.size a) (S4x364x1220.size a)).extent (S1x8x1220.size a)) fun a => Pipeline.Clip.inb (Pipeline.Clip.ok_of (hstart0_5 i a))).WholeWords (EltTy.packing .f32)
  hwxs0_5 : ∀ i : grid0.Coords, EltTy.bits .f32 = 32 ∨ (Rect.unit (s := S1x8x1220) (fun _ => 0) (fun a => (Pipeline.Clip.of (cc0_transform_5 i a) (S1x8x1220.size a) (S4x364x1220.size a)).extent (S1x8x1220.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x1216.size a ≤ S4x352x1216.size a
  hwx0_6 : ∀ i : grid0.Coords, EltTy.bits .f32 = 32 ∨ (Rect.block (s := S4x352x1216) S1x32x1216.size (cc0_transform_6 i) (hinb0_6 i)).WholeWords (EltTy.packing .f32)

variable [Facts₀]

abbrev win0_0 : Pipeline.Window sig grid0 :=
  Pipeline.Window.ofSpecClip (Memref.whole main_v0) S1x25x32x1220.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S1x25x8x1220.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S1x32x1220.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3) S1x8x1220.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v4) S1x32x1220.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v4) S1x8x1220.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpec (Memref.whole main_v5) S1x32x1216.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x25x356x1220 : Shape := ⟨4, ![4, 25, 356, 1220]⟩
abbrev S4x1x352x1216 : Shape := ⟨4, ![4, 1, 352, 1216]⟩
abbrev S4x352x1216 : Shape := ⟨3, ![4, 352, 1216]⟩
abbrev S_ : Shape := ⟨0, ![]⟩
abbrev S4x356x1220 : Shape := ⟨3, ![4, 356, 1220]⟩
abbrev S4x16x352x1216 : Shape := ⟨4, ![4, 16, 352, 1216]⟩
abbrev S4x9x352x1216 : Shape := ⟨4, ![4, 9, 352, 1216]⟩
abbrev S4x25x352x1216 : Shape := ⟨4, ![4, 25, 352, 1216]⟩

abbrev nBuf : Space → Nat
  | .hbm => 69
  | .vmem => 0
  | .smem => 0
  | _ => 0

abbrev bufTy : (tb : Table) → Fin (tcTables nBuf tb) → BufTy
  | .hbm, ⟨0, _⟩ => ⟨S4x25x356x1220, .f32⟩
  | .hbm, ⟨1, _⟩ => ⟨S4x1x352x1216, .f32⟩
  | .hbm, ⟨2, _⟩ => ⟨S4x1x352x1216, .f32⟩
  | .hbm, ⟨3, _⟩ => ⟨S4x352x1216, .f32⟩
  | .hbm, ⟨4, _⟩ => ⟨S_, .i32⟩
  | .hbm, ⟨5, _⟩ => ⟨S_, .f32⟩
  | .hbm, ⟨6, _⟩ => ⟨S4x356x1220, .f32⟩
  | .hbm, ⟨7, _⟩ => ⟨S4x352x1216, .f32⟩
  | .hbm, ⟨8, _⟩ => ⟨S_, .i32⟩
  | .hbm, ⟨9, _⟩ => ⟨S_, .f32⟩
  | .hbm, ⟨10, _⟩ => ⟨S4x356x1220, .f32⟩
  | .hbm, ⟨11, _⟩ => ⟨S4x352x1216, .f32⟩
  | .hbm, ⟨12, _⟩ => ⟨S4x352x1216, .f32⟩
  | .hbm, ⟨13, _⟩ => ⟨S4x352x1216, .f32⟩
  | .hbm, ⟨14, _⟩ => ⟨S4x352x1216, .f32⟩
  | .hbm, ⟨15, _⟩ => ⟨S4x352x1216, .f32⟩
  | .hbm, ⟨16, _⟩ => ⟨S4x352x1216, .f32⟩
  | .hbm, ⟨17, _⟩ => ⟨S4x352x1216, .f32⟩
  | .hbm, ⟨18, _⟩ => ⟨S4x352x1216, .f32⟩
  | .hbm, ⟨19, _⟩ => ⟨S4x352x1216, .f32⟩
  | .hbm, ⟨20, _⟩ => ⟨S4x352x1216, .f32⟩
  | .hbm, ⟨21, _⟩ => ⟨S4x352x1216, .f32⟩
  | .hbm, ⟨22, _⟩ => ⟨S4x352x1216, .f32⟩
  | .hbm, ⟨23, _⟩ => ⟨S4x352x1216, .f32⟩
  | .hbm, ⟨24, _⟩ => ⟨S4x352x1216, .f32⟩
  | .hbm, ⟨25, _⟩ => ⟨S4x352x1216, .f32⟩
  | .hbm, ⟨26, _⟩ => ⟨S4x352x1216, .f32⟩
  | .hbm, ⟨27, _⟩ => ⟨S4x352x1216, .f32⟩
  | .hbm, ⟨28, _⟩ => ⟨S4x352x1216, .f32⟩
  | .hbm, ⟨29, _⟩ => ⟨S4x352x1216, .f32⟩
  | .hbm, ⟨30, _⟩ => ⟨S4x352x1216, .f32⟩
  | .hbm, ⟨31, _⟩ => ⟨S4x352x1216, .f32⟩
  | .hbm, ⟨32, _⟩ => ⟨S4x352x1216, .f32⟩
  | .hbm, ⟨33, _⟩ => ⟨S4x352x1216, .f32⟩
  | .hbm, ⟨34, _⟩ => ⟨S4x352x1216, .f32⟩
  | .hbm, ⟨35, _⟩ => ⟨S4x352x1216, .f32⟩
  | .hbm, ⟨36, _⟩ => ⟨S4x1x352x1216, .f32⟩
  | .hbm, ⟨37, _⟩ => ⟨S4x1x352x1216, .f32⟩
  | .hbm, ⟨38, _⟩ => ⟨S4x1x352x1216, .f32⟩
  | .hbm, ⟨39, _⟩ => ⟨S4x1x352x1216, .f32⟩
  | .hbm, ⟨40, _⟩ => ⟨S4x1x352x1216, .f32⟩
  | .hbm, ⟨41, _⟩ => ⟨S4x1x352x1216, .f32⟩
  | .hbm, ⟨42, _⟩ => ⟨S4x1x352x1216, .f32⟩
  | .hbm, ⟨43, _⟩ => ⟨S4x1x352x1216, .f32⟩
  | .hbm, ⟨44, _⟩ => ⟨S4x1x352x1216, .f32⟩
  | .hbm, ⟨45, _⟩ => ⟨S4x1x352x1216, .f32⟩
  | .hbm, ⟨46, _⟩ => ⟨S4x1x352x1216, .f32⟩
  | .hbm, ⟨47, _⟩ => ⟨S4x1x352x1216, .f32⟩
  | .hbm, ⟨48, _⟩ => ⟨S4x1x352x1216, .f32⟩
  | .hbm, ⟨49, _⟩ => ⟨S4x1x352x1216, .f32⟩
  | .hbm, ⟨50, _⟩ => ⟨S4x1x352x1216, .f32⟩
  | .hbm, ⟨51, _⟩ => ⟨S4x1x352x1216, .f32⟩
  | .hbm, ⟨52, _⟩ => ⟨S4x1x352x1216, .f32⟩
  | .hbm, ⟨53, _⟩ => ⟨S4x1x352x1216, .f32⟩
  | .hbm, ⟨54, _⟩ => ⟨S4x1x352x1216, .f32⟩
  | .hbm, ⟨55, _⟩ => ⟨S4x1x352x1216, .f32⟩
  | .hbm, ⟨56, _⟩ => ⟨S4x1x352x1216, .f32⟩
  | .hbm, ⟨57, _⟩ => ⟨S4x1x352x1216, .f32⟩
  | .hbm, ⟨58, _⟩ => ⟨S4x1x352x1216, .f32⟩
  | .hbm, ⟨59, _⟩ => ⟨S4x1x352x1216, .f32⟩
  | .hbm, ⟨60, _⟩ => ⟨S4x1x352x1216, .f32⟩
  | .hbm, ⟨61, _⟩ => ⟨S4x16x352x1216, .f32⟩
  | .hbm, ⟨62, _⟩ => ⟨S4x9x352x1216, .f32⟩
  | .hbm, ⟨63, _⟩ => ⟨S4x25x352x1216, .f32⟩
  | .hbm, ⟨64, _⟩ => ⟨S4x25x352x1216, .f32⟩
  | .hbm, ⟨65, _⟩ => ⟨S4x25x352x1216, .f32⟩
  | .hbm, ⟨66, _⟩ => ⟨S_, .f32⟩
  | .hbm, ⟨67, _⟩ => ⟨S4x352x1216, .f32⟩
  | .hbm, ⟨68, _⟩ => ⟨S4x1x352x1216, .f32⟩
  | _, _ => ⟨S4x25x356x1220, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst : Ref sig .tc := ⟨.hbm, 66, rfl⟩
abbrev main_v59 : Ref sig .tc := ⟨.hbm, 67, rfl⟩
abbrev main_v60 : Ref sig .tc := ⟨.hbm, 68, rfl⟩

abbrev nD : Nat := 1
abbrev τ : Topo := Topo.v7x

variable {F : FTy → Type} [FloatOps F]

class Facts₀ : Prop where
  shapeCasts_S4x1x352x1216_S4x352x1216 : S4x1x352x1216.ShapeCasts S4x352x1216
  pads_S4x352x1216_S4x356x1220_000_220_220 : S4x352x1216.Pads (![0, 2, 2] : Fin 3 → Nat) ![0, 2, 2] ![0, 0, 0] S4x356x1220
  h_S_ : 0 < S_.numel
  slices_S4x356x1220_S4x352x1216_0_4_4 : S4x356x1220.Slices ![0, 4, 4] S4x352x1216
  slices_S4x356x1220_S4x352x1216_0_4_3 : S4x356x1220.Slices ![0, 4, 3] S4x352x1216
  slices_S4x356x1220_S4x352x1216_0_4_2 : S4x356x1220.Slices ![0, 4, 2] S4x352x1216
  slices_S4x356x1220_S4x352x1216_0_4_1 : S4x356x1220.Slices ![0, 4, 1] S4x352x1216
  slices_S4x356x1220_S4x352x1216_0_4_0 : S4x356x1220.Slices ![0, 4, 0] S4x352x1216
  slices_S4x356x1220_S4x352x1216_0_3_4 : S4x356x1220.Slices ![0, 3, 4] S4x352x1216
  slices_S4x356x1220_S4x352x1216_0_3_3 : S4x356x1220.Slices ![0, 3, 3] S4x352x1216
  slices_S4x356x1220_S4x352x1216_0_3_2 : S4x356x1220.Slices ![0, 3, 2] S4x352x1216
  slices_S4x356x1220_S4x352x1216_0_3_1 : S4x356x1220.Slices ![0, 3, 1] S4x352x1216
  slices_S4x356x1220_S4x352x1216_0_3_0 : S4x356x1220.Slices ![0, 3, 0] S4x352x1216
  slices_S4x356x1220_S4x352x1216_0_2_4 : S4x356x1220.Slices ![0, 2, 4] S4x352x1216
  slices_S4x356x1220_S4x352x1216_0_2_3 : S4x356x1220.Slices ![0, 2, 3] S4x352x1216
  slices_S4x356x1220_S4x352x1216_0_2_2 : S4x356x1220.Slices ![0, 2, 2] S4x352x1216
  slices_S4x356x1220_S4x352x1216_0_2_1 : S4x356x1220.Slices ![0, 2, 1] S4x352x1216
  slices_S4x356x1220_S4x352x1216_0_2_0 : S4x356x1220.Slices ![0, 2, 0] S4x352x1216
  slices_S4x356x1220_S4x352x1216_0_1_4 : S4x356x1220.Slices ![0, 1, 4] S4x352x1216
  slices_S4x356x1220_S4x352x1216_0_1_3 : S4x356x1220.Slices ![0, 1, 3] S4x352x1216
  slices_S4x356x1220_S4x352x1216_0_1_2 : S4x356x1220.Slices ![0, 1, 2] S4x352x1216
  slices_S4x356x1220_S4x352x1216_0_1_1 : S4x356x1220.Slices ![0, 1, 1] S4x352x1216
  slices_S4x356x1220_S4x352x1216_0_1_0 : S4x356x1220.Slices ![0, 1, 0] S4x352x1216
  slices_S4x356x1220_S4x352x1216_0_0_4 : S4x356x1220.Slices ![0, 0, 4] S4x352x1216
  slices_S4x356x1220_S4x352x1216_0_0_3 : S4x356x1220.Slices ![0, 0, 3] S4x352x1216
  slices_S4x356x1220_S4x352x1216_0_0_2 : S4x356x1220.Slices ![0, 0, 2] S4x352x1216
  slices_S4x356x1220_S4x352x1216_0_0_1 : S4x356x1220.Slices ![0, 0, 1] S4x352x1216
  slices_S4x356x1220_S4x352x1216_0_0_0 : S4x356x1220.Slices ![0, 0, 0] S4x352x1216
  bcast_S4x352x1216_S4x1x352x1216_0_2_3 : S4x352x1216.BroadcastsInDim S4x1x352x1216 (![0, 2, 3] : Fin 3 → Fin S4x1x352x1216.rank)
  concatenates_S4x1x352x1216_S4x1x352x1216_S4x1x352x1216_S4x1x352x1216_S4x1x352x1216_S4x1x352x1216_S4x1x352x1216_S4x1x352x1216_S4x1x352x1216_S4x1x352x1216_S4x1x352x1216_S4x1x352x1216_S4x1x352x1216_S4x1x352x1216_S4x1x352x1216_S4x1x352x1216_S4x16x352x1216_d1 : Shape.Concatenates [S4x1x352x1216, S4x1x352x1216, S4x1x352x1216, S4x1x352x1216, S4x1x352x1216, S4x1x352x1216, S4x1x352x1216, S4x1x352x1216, S4x1x352x1216, S4x1x352x1216, S4x1x352x1216, S4x1x352x1216, S4x1x352x1216, S4x1x352x1216, S4x1x352x1216, S4x1x352x1216] S4x16x352x1216 1
  concatenates_S4x1x352x1216_S4x1x352x1216_S4x1x352x1216_S4x1x352x1216_S4x1x352x1216_S4x1x352x1216_S4x1x352x1216_S4x1x352x1216_S4x1x352x1216_S4x9x352x1216_d1 : Shape.Concatenates [S4x1x352x1216, S4x1x352x1216, S4x1x352x1216, S4x1x352x1216, S4x1x352x1216, S4x1x352x1216, S4x1x352x1216, S4x1x352x1216, S4x1x352x1216] S4x9x352x1216 1
  concatenates_S4x16x352x1216_S4x9x352x1216_S4x25x352x1216_d1 : Shape.Concatenates [S4x16x352x1216, S4x9x352x1216] S4x25x352x1216 1
  slices_S4x25x356x1220_S4x25x352x1216_0_0_2_2 : S4x25x356x1220.Slices ![0, 0, 2, 2] S4x25x352x1216
  reducesTo_S4x25x352x1216_S4x352x1216_d1 : S4x25x352x1216.ReducesTo [1] S4x352x1216

variable [Facts₀]

class Facts : Prop extends Facts₀ where

variable [Facts]
-- ==== Proof.K.Blocks.lean ====
/-
  The windows' blocks as a grid point finds them, and the fact that no transfer of this kernel is ever cut:
  the six input windows were declared as possibly overhanging their arrays (the padded row extent 364 is no
  multiple of the 32-row or of the 8-row block), but the grid's eleven row tiles stop at row 359, so at every one
  of the 44 points every block lies inside its array.
-/
import proofs.«154281_j25374666784912_1_alg».proof.Proof.Gen.Kernel.Launch
import proofs.«154281_j25374666784912_1_alg».proof.Proof.Gen.Kernel.Points
import Idealize.ShloMosaic.Lib.Pipeline.Frame

noncomputable section

namespace Cert.Kernel.Shift

open Idealize.ShloMosaic Idealize.ShloMosaic.TcCoe
open Idealize.SL Idealize.SL.Sem
open Cert.Kernel Cert.Kernel.Gen
open Idealize.ShloMosaic.Pipeline (Dat Cfg Window)

variable {F : FTy → Type} [FloatOps F]

/-- At every grid point, no axis of any window's block is cut at its array's end. -/
theorem clip_none : ∀ (w : Fin 7) (t : Fin cfg0.N) (a : Fin (cfg0.win w).shape.rank), (cfg0.win w).clip (cfg0.grid.coords t) a = none := by
  decide +kernel

variable (V : (c : Dev nD) → (b : Ref sig .tc) → Buf (Elt F) ((c : Thread nD τ).loc b))

/-- Window `w`'s block at point `t`, read off its array as the region finds it (`V`), as contents of the whole
    staging block (nothing is cut, so the filler is never read). -/
def iblk (c : Dev nD) (w : Fin cfg0.W) (t : Fin cfg0.N) : (cfg0.win w).block.Idx → Elt F (cfg0.win w).elt :=
  (cfg0.win w).fill (cfg0.grid.coords t) (fun _ => Classical.arbitrary _)
    (((cfg0.win w).blk t).view.read (Elt F) (V c (Pipeline.arrRef spec0 w)))

end Cert.Kernel.Shift

end
-- ==== Proof.K.Out.lean ====
/-
  What one grid point leaves in the output window's staging buffer, as a pure function of the six input
  blocks the point is handed: the body's single store of its accumulator, the accumulator being the chain of
  the body's named values (the two weight blocks re-joined and cropped, the five row-shifted source windows,
  the three stretches of the 25 multiply-adds).
-/
import proofs.«154281_j25374666784912_1_alg».proof.Proof.Gen.Kernel.Skeleton

noncomputable section

namespace Cert.Kernel.Shift

open Idealize.ShloMosaic Idealize.SL.Sem
open Cert.Kernel Cert.Kernel.Gen

variable {F : FTy → Type} [FloatOps F]

/-- The block stored at a point, from the weight window's main and overflow blocks `x0`, `x1`, the first
    source's `x2`, `x3` and the second source's `x4`, `x5`. -/
def stored (x0 : Vec F S1x25x32x1220 .f32) (x1 : Vec F S1x25x8x1220 .f32) (x2 : Vec F S1x32x1220 .f32) (x3 : Vec F S1x8x1220 .f32)
    (x4 : Vec F S1x32x1220 .f32) (x5 : Vec F S1x8x1220 .f32) : Vec F S1x32x1216 .f32 :=
  k0_pay1 (k0_pay12 (k0_pay2 x2) (k0_pay4 x0 x1) (k0_pay7 x2 x3) (k0_pay8 x2 x3)
    (k0_pay11 (k0_pay4 x0 x1) (k0_pay5 x2 x3) (k0_pay6 x2 x3) (k0_pay7 x2 x3) (k0_pay9 x4 x5) (k0_pay10 x0 x1 x2 x3)))

end Cert.Kernel.Shift

end
-- ==== Proof.K.Body.lean ====
/-
  The body's triple: on whole staging buffers, the six input buffers at given contents and the output buffer at
  any, the kernel body runs to its end leaving the inputs as they were and the output buffer at `stored` of them
  (its one store covers the whole buffer; the load of the output buffer that precedes it reads a value nothing uses).
-/
import proofs.«154281_j25374666784912_1_alg».proof.Proof.Gen.Kernel.Launch
import proofs.«154281_j25374666784912_1_alg».proof.Proof.Gen.Kernel.Skeleton
import proofs.«154281_j25374666784912_1_alg».proof.Proof.K.Out
import Idealize.ShloMosaic.Lib.Pipeline.FrameBody
import Idealize.ShloMosaic.Lib.Pipeline.Value
import Idealize.ShloMosaic.Lib.Tactic

set_option maxRecDepth 16384

noncomputable section

namespace Cert.Kernel.Shift

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The zero offsets of a rank-3 access, however spelt. -/
theorem zero3 : (![0, 0, 0] : Fin 3 → Nat) = fun _ => 0 := funext fun a => by fin_cases a <;> rfl

/-- The zero offsets of a rank-4 access, however spelt. -/
theorem zero4 : (![0, 0, 0, 0] : Fin 4 → Nat) = fun _ => 0 := funext fun a => by fin_cases a <;> rfl

set_option maxHeartbeats 1000000 in
theorem sound_kernel (c : Dev nD) (E : Set ℕ) (i : grid0.Coords)
    (arg2 : Memref sig .tc .vmem S1x25x32x1220 .f32) (harg2 : arg2.IsWhole) (arg3 : Memref sig .tc .vmem S1x25x8x1220 .f32) (harg3 : arg3.IsWhole)
    (arg4 : Memref sig .tc .vmem S1x32x1220 .f32) (harg4 : arg4.IsWhole) (arg5 : Memref sig .tc .vmem S1x8x1220 .f32) (harg5 : arg5.IsWhole)
    (arg6 : Memref sig .tc .vmem S1x32x1220 .f32) (harg6 : arg6.IsWhole) (arg7 : Memref sig .tc .vmem S1x8x1220 .f32) (harg7 : arg7.IsWhole)
    (arg8 : Memref sig .tc .vmem S1x32x1216 .f32) (harg8 : arg8.IsWhole)
    (x0 : Vec F S1x25x32x1220 .f32) (x1 : Vec F S1x25x8x1220 .f32) (x2 : Vec F S1x32x1220 .f32) (x3 : Vec F S1x8x1220 .f32)
    (x4 : Vec F S1x32x1220 .f32) (x5 : Vec F S1x8x1220 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (stored x0 x1 x2 x3 x4 x5)) -∗ K ⟨⟩))
      ⊢ wp frame (wpE (defs₀ (F := F)) Variants.none c none) E
          (cc0__kernel i arg2 harg2 arg3 harg3 arg4 harg4 arg5 harg5 arg6 harg6 arg7 harg7 arg8 harg8) K := by
  simp only [cc0__kernel_eq_skeleton]; unfold cc0__kernel_skel
  simp only [k0_part1_eq_skeleton, k0_part2_eq_skeleton, k0_part3_eq_skeleton]
  unfold k0_part1_skel k0_part2_skel k0_part3_skel
  -- each owned buffer is raw contents that read as the stated block
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  -- the six whole loads, the three pure stretches, the unused load of the output buffer, its one store
  sl_exec
  sl_step
  -- the inputs are as they were
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output buffer: one store over the whole buffer leaves its payload, and a whole load reads the contents
  iexists _; isplitr
  swap; · iexact H6
  ipureintro
  rw [View.read_writes_eq_canon _ _ _ (fun y => ⟨_, List.mem_singleton_self _,
    View.mem_set_unit_zero zero3 inb_S1x32x1216_S1x32x1216_0_0_0 y⟩)]
  rw [View.canon_unit_zero zero3]
  unfold stored
  simp only [View.readAt_eq_ld, View.ld_unit_zero (S := S1x32x1220) zero3, View.ld_unit_zero (S := S1x8x1220) zero3,
    View.ld_unit_zero (S := S1x25x32x1220) zero4, View.ld_unit_zero (S := S1x25x8x1220) zero4]

end Cert.Kernel.Shift

end
-- ==== Proof.K.Data.lean ====
/-
  The pipeline's proof data and the body obligation. The arrays are as the region finds them (`V`); after the body
  each input's staging buffer still holds its block and the output's holds `stored` of the six input blocks; the
  region invariant is the scoped rest and the generator register, untouched; nothing is owed. The three arrays
  that are each read through TWO windows (a main 32-row block and an 8-row overflow block) are held half and half
  by those windows.
-/
import proofs.«154281_j25374666784912_1_alg».proof.Proof.K.Blocks
import proofs.«154281_j25374666784912_1_alg».proof.Proof.K.Body

set_option maxRecDepth 16384

noncomputable section

namespace Cert.Kernel.Shift

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the one pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => stored (iblk V c 0 t) (iblk V c 1 t) (iblk V c 2 t) (iblk V c 3 t) (iblk V c 4 t) (iblk V c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) :
    (dat V c).after 6 t = stored (iblk V c 0 t) (iblk V c 1 t) (iblk V c 2 t) (iblk V c 3 t) (iblk V c 4 t) (iblk V c 5 t) := by
  dsimp only [dat]

/-- An input window is fetched at every point and the fetch is never cut: its buffer holds the block. -/
theorem before_in (c : Dev nD) (w : Fin cfg0.W) (hf : ∀ t : Fin cfg0.N, (cfg0.win w).fetch t = true) (t : Fin cfg0.N) (d) :
    (dat V c).before w t d = iblk V c w t := by
  rw [(dat V c).before_fetched w t (hf t) d]
  unfold Dat.fetched Dat.blockOf iblk
  rw [A_eq]
  exact Pipeline.fill_of_clip_none w _ (clip_none w t) _ _ _

/-- What the body is called with at point `t`: the invariant, nothing owed, and every window's current buffer, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in V c 0 fetch0_0, before_in V c 1 fetch0_1, before_in V c 2 fetch0_2, before_in V c 3 fetch0_3,
    before_in V c 4 fetch0_4, before_in V c 5 fetch0_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Shift

end
-- ==== Proof.K.Vals.lean ====
/-
  The contents of core `c`'s unscoped buffers at each boundary of @main, folded from the launch memory: after the
  six stretches of host operations that build the padded arrays (the region's entry), after the region (its output
  array at what the write-backs leave, everything else as entered), and after the final broadcast.
-/
import proofs.«154281_j25374666784912_1_alg».proof.Proof.K.Data
import Idealize.ShloMosaic.Lib.StableHlo.Run

noncomputable section

namespace Cert.Kernel.Shift

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ)

/-- Core `c`'s buffers at launch. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
/-- At the region's entry: the weights padded by eight rows, each source reshaped and padded. -/
abbrev W6 (c : Dev nD) : Valuation τ sig (Elt F) := StableHlo.after hostOps0_5 (W5 m c)
/-- The same read at the TensorCore's references: what the region's proof data take. -/
abbrev Vin : (c : Dev nD) → (b : Ref sig .tc) → Buf (Elt F) ((c : Thread nD τ).loc b) := fun c b => W6 m c b
/-- At the region's exit: the output window's array at what its write-backs leave, every other buffer as entered
    (the input windows only read their arrays). -/
def W7 (c : Dev nD) : Valuation τ sig (Elt F) :=
  Function.update (W6 m c) (Proc.devRef .tc main_v5) ((dat (Vin m) c).arrAt 6 cfg0.N)
abbrev Vout : (c : Dev nD) → (b : Ref sig .tc) → Buf (Elt F) ((c : Thread nD τ).loc b) := fun c b => W7 m c b
/-- At the return: after the broadcast of the result to its rank-4 shape. -/
abbrev W8 (c : Dev nD) : Valuation τ sig (Elt F) := StableHlo.after hostOps1 (W7 m c)

theorem W7_v5 (c : Dev nD) : W7 m c (Proc.devRef .tc main_v5) = (dat (Vin m) c).arrAt 6 cfg0.N := by
  unfold W7; exact Function.update_self ..

theorem W7_of_ne (c : Dev nD) (b : Ref sig .tc) (hb : b ≠ main_v5) : W7 m c (Proc.devRef .tc b) = W6 m c (Proc.devRef .tc b) := by
  unfold W7; exact Function.update_of_ne (StableHlo.devRef_ne_of_ne hb) ..

end Cert.Kernel.Shift

end
-- ==== Proof.K.Share.lean ====
/-
  Splitting and re-joining the arrays that two windows read. At the region's entry each of the three padded input
  arrays, held whole, is dealt half and half to its two windows; at the exit the two halves, which still hold the
  same contents (an input window never writes its array), make the whole again.
-/
import proofs.«154281_j25374666784912_1_alg».proof.Proof.K.Vals
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Shift

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct arrays behind the seven windows. -/
theorem arrRefs_eq : Finset.univ.image (Pipeline.arrRef spec0) = ({main_v0, main_v3, main_v4, main_v5} : Finset (Ref sig .tc)) := by
  decide

omit [FloatOps F] in
theorem arr_pt (c : Dev nD) (w : Fin 7) (q : PosShare TreeShare) (G : Buf (Elt F) ((cfg0.win w).arr.view.loc (c : Thread nD τ))) :
    ((cfg0.win w).arr.view.loc (c.tc : Thread nD τ) ↦[(cfg0.win w).arr.view.set]{q} G : sProp 𝕄)
      = (((c.tc : Thread nD τ).loc (Pipeline.arrRef spec0 w)) ↦{q} G) := by
  rw [(arr_whole0 w).set_eq_univ]

theorem share_0 (c : Dev nD) : (dat V c).share 0 = fullShare.left := rfl
theorem share_1 (c : Dev nD) : (dat V c).share 1 = fullShare.right := rfl
theorem share_2 (c : Dev nD) : (dat V c).share 2 = fullShare.left := rfl
theorem share_3 (c : Dev nD) : (dat V c).share 3 = fullShare.right := rfl
theorem share_4 (c : Dev nD) : (dat V c).share 4 = fullShare.left := rfl
theorem share_5 (c : Dev nD) : (dat V c).share 5 = fullShare.right := rfl
theorem share_6 (c : Dev nD) : (dat V c).share 6 = fullShare := rfl

theorem arrays_in (c : Dev nD) :
    (Pipeline.arrBufs (Ix := Unit) (Name := ℕ) (U := UR sig nD τ) (Lvl := ℕ) spec0 c (V c) : sProp 𝕄)
      ⊢ (dat V c).arrays ((dat V c).arrAt · 0) := by
  unfold Pipeline.arrBufs Dat.arrays
  rw [arrRefs_eq, bigSep_W0]
  have e : (bigSep ({main_v0, main_v3, main_v4, main_v5} : Finset (Ref sig .tc)) (fun b => (((c.tc : Thread nD τ).loc b) ↦{fullShare} V c b : sProp 𝕄)))
      = iprop((((c.tc : Thread nD τ).loc main_v0) ↦{fullShare} V c main_v0) ∗ (((c.tc : Thread nD τ).loc main_v3) ↦{fullShare} V c main_v3)
          ∗ (((c.tc : Thread nD τ).loc main_v4) ↦{fullShare} V c main_v4) ∗ (((c.tc : Thread nD τ).loc main_v5) ↦{fullShare} V c main_v5)) := by
    rw [BI.bigSep_insert (by decide), BI.bigSep_insert (by decide), BI.bigSep_insert (by decide), BI.bigSep_singleton]
    rfl
  rw [e]
  rw [arr_pt c 0, arr_pt c 1, arr_pt c 2, arr_pt c 3, arr_pt c 4, arr_pt c 5, arr_pt c 6,
    share_0, share_1, share_2, share_3, share_4, share_5, share_6]
  iintro H
  icases H with ⟨H0, H'⟩
  icases H' with ⟨H3, H''⟩
  icases H'' with ⟨H4, H5⟩
  ihave H0' := (pointsTo_share (PosShare.mem_left_op_right fullShare)).1 $$ H0
  icases H0' with ⟨H0l, H0r⟩
  ihave H3' := (pointsTo_share (PosShare.mem_left_op_right fullShare)).1 $$ H3
  icases H3' with ⟨H3l, H3r⟩
  ihave H4' := (pointsTo_share (PosShare.mem_left_op_right fullShare)).1 $$ H4
  icases H4' with ⟨H4l, H4r⟩
  isplitl [H0l]; · iexact H0l
  isplitl [H0r]; · iexact H0r
  isplitl [H3l]; · iexact H3l
  isplitl [H3r]; · iexact H3r
  isplitl [H4l]; · iexact H4l
  isplitl [H4r]; · iexact H4r
  iexact H5

omit [FloatOps F] in
/-- Two halves of one buffer, at contents that are both `h`, are the whole buffer at `h`. -/
theorem join_halves (ℓ : Loc nD τ sig) (f g h : Buf (Elt F) ℓ) (hf : f = h) (hg : g = h) :
    iprop((ℓ ↦{fullShare.left} f) ∗ (ℓ ↦{fullShare.right} g)) ⊢ (ℓ ↦{fullShare} h : sProp 𝕄) := by
  subst hf; subst hg; exact (pointsTo_share (PosShare.mem_left_op_right fullShare)).2

theorem arrays_out (V' : (c : Dev nD) → (b : Ref sig .tc) → Buf (Elt F) ((c : Thread nD τ).loc b)) (c : Dev nD)
    (h0 : V' c main_v0 = V c main_v0) (h3 : V' c main_v3 = V c main_v3) (h4 : V' c main_v4 = V c main_v4)
    (h5 : V' c main_v5 = (dat V c).arrAt 6 cfg0.N) :
    (dat V c).arrays ((dat V c).arrAt · cfg0.N)
      ⊢ (Pipeline.arrBufs (Ix := Unit) (Name := ℕ) (U := UR sig nD τ) (Lvl := ℕ) spec0 c (V' c) : sProp 𝕄) := by
  unfold Pipeline.arrBufs Dat.arrays
  rw [arrRefs_eq, bigSep_W0]
  have e : (bigSep ({main_v0, main_v3, main_v4, main_v5} : Finset (Ref sig .tc)) (fun b => (((c.tc : Thread nD τ).loc b) ↦{fullShare} V' c b : sProp 𝕄)))
      = iprop((((c.tc : Thread nD τ).loc main_v0) ↦{fullShare} V' c main_v0) ∗ (((c.tc : Thread nD τ).loc main_v3) ↦{fullShare} V' c main_v3)
          ∗ (((c.tc : Thread nD τ).loc main_v4) ↦{fullShare} V' c main_v4) ∗ (((c.tc : Thread nD τ).loc main_v5) ↦{fullShare} V' c main_v5)) := by
    rw [BI.bigSep_insert (by decide), BI.bigSep_insert (by decide), BI.bigSep_insert (by decide), BI.bigSep_singleton]
    rfl
  rw [e, h0, h3, h4, h5]
  rw [arr_pt c 0, arr_pt c 1, arr_pt c 2, arr_pt c 3, arr_pt c 4, arr_pt c 5, arr_pt c 6,
    share_0, share_1, share_2, share_3, share_4, share_5, share_6]
  have a0 : (dat V c).arrAt 0 cfg0.N = V c main_v0 := ((dat V c).arrAt_in 0 rfl _).trans (A_eq V c 0)
  have a1 : (dat V c).arrAt 1 cfg0.N = V c main_v0 := ((dat V c).arrAt_in 1 rfl _).trans (A_eq V c 1)
  have a2 : (dat V c).arrAt 2 cfg0.N = V c main_v3 := ((dat V c).arrAt_in 2 rfl _).trans (A_eq V c 2)
  have a3 : (dat V c).arrAt 3 cfg0.N = V c main_v3 := ((dat V c).arrAt_in 3 rfl _).trans (A_eq V c 3)
  have a4 : (dat V c).arrAt 4 cfg0.N = V c main_v4 := ((dat V c).arrAt_in 4 rfl _).trans (A_eq V c 4)
  have a5 : (dat V c).arrAt 5 cfg0.N = V c main_v4 := ((dat V c).arrAt_in 5 rfl _).trans (A_eq V c 5)
  iintro H
  icases H with ⟨H0l, H0r, H3l, H3r, H4l, H4r, H5⟩
  isplitl [H0l H0r]
  · iapply (join_halves ((c.tc : Thread nD τ).loc main_v0) _ _ _ a0 a1); isplitl [H0l] <;> iassumption
  isplitl [H3l H3r]
  · iapply (join_halves ((c.tc : Thread nD τ).loc main_v3) _ _ _ a2 a3); isplitl [H3l] <;> iassumption
  isplitl [H4l H4r]
  · iapply (join_halves ((c.tc : Thread nD τ).loc main_v4) _ _ _ a4 a5); isplitl [H4l] <;> iassumption
  iexact H5

/-- The launch's unscoped buffers are the four arrays behind the windows and the rest. -/
theorem unscopedBufs_parts (c : Dev nD) :
    (unscopedBufs (Ix := Unit) (Name := ℕ) (U := UR sig nD τ) (Lvl := ℕ) c (V c) : sProp 𝕄)
      = iprop((Pipeline.arrBufs spec0 c (V c) : sProp 𝕄) ∗ Pipeline.unscopedRest spec0 c (V c)) :=
  Pipeline.unscopedBufs_split₀ cfgs 0 winFacts₀0.arr_unscoped c (V c)

/-- Buffers that are no window's array keep their contents across the region. -/
theorem rest_congr (V' : (c : Dev nD) → (b : Ref sig .tc) → Buf (Elt F) ((c : Thread nD τ).loc b)) (c : Dev nD)
    (h : ∀ b : Ref sig .tc, b ≠ main_v5 → V' c b = V c b) :
    (Pipeline.unscopedRest (Ix := Unit) (Name := ℕ) (U := UR sig nD τ) (Lvl := ℕ) spec0 c (V c) : sProp 𝕄)
      ⊢ Pipeline.unscopedRest spec0 c (V' c) := by
  unfold Pipeline.unscopedRest
  refine Entails.of_eq (bigSep_congr fun b hb => ?_)
  rw [h b (fun e => (Finset.mem_sdiff.mp hb).2 (by rw [arrRefs_eq, e]; decide))]

end Cert.Kernel.Shift

end
-- ==== Proof.K.Args.lean ====
/-
  No host operation and no window of the region writes an argument array: each reaches the return as launched.
-/
import proofs.«154281_j25374666784912_1_alg».proof.Proof.K.Vals
import Idealize.ShloMosaic.Lib.StableHlo.Run

noncomputable section

namespace Cert.Kernel.Shift

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- A stretch of host operations leaves alone a reference none of them writes: each operation writes its one
    result reference, and the references are told apart by name. -/
local macro "not_written" : tactic =>
  `(tactic| (refine StableHlo.after_of_forall_not_mem _ _ (List.forall_iff_forall_mem.mp ?_)
             simp only [List.Forall, StableHlo.nullary_writes, StableHlo.unary_writes, StableHlo.binary_writes,
               StableHlo.reshape_writes, Finset.mem_singleton]
             repeat' apply And.intro
             all_goals exact StableHlo.devRef_ne_of_ne (by decide)))

theorem W8_arg0 (c : Dev nD) : W8 m c (Proc.devRef .tc main_arg0) = m ((c : Thread nD τ).loc main_arg0) :=
  calc W8 m c (Proc.devRef .tc main_arg0)
    _ = W7 m c (Proc.devRef .tc main_arg0) := by not_written
    _ = W6 m c (Proc.devRef .tc main_arg0) := W7_of_ne m c main_arg0 (by decide)
    _ = W5 m c (Proc.devRef .tc main_arg0) := by not_written
    _ = W4 m c (Proc.devRef .tc main_arg0) := by not_written
    _ = W3 m c (Proc.devRef .tc main_arg0) := by not_written
    _ = W2 m c (Proc.devRef .tc main_arg0) := by not_written
    _ = W1 m c (Proc.devRef .tc main_arg0) := by not_written
    _ = W0 m c (Proc.devRef .tc main_arg0) := by not_written
    _ = m ((c : Thread nD τ).loc main_arg0) := rfl

theorem W8_arg1 (c : Dev nD) : W8 m c (Proc.devRef .tc main_arg1) = m ((c : Thread nD τ).loc main_arg1) :=
  calc W8 m c (Proc.devRef .tc main_arg1)
    _ = W7 m c (Proc.devRef .tc main_arg1) := by not_written
    _ = W6 m c (Proc.devRef .tc main_arg1) := W7_of_ne m c main_arg1 (by decide)
    _ = W5 m c (Proc.devRef .tc main_arg1) := by not_written
    _ = W4 m c (Proc.devRef .tc main_arg1) := by not_written
    _ = W3 m c (Proc.devRef .tc main_arg1) := by not_written
    _ = W2 m c (Proc.devRef .tc main_arg1) := by not_written
    _ = W1 m c (Proc.devRef .tc main_arg1) := by not_written
    _ = W0 m c (Proc.devRef .tc main_arg1) := by not_written
    _ = m ((c : Thread nD τ).loc main_arg1) := rfl

theorem W8_arg2 (c : Dev nD) : W8 m c (Proc.devRef .tc main_arg2) = m ((c : Thread nD τ).loc main_arg2) :=
  calc W8 m c (Proc.devRef .tc main_arg2)
    _ = W7 m c (Proc.devRef .tc main_arg2) := by not_written
    _ = W6 m c (Proc.devRef .tc main_arg2) := W7_of_ne m c main_arg2 (by decide)
    _ = W5 m c (Proc.devRef .tc main_arg2) := by not_written
    _ = W4 m c (Proc.devRef .tc main_arg2) := by not_written
    _ = W3 m c (Proc.devRef .tc main_arg2) := by not_written
    _ = W2 m c (Proc.devRef .tc main_arg2) := by not_written
    _ = W1 m c (Proc.devRef .tc main_arg2) := by not_written
    _ = W0 m c (Proc.devRef .tc main_arg2) := by not_written
    _ = m ((c : Thread nD τ).loc main_arg2) := rfl

end Cert.Kernel.Shift

end
-- ==== Proof.K.Run.lean ====
/-
  The run of @main: six stretches of host operations, the one kernel region, one more host operation, composed in
  order. Between two items core `c` holds every unscoped buffer whole at the boundary's contents (`W0` … `W8`), the
  generator register at some state, and owes nothing. The region takes its four arrays out of the buffers — the
  three input arrays dealt half and half to the two windows that read each — and puts them back at its exit with the
  output array at what the write-backs leave.
-/
import proofs.«154281_j25374666784912_1_alg».proof.Proof.K.Share
import proofs.«154281_j25374666784912_1_alg».proof.Proof.K.Args
import Idealize.ShloMosaic.Lib.Ring
import Idealize.ShloMosaic.Lib.Tactic

set_option maxRecDepth 16384

noncomputable section

namespace Cert.Kernel.Shift

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (Vin m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W8`, the generator register at some state. -/
abbrev Tₙ (c : Dev nD) : sProp 𝕄 := iprop(StableHlo.held (c : Thread nD τ) (Pipeline.ucRefs τ sig) (W8 m c) ∗ ∃ r, prngReg c r)

/-! ## The region as a segment -/

set_option backward.isDefEq.respectTransparency.types false in
/-- The kernel region: entered from every unscoped buffer at `W6`, left at `W7`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (Vin m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := unscopedBufs_parts (Vin m) c
    rw [Pipeline.unscopedBufs_held] at hsplit
    iintro ⟨⟨Hub, Hp, HO⟩, -, -⟩
    ihave H := (Entails.of_eq hsplit) $$ Hub
    icases H with ⟨Ha, Hrest⟩
    ihave Ha' := (arrays_in (Vin m) c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_parts (Vout m) c
    rw [Pipeline.unscopedBufs_held] at hjoin
    iintro ⟨Ha, HO, HY, Hrest⟩
    imodintro
    isplitl [Ha Hrest]
    · iapply (Entails.of_eq hjoin.symm)
      isplitl [Ha]
      · iapply (arrays_out (Vin m) (Vout m) c (W7_of_ne m c main_v0 (by decide)) (W7_of_ne m c main_v3 (by decide))
          (W7_of_ne m c main_v4 (by decide)) (W7_v5 m c)); iexact Ha
      · iapply (rest_congr (Vin m) (Vout m) c (fun b hb => W7_of_ne m c b hb)); iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .region (reg0 m),
    .host (hseg hostOps1 hostOps1_sub hostOps1_fresh (W7 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: the run, read at the three argument arrays, which no operation and no window writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W8_arg0 m c),
     (h c _ (mem_uc main_arg1 (by decide))).trans (W8_arg1 m c),
     (h c _ (mem_uc main_arg2 (by decide))).trans (W8_arg2 m c)⟩) (run_main m ρ)

end Cert.Kernel.Shift

end
-- ==== Proof.KI.Blocks.lean ====
/-
  The windows' blocks as a grid point finds them, and the fact that no transfer of this kernel is ever cut:
  the six input windows were declared as possibly overhanging their arrays (the padded row extent 364 is no
  multiple of the 32-row or of the 8-row block), but the grid's eleven row tiles stop at row 359, so at every one
  of the 44 points every block lies inside its array.
-/
import proofs.«154281_j25374666784912_1_alg».proof.Proof.Gen.KernelIdeal.Launch
import proofs.«154281_j25374666784912_1_alg».proof.Proof.Gen.KernelIdeal.Points
import Idealize.ShloMosaic.Lib.Pipeline.Frame

noncomputable section

namespace Cert.KernelIdeal.Shift

open Idealize.ShloMosaic Idealize.ShloMosaic.TcCoe
open Idealize.SL Idealize.SL.Sem
open Cert.KernelIdeal Cert.KernelIdeal.Gen
open Idealize.ShloMosaic.Pipeline (Dat Cfg Window)

variable {F : FTy → Type} [FloatOps F]

/-- At every grid point, no axis of any window's block is cut at its array's end. -/
theorem clip_none : ∀ (w : Fin 7) (t : Fin cfg0.N) (a : Fin (cfg0.win w).shape.rank), (cfg0.win w).clip (cfg0.grid.coords t) a = none := by
  decide +kernel

variable (V : (c : Dev nD) → (b : Ref sig .tc) → Buf (Elt F) ((c : Thread nD τ).loc b))

/-- Window `w`'s block at point `t`, read off its array as the region finds it (`V`), as contents of the whole
    staging block (nothing is cut, so the filler is never read). -/
def iblk (c : Dev nD) (w : Fin cfg0.W) (t : Fin cfg0.N) : (cfg0.win w).block.Idx → Elt F (cfg0.win w).elt :=
  (cfg0.win w).fill (cfg0.grid.coords t) (fun _ => Classical.arbitrary _)
    (((cfg0.win w).blk t).view.read (Elt F) (V c (Pipeline.arrRef spec0 w)))

end Cert.KernelIdeal.Shift

end
-- ==== Proof.KI.Out.lean ====
/-
  What one grid point leaves in the output window's staging buffer, as a pure function of the six input
  blocks the point is handed: the body's single store of its accumulator, the accumulator being the chain of
  the body's named values (the two weight blocks re-joined and cropped, the five row-shifted source windows,
  the three stretches of the 25 multiply-adds).
-/
import proofs.«154281_j25374666784912_1_alg».proof.Proof.Gen.KernelIdeal.Skeleton

noncomputable section

namespace Cert.KernelIdeal.Shift

open Idealize.ShloMosaic Idealize.SL.Sem
open Cert.KernelIdeal Cert.KernelIdeal.Gen

variable {F : FTy → Type} [FloatOps F]

/-- The block stored at a point, from the weight window's main and overflow blocks `x0`, `x1`, the first
    source's `x2`, `x3` and the second source's `x4`, `x5`. -/
def stored (x0 : Vec F S1x25x32x1220 .f32) (x1 : Vec F S1x25x8x1220 .f32) (x2 : Vec F S1x32x1220 .f32) (x3 : Vec F S1x8x1220 .f32)
    (x4 : Vec F S1x32x1220 .f32) (x5 : Vec F S1x8x1220 .f32) : Vec F S1x32x1216 .f32 :=
  k0_pay1 (k0_pay12 (k0_pay2 x2) (k0_pay4 x0 x1) (k0_pay7 x2 x3) (k0_pay8 x2 x3)
    (k0_pay11 (k0_pay4 x0 x1) (k0_pay5 x2 x3) (k0_pay6 x2 x3) (k0_pay7 x2 x3) (k0_pay9 x4 x5) (k0_pay10 x0 x1 x2 x3)))

end Cert.KernelIdeal.Shift

end
-- ==== Proof.KI.Body.lean ====
/-
  The body's triple: on whole staging buffers, the six input buffers at given contents and the output buffer at
  any, the kernel body runs to its end leaving the inputs as they were and the output buffer at `stored` of them
  (its one store covers the whole buffer; the load of the output buffer that precedes it reads a value nothing uses).
-/
import proofs.«154281_j25374666784912_1_alg».proof.Proof.Gen.KernelIdeal.Launch
import proofs.«154281_j25374666784912_1_alg».proof.Proof.Gen.KernelIdeal.Skeleton
import proofs.«154281_j25374666784912_1_alg».proof.Proof.KI.Out
import Idealize.ShloMosaic.Lib.Pipeline.FrameBody
import Idealize.ShloMosaic.Lib.Pipeline.Value
import Idealize.ShloMosaic.Lib.Tactic

set_option maxRecDepth 16384

noncomputable section

namespace Cert.KernelIdeal.Shift

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The zero offsets of a rank-3 access, however spelt. -/
theorem zero3 : (![0, 0, 0] : Fin 3 → Nat) = fun _ => 0 := funext fun a => by fin_cases a <;> rfl

/-- The zero offsets of a rank-4 access, however spelt. -/
theorem zero4 : (![0, 0, 0, 0] : Fin 4 → Nat) = fun _ => 0 := funext fun a => by fin_cases a <;> rfl

set_option maxHeartbeats 1000000 in
theorem sound_kernel (c : Dev nD) (E : Set ℕ) (i : grid0.Coords)
    (arg2 : Memref sig .tc .vmem S1x25x32x1220 .f32) (harg2 : arg2.IsWhole) (arg3 : Memref sig .tc .vmem S1x25x8x1220 .f32) (harg3 : arg3.IsWhole)
    (arg4 : Memref sig .tc .vmem S1x32x1220 .f32) (harg4 : arg4.IsWhole) (arg5 : Memref sig .tc .vmem S1x8x1220 .f32) (harg5 : arg5.IsWhole)
    (arg6 : Memref sig .tc .vmem S1x32x1220 .f32) (harg6 : arg6.IsWhole) (arg7 : Memref sig .tc .vmem S1x8x1220 .f32) (harg7 : arg7.IsWhole)
    (arg8 : Memref sig .tc .vmem S1x32x1216 .f32) (harg8 : arg8.IsWhole)
    (x0 : Vec F S1x25x32x1220 .f32) (x1 : Vec F S1x25x8x1220 .f32) (x2 : Vec F S1x32x1220 .f32) (x3 : Vec F S1x8x1220 .f32)
    (x4 : Vec F S1x32x1220 .f32) (x5 : Vec F S1x8x1220 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (stored x0 x1 x2 x3 x4 x5)) -∗ K ⟨⟩))
      ⊢ wp frame (wpE (defs₀ (F := F)) Variants.none c none) E
          (cc0__kernel i arg2 harg2 arg3 harg3 arg4 harg4 arg5 harg5 arg6 harg6 arg7 harg7 arg8 harg8) K := by
  simp only [cc0__kernel_eq_skeleton]; unfold cc0__kernel_skel
  simp only [k0_part1_eq_skeleton, k0_part2_eq_skeleton, k0_part3_eq_skeleton]
  unfold k0_part1_skel k0_part2_skel k0_part3_skel
  -- each owned buffer is raw contents that read as the stated block
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  -- the six whole loads, the three pure stretches, the unused load of the output buffer, its one store
  sl_exec
  sl_step
  -- the inputs are as they were
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output buffer: one store over the whole buffer leaves its payload, and a whole load reads the contents
  iexists _; isplitr
  swap; · iexact H6
  ipureintro
  rw [View.read_writes_eq_canon _ _ _ (fun y => ⟨_, List.mem_singleton_self _,
    View.mem_set_unit_zero zero3 inb_S1x32x1216_S1x32x1216_0_0_0 y⟩)]
  rw [View.canon_unit_zero zero3]
  unfold stored
  simp only [View.readAt_eq_ld, View.ld_unit_zero (S := S1x32x1220) zero3, View.ld_unit_zero (S := S1x8x1220) zero3,
    View.ld_unit_zero (S := S1x25x32x1220) zero4, View.ld_unit_zero (S := S1x25x8x1220) zero4]

end Cert.KernelIdeal.Shift

end
-- ==== Proof.KI.Data.lean ====
/-
  The pipeline's proof data and the body obligation. The arrays are as the region finds them (`V`); after the body
  each input's staging buffer still holds its block and the output's holds `stored` of the six input blocks; the
  region invariant is the scoped rest and the generator register, untouched; nothing is owed. The three arrays
  that are each read through TWO windows (a main 32-row block and an 8-row overflow block) are held half and half
  by those windows.
-/
import proofs.«154281_j25374666784912_1_alg».proof.Proof.KI.Blocks
import proofs.«154281_j25374666784912_1_alg».proof.Proof.KI.Body

set_option maxRecDepth 16384

noncomputable section

namespace Cert.KernelIdeal.Shift

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the one pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => stored (iblk V c 0 t) (iblk V c 1 t) (iblk V c 2 t) (iblk V c 3 t) (iblk V c 4 t) (iblk V c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) :
    (dat V c).after 6 t = stored (iblk V c 0 t) (iblk V c 1 t) (iblk V c 2 t) (iblk V c 3 t) (iblk V c 4 t) (iblk V c 5 t) := by
  dsimp only [dat]

/-- An input window is fetched at every point and the fetch is never cut: its buffer holds the block. -/
theorem before_in (c : Dev nD) (w : Fin cfg0.W) (hf : ∀ t : Fin cfg0.N, (cfg0.win w).fetch t = true) (t : Fin cfg0.N) (d) :
    (dat V c).before w t d = iblk V c w t := by
  rw [(dat V c).before_fetched w t (hf t) d]
  unfold Dat.fetched Dat.blockOf iblk
  rw [A_eq]
  exact Pipeline.fill_of_clip_none w _ (clip_none w t) _ _ _

/-- What the body is called with at point `t`: the invariant, nothing owed, and every window's current buffer, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in V c 0 fetch0_0, before_in V c 1 fetch0_1, before_in V c 2 fetch0_2, before_in V c 3 fetch0_3,
    before_in V c 4 fetch0_4, before_in V c 5 fetch0_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Shift

end
-- ==== Proof.KI.Vals.lean ====
/-
  The contents of core `c`'s unscoped buffers at each boundary of @main, folded from the launch memory: after the
  six stretches of host operations that build the padded arrays (the region's entry), after the region (its output
  array at what the write-backs leave, everything else as entered), and after the final broadcast.
-/
import proofs.«154281_j25374666784912_1_alg».proof.Proof.KI.Data
import Idealize.ShloMosaic.Lib.StableHlo.Run

noncomputable section

namespace Cert.KernelIdeal.Shift

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ)

/-- Core `c`'s buffers at launch. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
/-- At the region's entry: the weights padded by eight rows, each source reshaped and padded. -/
abbrev W6 (c : Dev nD) : Valuation τ sig (Elt F) := StableHlo.after hostOps0_5 (W5 m c)
/-- The same read at the TensorCore's references: what the region's proof data take. -/
abbrev Vin : (c : Dev nD) → (b : Ref sig .tc) → Buf (Elt F) ((c : Thread nD τ).loc b) := fun c b => W6 m c b
/-- At the region's exit: the output window's array at what its write-backs leave, every other buffer as entered
    (the input windows only read their arrays). -/
def W7 (c : Dev nD) : Valuation τ sig (Elt F) :=
  Function.update (W6 m c) (Proc.devRef .tc main_v5) ((dat (Vin m) c).arrAt 6 cfg0.N)
abbrev Vout : (c : Dev nD) → (b : Ref sig .tc) → Buf (Elt F) ((c : Thread nD τ).loc b) := fun c b => W7 m c b
/-- At the return: after the broadcast of the result to its rank-4 shape. -/
abbrev W8 (c : Dev nD) : Valuation τ sig (Elt F) := StableHlo.after hostOps1 (W7 m c)

theorem W7_v5 (c : Dev nD) : W7 m c (Proc.devRef .tc main_v5) = (dat (Vin m) c).arrAt 6 cfg0.N := by
  unfold W7; exact Function.update_self ..

theorem W7_of_ne (c : Dev nD) (b : Ref sig .tc) (hb : b ≠ main_v5) : W7 m c (Proc.devRef .tc b) = W6 m c (Proc.devRef .tc b) := by
  unfold W7; exact Function.update_of_ne (StableHlo.devRef_ne_of_ne hb) ..

end Cert.KernelIdeal.Shift

end
-- ==== Proof.KI.Share.lean ====
/-
  Splitting and re-joining the arrays that two windows read. At the region's entry each of the three padded input
  arrays, held whole, is dealt half and half to its two windows; at the exit the two halves, which still hold the
  same contents (an input window never writes its array), make the whole again.
-/
import proofs.«154281_j25374666784912_1_alg».proof.Proof.KI.Vals
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Shift

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct arrays behind the seven windows. -/
theorem arrRefs_eq : Finset.univ.image (Pipeline.arrRef spec0) = ({main_v0, main_v3, main_v4, main_v5} : Finset (Ref sig .tc)) := by
  decide

omit [FloatOps F] in
theorem arr_pt (c : Dev nD) (w : Fin 7) (q : PosShare TreeShare) (G : Buf (Elt F) ((cfg0.win w).arr.view.loc (c : Thread nD τ))) :
    ((cfg0.win w).arr.view.loc (c.tc : Thread nD τ) ↦[(cfg0.win w).arr.view.set]{q} G : sProp 𝕄)
      = (((c.tc : Thread nD τ).loc (Pipeline.arrRef spec0 w)) ↦{q} G) := by
  rw [(arr_whole0 w).set_eq_univ]

theorem share_0 (c : Dev nD) : (dat V c).share 0 = fullShare.left := rfl
theorem share_1 (c : Dev nD) : (dat V c).share 1 = fullShare.right := rfl
theorem share_2 (c : Dev nD) : (dat V c).share 2 = fullShare.left := rfl
theorem share_3 (c : Dev nD) : (dat V c).share 3 = fullShare.right := rfl
theorem share_4 (c : Dev nD) : (dat V c).share 4 = fullShare.left := rfl
theorem share_5 (c : Dev nD) : (dat V c).share 5 = fullShare.right := rfl
theorem share_6 (c : Dev nD) : (dat V c).share 6 = fullShare := rfl

theorem arrays_in (c : Dev nD) :
    (Pipeline.arrBufs (Ix := Unit) (Name := ℕ) (U := UR sig nD τ) (Lvl := ℕ) spec0 c (V c) : sProp 𝕄)
      ⊢ (dat V c).arrays ((dat V c).arrAt · 0) := by
  unfold Pipeline.arrBufs Dat.arrays
  rw [arrRefs_eq, bigSep_W0]
  have e : (bigSep ({main_v0, main_v3, main_v4, main_v5} : Finset (Ref sig .tc)) (fun b => (((c.tc : Thread nD τ).loc b) ↦{fullShare} V c b : sProp 𝕄)))
      = iprop((((c.tc : Thread nD τ).loc main_v0) ↦{fullShare} V c main_v0) ∗ (((c.tc : Thread nD τ).loc main_v3) ↦{fullShare} V c main_v3)
          ∗ (((c.tc : Thread nD τ).loc main_v4) ↦{fullShare} V c main_v4) ∗ (((c.tc : Thread nD τ).loc main_v5) ↦{fullShare} V c main_v5)) := by
    rw [BI.bigSep_insert (by decide), BI.bigSep_insert (by decide), BI.bigSep_insert (by decide), BI.bigSep_singleton]
    rfl
  rw [e]
  rw [arr_pt c 0, arr_pt c 1, arr_pt c 2, arr_pt c 3, arr_pt c 4, arr_pt c 5, arr_pt c 6,
    share_0, share_1, share_2, share_3, share_4, share_5, share_6]
  iintro H
  icases H with ⟨H0, H'⟩
  icases H' with ⟨H3, H''⟩
  icases H'' with ⟨H4, H5⟩
  ihave H0' := (pointsTo_share (PosShare.mem_left_op_right fullShare)).1 $$ H0
  icases H0' with ⟨H0l, H0r⟩
  ihave H3' := (pointsTo_share (PosShare.mem_left_op_right fullShare)).1 $$ H3
  icases H3' with ⟨H3l, H3r⟩
  ihave H4' := (pointsTo_share (PosShare.mem_left_op_right fullShare)).1 $$ H4
  icases H4' with ⟨H4l, H4r⟩
  isplitl [H0l]; · iexact H0l
  isplitl [H0r]; · iexact H0r
  isplitl [H3l]; · iexact H3l
  isplitl [H3r]; · iexact H3r
  isplitl [H4l]; · iexact H4l
  isplitl [H4r]; · iexact H4r
  iexact H5

omit [FloatOps F] in
/-- Two halves of one buffer, at contents that are both `h`, are the whole buffer at `h`. -/
theorem join_halves (ℓ : Loc nD τ sig) (f g h : Buf (Elt F) ℓ) (hf : f = h) (hg : g = h) :
    iprop((ℓ ↦{fullShare.left} f) ∗ (ℓ ↦{fullShare.right} g)) ⊢ (ℓ ↦{fullShare} h : sProp 𝕄) := by
  subst hf; subst hg; exact (pointsTo_share (PosShare.mem_left_op_right fullShare)).2

theorem arrays_out (V' : (c : Dev nD) → (b : Ref sig .tc) → Buf (Elt F) ((c : Thread nD τ).loc b)) (c : Dev nD)
    (h0 : V' c main_v0 = V c main_v0) (h3 : V' c main_v3 = V c main_v3) (h4 : V' c main_v4 = V c main_v4)
    (h5 : V' c main_v5 = (dat V c).arrAt 6 cfg0.N) :
    (dat V c).arrays ((dat V c).arrAt · cfg0.N)
      ⊢ (Pipeline.arrBufs (Ix := Unit) (Name := ℕ) (U := UR sig nD τ) (Lvl := ℕ) spec0 c (V' c) : sProp 𝕄) := by
  unfold Pipeline.arrBufs Dat.arrays
  rw [arrRefs_eq, bigSep_W0]
  have e : (bigSep ({main_v0, main_v3, main_v4, main_v5} : Finset (Ref sig .tc)) (fun b => (((c.tc : Thread nD τ).loc b) ↦{fullShare} V' c b : sProp 𝕄)))
      = iprop((((c.tc : Thread nD τ).loc main_v0) ↦{fullShare} V' c main_v0) ∗ (((c.tc : Thread nD τ).loc main_v3) ↦{fullShare} V' c main_v3)
          ∗ (((c.tc : Thread nD τ).loc main_v4) ↦{fullShare} V' c main_v4) ∗ (((c.tc : Thread nD τ).loc main_v5) ↦{fullShare} V' c main_v5)) := by
    rw [BI.bigSep_insert (by decide), BI.bigSep_insert (by decide), BI.bigSep_insert (by decide), BI.bigSep_singleton]
    rfl
  rw [e, h0, h3, h4, h5]
  rw [arr_pt c 0, arr_pt c 1, arr_pt c 2, arr_pt c 3, arr_pt c 4, arr_pt c 5, arr_pt c 6,
    share_0, share_1, share_2, share_3, share_4, share_5, share_6]
  have a0 : (dat V c).arrAt 0 cfg0.N = V c main_v0 := ((dat V c).arrAt_in 0 rfl _).trans (A_eq V c 0)
  have a1 : (dat V c).arrAt 1 cfg0.N = V c main_v0 := ((dat V c).arrAt_in 1 rfl _).trans (A_eq V c 1)
  have a2 : (dat V c).arrAt 2 cfg0.N = V c main_v3 := ((dat V c).arrAt_in 2 rfl _).trans (A_eq V c 2)
  have a3 : (dat V c).arrAt 3 cfg0.N = V c main_v3 := ((dat V c).arrAt_in 3 rfl _).trans (A_eq V c 3)
  have a4 : (dat V c).arrAt 4 cfg0.N = V c main_v4 := ((dat V c).arrAt_in 4 rfl _).trans (A_eq V c 4)
  have a5 : (dat V c).arrAt 5 cfg0.N = V c main_v4 := ((dat V c).arrAt_in 5 rfl _).trans (A_eq V c 5)
  iintro H
  icases H with ⟨H0l, H0r, H3l, H3r, H4l, H4r, H5⟩
  isplitl [H0l H0r]
  · iapply (join_halves ((c.tc : Thread nD τ).loc main_v0) _ _ _ a0 a1); isplitl [H0l] <;> iassumption
  isplitl [H3l H3r]
  · iapply (join_halves ((c.tc : Thread nD τ).loc main_v3) _ _ _ a2 a3); isplitl [H3l] <;> iassumption
  isplitl [H4l H4r]
  · iapply (join_halves ((c.tc : Thread nD τ).loc main_v4) _ _ _ a4 a5); isplitl [H4l] <;> iassumption
  iexact H5

/-- The launch's unscoped buffers are the four arrays behind the windows and the rest. -/
theorem unscopedBufs_parts (c : Dev nD) :
    (unscopedBufs (Ix := Unit) (Name := ℕ) (U := UR sig nD τ) (Lvl := ℕ) c (V c) : sProp 𝕄)
      = iprop((Pipeline.arrBufs spec0 c (V c) : sProp 𝕄) ∗ Pipeline.unscopedRest spec0 c (V c)) :=
  Pipeline.unscopedBufs_split₀ cfgs 0 winFacts₀0.arr_unscoped c (V c)

/-- Buffers that are no window's array keep their contents across the region. -/
theorem rest_congr (V' : (c : Dev nD) → (b : Ref sig .tc) → Buf (Elt F) ((c : Thread nD τ).loc b)) (c : Dev nD)
    (h : ∀ b : Ref sig .tc, b ≠ main_v5 → V' c b = V c b) :
    (Pipeline.unscopedRest (Ix := Unit) (Name := ℕ) (U := UR sig nD τ) (Lvl := ℕ) spec0 c (V c) : sProp 𝕄)
      ⊢ Pipeline.unscopedRest spec0 c (V' c) := by
  unfold Pipeline.unscopedRest
  refine Entails.of_eq (bigSep_congr fun b hb => ?_)
  rw [h b (fun e => (Finset.mem_sdiff.mp hb).2 (by rw [arrRefs_eq, e]; decide))]

end Cert.KernelIdeal.Shift

end
-- ==== Proof.KI.Args.lean ====
/-
  No host operation and no window of the region writes an argument array: each reaches the return as launched.
-/
import proofs.«154281_j25374666784912_1_alg».proof.Proof.KI.Vals
import Idealize.ShloMosaic.Lib.StableHlo.Run

noncomputable section

namespace Cert.KernelIdeal.Shift

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- A stretch of host operations leaves alone a reference none of them writes: each operation writes its one
    result reference, and the references are told apart by name. -/
local macro "not_written" : tactic =>
  `(tactic| (refine StableHlo.after_of_forall_not_mem _ _ (List.forall_iff_forall_mem.mp ?_)
             simp only [List.Forall, StableHlo.nullary_writes, StableHlo.unary_writes, StableHlo.binary_writes,
               StableHlo.reshape_writes, Finset.mem_singleton]
             repeat' apply And.intro
             all_goals exact StableHlo.devRef_ne_of_ne (by decide)))

theorem W8_arg0 (c : Dev nD) : W8 m c (Proc.devRef .tc main_arg0) = m ((c : Thread nD τ).loc main_arg0) :=
  calc W8 m c (Proc.devRef .tc main_arg0)
    _ = W7 m c (Proc.devRef .tc main_arg0) := by not_written
    _ = W6 m c (Proc.devRef .tc main_arg0) := W7_of_ne m c main_arg0 (by decide)
    _ = W5 m c (Proc.devRef .tc main_arg0) := by not_written
    _ = W4 m c (Proc.devRef .tc main_arg0) := by not_written
    _ = W3 m c (Proc.devRef .tc main_arg0) := by not_written
    _ = W2 m c (Proc.devRef .tc main_arg0) := by not_written
    _ = W1 m c (Proc.devRef .tc main_arg0) := by not_written
    _ = W0 m c (Proc.devRef .tc main_arg0) := by not_written
    _ = m ((c : Thread nD τ).loc main_arg0) := rfl

theorem W8_arg1 (c : Dev nD) : W8 m c (Proc.devRef .tc main_arg1) = m ((c : Thread nD τ).loc main_arg1) :=
  calc W8 m c (Proc.devRef .tc main_arg1)
    _ = W7 m c (Proc.devRef .tc main_arg1) := by not_written
    _ = W6 m c (Proc.devRef .tc main_arg1) := W7_of_ne m c main_arg1 (by decide)
    _ = W5 m c (Proc.devRef .tc main_arg1) := by not_written
    _ = W4 m c (Proc.devRef .tc main_arg1) := by not_written
    _ = W3 m c (Proc.devRef .tc main_arg1) := by not_written
    _ = W2 m c (Proc.devRef .tc main_arg1) := by not_written
    _ = W1 m c (Proc.devRef .tc main_arg1) := by not_written
    _ = W0 m c (Proc.devRef .tc main_arg1) := by not_written
    _ = m ((c : Thread nD τ).loc main_arg1) := rfl

theorem W8_arg2 (c : Dev nD) : W8 m c (Proc.devRef .tc main_arg2) = m ((c : Thread nD τ).loc main_arg2) :=
  calc W8 m c (Proc.devRef .tc main_arg2)
    _ = W7 m c (Proc.devRef .tc main_arg2) := by not_written
    _ = W6 m c (Proc.devRef .tc main_arg2) := W7_of_ne m c main_arg2 (by decide)
    _ = W5 m c (Proc.devRef .tc main_arg2) := by not_written
    _ = W4 m c (Proc.devRef .tc main_arg2) := by not_written
    _ = W3 m c (Proc.devRef .tc main_arg2) := by not_written
    _ = W2 m c (Proc.devRef .tc main_arg2) := by not_written
    _ = W1 m c (Proc.devRef .tc main_arg2) := by not_written
    _ = W0 m c (Proc.devRef .tc main_arg2) := by not_written
    _ = m ((c : Thread nD τ).loc main_arg2) := rfl

end Cert.KernelIdeal.Shift

end
-- ==== Proof.KI.Run.lean ====
/-
  The run of @main: six stretches of host operations, the one kernel region, one more host operation, composed in
  order. Between two items core `c` holds every unscoped buffer whole at the boundary's contents (`W0` … `W8`), the
  generator register at some state, and owes nothing. The region takes its four arrays out of the buffers — the
  three input arrays dealt half and half to the two windows that read each — and puts them back at its exit with the
  output array at what the write-backs leave.
-/
import proofs.«154281_j25374666784912_1_alg».proof.Proof.KI.Share
import proofs.«154281_j25374666784912_1_alg».proof.Proof.KI.Args
import Idealize.ShloMosaic.Lib.Ring
import Idealize.ShloMosaic.Lib.Tactic

set_option maxRecDepth 16384

noncomputable section

namespace Cert.KernelIdeal.Shift

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (Vin m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W8`, the generator register at some state. -/
abbrev Tₙ (c : Dev nD) : sProp 𝕄 := iprop(StableHlo.held (c : Thread nD τ) (Pipeline.ucRefs τ sig) (W8 m c) ∗ ∃ r, prngReg c r)

/-! ## The region as a segment -/

set_option backward.isDefEq.respectTransparency.types false in
/-- The kernel region: entered from every unscoped buffer at `W6`, left at `W7`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (Vin m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := unscopedBufs_parts (Vin m) c
    rw [Pipeline.unscopedBufs_held] at hsplit
    iintro ⟨⟨Hub, Hp, HO⟩, -, -⟩
    ihave H := (Entails.of_eq hsplit) $$ Hub
    icases H with ⟨Ha, Hrest⟩
    ihave Ha' := (arrays_in (Vin m) c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_parts (Vout m) c
    rw [Pipeline.unscopedBufs_held] at hjoin
    iintro ⟨Ha, HO, HY, Hrest⟩
    imodintro
    isplitl [Ha Hrest]
    · iapply (Entails.of_eq hjoin.symm)
      isplitl [Ha]
      · iapply (arrays_out (Vin m) (Vout m) c (W7_of_ne m c main_v0 (by decide)) (W7_of_ne m c main_v3 (by decide))
          (W7_of_ne m c main_v4 (by decide)) (W7_v5 m c)); iexact Ha
      · iapply (rest_congr (Vin m) (Vout m) c (fun b hb => W7_of_ne m c b hb)); iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .region (reg0 m),
    .host (hseg hostOps1 hostOps1_sub hostOps1_fresh (W7 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: the run, read at the three argument arrays, which no operation and no window writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W8_arg0 m c),
     (h c _ (mem_uc main_arg1 (by decide))).trans (W8_arg1 m c),
     (h c _ (mem_uc main_arg2 (by decide))).trans (W8_arg2 m c)⟩) (run_main m ρ)

end Cert.KernelIdeal.Shift

end
-- ==== Proof.Spec.lean ====
/-
  The common specification both programs are read against, over the extended reals.

  A 5 × 5 spatially varying stencil: output pixel (b, y, x) is the sum over the 25 taps t = 5·dy + dx of
  the weight w[b, t, y + 2, x + 2] times the source, zero-padded by two on every side, at row y + 4 − dy and
  column x + 4 − dx; tap 12 (the centre) reads the second source map, every other tap the first.

  Arrays are read through accessors on natural-number coordinates that give 0 outside the array, so that the
  zero padding is the accessor's own default and no index arithmetic is done in dependent types.
-/
import Idealize.ShloMosaic.Lib.ValueIdx

noncomputable section

open scoped BigOperators

namespace Cert.Spec

open Idealize.ShloMosaic Idealize.ShloMosaic.ValueIdx

/-- A rank-4 array read at natural coordinates: its entry inside the array, 0 outside. -/
def at4 {n0 n1 n2 n3 : Nat} (f : (⟨4, ![n0, n1, n2, n3]⟩ : Shape).Idx → EReal) (a b c d : Nat) : EReal :=
  if h : a < n0 ∧ b < n1 ∧ c < n2 ∧ d < n3 then f (ix4 ⟨a, h.1⟩ ⟨b, h.2.1⟩ ⟨c, h.2.2.1⟩ ⟨d, h.2.2.2⟩) else 0

/-- A rank-3 array read at natural coordinates: its entry inside the array, 0 outside. -/
def at3 {n0 n1 n2 : Nat} (f : (⟨3, ![n0, n1, n2]⟩ : Shape).Idx → EReal) (a b c : Nat) : EReal :=
  if h : a < n0 ∧ b < n1 ∧ c < n2 then f (ix3 ⟨a, h.1⟩ ⟨b, h.2.1⟩ ⟨c, h.2.2⟩) else 0

theorem at4_eq {n0 n1 n2 n3 : Nat} (f : (⟨4, ![n0, n1, n2, n3]⟩ : Shape).Idx → EReal) (a : Fin n0) (b : Fin n1) (c : Fin n2) (d : Fin n3) :
    at4 f a b c d = f (ix4 a b c d) := by
  unfold at4; rw [dif_pos ⟨a.isLt, b.isLt, c.isLt, d.isLt⟩]

theorem at3_eq {n0 n1 n2 : Nat} (f : (⟨3, ![n0, n1, n2]⟩ : Shape).Idx → EReal) (a : Fin n0) (b : Fin n1) (c : Fin n2) :
    at3 f a b c = f (ix3 a b c) := by
  unfold at3; rw [dif_pos ⟨a.isLt, b.isLt, c.isLt⟩]

/-- Two rank-4 blocks with a unit leading axis, the second continuing the first along the rows (axis 2),
    read at natural coordinates (tap, row, column) of the joined block. -/
def cat4 {n1 r0 r1 w : Nat} (a : (⟨4, ![1, n1, r0, w]⟩ : Shape).Idx → EReal) (b : (⟨4, ![1, n1, r1, w]⟩ : Shape).Idx → EReal)
    (t r c : Nat) : EReal :=
  if r < r0 then at4 a 0 t r c else at4 b 0 t (r - r0) c

/-- Two rank-3 blocks with a unit leading axis, the second continuing the first along the rows (axis 1),
    read at natural coordinates (row, column) of the joined block. -/
def cat3 {r0 r1 w : Nat} (a : (⟨3, ![1, r0, w]⟩ : Shape).Idx → EReal) (b : (⟨3, ![1, r1, w]⟩ : Shape).Idx → EReal)
    (r c : Nat) : EReal :=
  if r < r0 then at3 a 0 r c else at3 b 0 (r - r0) c

/-- The stencil over sources ALREADY padded (rank 3, two zero rows and columns before the data): the sum over
    the taps of the weight at (y + 2, x + 2) times the padded source at (y + 4 − t / 5, x + 4 − t % 5), the
    centre tap reading `P4`, the others `P3`. -/
def Gpad {H0 H1 W : Nat} (P0 : (⟨4, ![4, 25, H0, 1220]⟩ : Shape).Idx → EReal)
    (P3 P4 : (⟨3, ![4, H1, W]⟩ : Shape).Idx → EReal) : (⟨3, ![4, 352, 1216]⟩ : Shape).Idx → EReal :=
  fun i => ∑ t ∈ Finset.range 25,
    at4 P0 (i 0) t ((i 1 : Nat) + 2) ((i 2 : Nat) + 2)
      * at3 (if t = 12 then P4 else P3) (i 0) ((i 1 : Nat) + 4 - t / 5) ((i 2 : Nat) + 4 - t % 5)

/-- A rank-4 source with a unit second axis, zero-padded by two rows and two columns on every side, read at
    natural coordinates of the padded array. -/
def padAt {n0 n2 n3 : Nat} (f : (⟨4, ![n0, 1, n2, n3]⟩ : Shape).Idx → EReal) (b r c : Nat) : EReal :=
  if 2 ≤ r ∧ 2 ≤ c then at4 f b 0 (r - 2) (c - 2) else 0

/-- The stencil over the arguments themselves. -/
def G (gw : (⟨4, ![4, 25, 356, 1220]⟩ : Shape).Idx → EReal)
    (hn h0 : (⟨4, ![4, 1, 352, 1216]⟩ : Shape).Idx → EReal) : (⟨4, ![4, 1, 352, 1216]⟩ : Shape).Idx → EReal :=
  fun i => ∑ t ∈ Finset.range 25,
    at4 gw (i 0) t ((i 2 : Nat) + 2) ((i 3 : Nat) + 2)
      * padAt (if t = 12 then h0 else hn) (i 0) ((i 2 : Nat) + 4 - t / 5) ((i 3 : Nat) + 4 - t % 5)

end Cert.Spec

end
-- ==== Proof.KI.Host.lean ====
/-
  The host operations around the region, read at an index over the extended reals: the padded weight array agrees
  with the weights wherever either is non-zero, each padded source is the source zero-padded by two (the eight or
  ten extra rows below are zero too), and the final broadcast only inserts a unit axis.
-/
import proofs.«154281_j25374666784912_1_alg».proof.Proof.KI.Vals
import proofs.«154281_j25374666784912_1_alg».proof.Proof.Spec
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run

set_option maxRecDepth 16384

noncomputable section

namespace Cert.KernelIdeal.Shift

open Idealize.ShloMosaic Idealize.ShloMosaic.TcCoe Idealize.ShloMosaic.ValueIdx
open Idealize.SL Idealize.SL.Sem
open Cert.KernelIdeal Cert.KernelIdeal.Gen Cert.Spec

/-! ## The layout operations read at an index -/

/-- An array padded by eight rows below (axis 2 of four), read at an index: the array there on its own rows, the
    padding value on the added ones. -/
theorem pad_rows_read {α : Type} (x : (⟨4, ![4, 25, 356, 1220]⟩ : Shape).Idx → α) (v : (⟨0, ![]⟩ : Shape).Idx → α)
    (h : (⟨4, ![4, 25, 356, 1220]⟩ : Shape).Pads (![0, 0, 0, 0] : Fin 4 → Nat) ![0, 0, 8, 0] ![0, 0, 0, 0] ⟨4, ![4, 25, 364, 1220]⟩)
    (hu : 0 < (⟨0, ![]⟩ : Shape).numel) (j : (⟨4, ![4, 25, 364, 1220]⟩ : Shape).Idx) :
    pad ⟨4, ![4, 25, 364, 1220]⟩ ![0, 0, 0, 0] ![0, 0, 8, 0] ![0, 0, 0, 0] x v h hu j
      = if hin : (j 2).val < 356 then x (ix4 (j 0) (j 1) ⟨(j 2).val, hin⟩ (j 3)) else v (Shape.Idx.first hu) := by
  by_cases hin : (j 2).val < 356
  · rw [dif_pos hin]
    refine pad_apply_of_inside _ _ _ x v h hu j _ (fun a => ?_)
    match a with
    | ⟨0, _⟩ => show (j 0).val = 0 + (j 0).val * (0 + 1); omega
    | ⟨1, _⟩ => show (j 1).val = 0 + (j 1).val * (0 + 1); omega
    | ⟨2, _⟩ => show (j 2).val = 0 + (j 2).val * (0 + 1); omega
    | ⟨3, _⟩ => show (j 3).val = 0 + (j 3).val * (0 + 1); omega
  · rw [dif_neg hin]
    refine pad_apply_of_not_inside _ _ _ x v h hu j (2 : Fin 4) (fun hh => hin ?_)
    have h3 : ((j 2).val - 0) / (0 + 1) < 356 := hh.2.2
    omega

/-- A rank-3 array padded by two rows above and ten below, two columns on either side, read at an index: the array
    two rows and two columns back when that is inside it, the padding value otherwise. -/
theorem pad_src_read {α : Type} (y : (⟨3, ![4, 352, 1216]⟩ : Shape).Idx → α) (v : (⟨0, ![]⟩ : Shape).Idx → α)
    (h : (⟨3, ![4, 352, 1216]⟩ : Shape).Pads (![0, 2, 2] : Fin 3 → Nat) ![0, 10, 2] ![0, 0, 0] ⟨3, ![4, 364, 1220]⟩)
    (hu : 0 < (⟨0, ![]⟩ : Shape).numel) (j : (⟨3, ![4, 364, 1220]⟩ : Shape).Idx) :
    pad ⟨3, ![4, 364, 1220]⟩ ![0, 2, 2] ![0, 10, 2] ![0, 0, 0] y v h hu j
      = if hin : (2 ≤ (j 1).val ∧ (j 1).val - 2 < 352) ∧ (2 ≤ (j 2).val ∧ (j 2).val - 2 < 1216)
        then y (ix3 (j 0) ⟨(j 1).val - 2, hin.1.2⟩ ⟨(j 2).val - 2, hin.2.2⟩) else v (Shape.Idx.first hu) := by
  by_cases hin : (2 ≤ (j 1).val ∧ (j 1).val - 2 < 352) ∧ (2 ≤ (j 2).val ∧ (j 2).val - 2 < 1216)
  · rw [dif_pos hin]
    refine pad_apply_of_inside _ _ _ y v h hu j _ (fun a => ?_)
    match a with
    | ⟨0, _⟩ => show (j 0).val = 0 + (j 0).val * (0 + 1); omega
    | ⟨1, _⟩ => show (j 1).val = 2 + ((j 1).val - 2) * (0 + 1); omega
    | ⟨2, _⟩ => show (j 2).val = 2 + ((j 2).val - 2) * (0 + 1); omega
  · rw [dif_neg hin]
    by_cases hr : 2 ≤ (j 1).val ∧ (j 1).val - 2 < 352
    · have hc : ¬(2 ≤ (j 2).val ∧ (j 2).val - 2 < 1216) := fun hc => hin ⟨hr, hc⟩
      refine pad_apply_of_not_inside _ _ _ y v h hu j (2 : Fin 3) (fun hh => hc ?_)
      have h1 : 2 ≤ (j 2).val := hh.1
      have h3 : ((j 2).val - 2) / (0 + 1) < 1216 := hh.2.2
      exact ⟨h1, by omega⟩
    · refine pad_apply_of_not_inside _ _ _ y v h hu j (1 : Fin 3) (fun hh => hr ?_)
      have h1 : 2 ≤ (j 1).val := hh.1
      have h3 : ((j 1).val - 2) / (0 + 1) < 352 := hh.2.2
      exact ⟨h1, by omega⟩

/-- A rank-4 array with a unit second axis recast to rank 3, read at an index: the array at the same coordinates. -/
theorem squeeze_read {α : Type} (x : (⟨4, ![4, 1, 352, 1216]⟩ : Shape).Idx → α)
    (h : (⟨4, ![4, 1, 352, 1216]⟩ : Shape).ShapeCasts ⟨3, ![4, 352, 1216]⟩) (i : (⟨3, ![4, 352, 1216]⟩ : Shape).Idx) :
    shapeCast ⟨3, ![4, 352, 1216]⟩ x h i = x (ix4 (i 0) 0 (i 1) (i 2)) := by
  refine shapeCast_apply x h i _ ?_
  rewrite [Shape.rowMajor_val_four, Shape.rowMajor_val_three]
  show ((((i 0).val * 1 + 0) * 352 + (i 1).val) * 1216 + (i 2).val) = ((i 0).val * 352 + (i 1).val) * 1216 + (i 2).val
  omega

/-! ## The region's entry and the return -/

variable (m : (ℓ : Loc nD τ sig) → Buf (Elt Ideal) ℓ)

/-- The padding value: the integer constant 0 converted, which over the extended reals is 0. -/
theorem fill_zero (i : S_.Idx) : (sitofp (F := Ideal) .f32 (constantI S_ 32 0#32) : S_.Idx → EReal) i = 0 := by
  show (((0#32 : BitVec 32).toInt : ℝ) : EReal) = 0
  have h0 : (0#32 : BitVec 32).toInt = 0 := by decide
  rw [h0, Int.cast_zero, EReal.coe_zero]

theorem Vin_v0_eq (c : Dev nD) :
    (Vin m c main_v0 : S4x25x364x1220.Idx → EReal)
      = pad S4x25x364x1220 ![0, 0, 0, 0] ![0, 0, 8, 0] ![0, 0, 0, 0] (m ((c : Thread nD τ).loc main_arg0))
          (sitofp (F := Ideal) .f32 (constantI S_ 32 0#32)) pads_S4x25x356x1220_S4x25x364x1220_000_000_080_000 h_S_ := by
  dsimp only [Vin, W6, W5, W4, W3, W2, W1, W0]
  after_results
  rfl

theorem Vin_v0 (c : Dev nD) (b k r col : Nat) :
    Cert.Spec.at4 (Vin m c main_v0) b k r col = Cert.Spec.at4 (m ((c : Thread nD τ).loc main_arg0)) b k r col := by
  unfold Cert.Spec.at4
  by_cases h : b < 4 ∧ k < 25 ∧ r < 364 ∧ col < 1220
  · rw [dif_pos h, Vin_v0_eq, pad_rows_read]
    by_cases h2 : r < 356
    · rw [dif_pos (show ((ix4 (⟨b, h.1⟩ : Fin 4) (⟨k, h.2.1⟩ : Fin 25) (⟨r, h.2.2.1⟩ : Fin 364) (⟨col, h.2.2.2⟩ : Fin 1220)) 2).val < 356 from h2),
        dif_pos (show b < 4 ∧ k < 25 ∧ r < 356 ∧ col < 1220 from ⟨h.1, h.2.1, h2, h.2.2.2⟩)]
    · rw [dif_neg (show ¬ ((ix4 (⟨b, h.1⟩ : Fin 4) (⟨k, h.2.1⟩ : Fin 25) (⟨r, h.2.2.1⟩ : Fin 364) (⟨col, h.2.2.2⟩ : Fin 1220)) 2).val < 356 from h2),
        dif_neg (show ¬ (b < 4 ∧ k < 25 ∧ r < 356 ∧ col < 1220) from fun hh => h2 hh.2.2.1), fill_zero]
  · rw [dif_neg h, dif_neg (show ¬ (b < 4 ∧ k < 25 ∧ r < 356 ∧ col < 1220) from fun hh => h ⟨hh.1, hh.2.1, by omega, hh.2.2.2⟩)]

/-- A source recast to rank 3 and padded by two rows above and ten below, two columns on either side, with zeros:
    read at natural coordinates it is the source zero-padded by two. -/
theorem padded_src_at (x : S4x1x352x1216.Idx → EReal) (P : S4x364x1220.Idx → EReal)
    (hP : P = pad S4x364x1220 ![0, 2, 2] ![0, 10, 2] ![0, 0, 0] (shapeCast S4x352x1216 x shapeCasts_S4x1x352x1216_S4x352x1216)
          (sitofp (F := Ideal) .f32 (constantI S_ 32 0#32)) pads_S4x352x1216_S4x364x1220_000_2100_220 h_S_)
    (b r col : Nat) : Cert.Spec.at3 P b r col = Cert.Spec.padAt x b r col := by
  subst hP
  unfold Cert.Spec.at3 Cert.Spec.padAt Cert.Spec.at4
  by_cases h : b < 4 ∧ r < 364 ∧ col < 1220
  · rw [dif_pos h, pad_src_read]
    by_cases hin : (2 ≤ r ∧ r - 2 < 352) ∧ (2 ≤ col ∧ col - 2 < 1216)
    · rw [dif_pos (show (2 ≤ ((ix3 (⟨b, h.1⟩ : Fin 4) (⟨r, h.2.1⟩ : Fin 364) (⟨col, h.2.2⟩ : Fin 1220)) 1).val
            ∧ ((ix3 (⟨b, h.1⟩ : Fin 4) (⟨r, h.2.1⟩ : Fin 364) (⟨col, h.2.2⟩ : Fin 1220)) 1).val - 2 < 352)
          ∧ (2 ≤ ((ix3 (⟨b, h.1⟩ : Fin 4) (⟨r, h.2.1⟩ : Fin 364) (⟨col, h.2.2⟩ : Fin 1220)) 2).val
            ∧ ((ix3 (⟨b, h.1⟩ : Fin 4) (⟨r, h.2.1⟩ : Fin 364) (⟨col, h.2.2⟩ : Fin 1220)) 2).val - 2 < 1216) from hin),
        squeeze_read, if_pos (show 2 ≤ r ∧ 2 ≤ col from ⟨hin.1.1, hin.2.1⟩),
        dif_pos (show b < 4 ∧ 0 < 1 ∧ r - 2 < 352 ∧ col - 2 < 1216 from ⟨h.1, Nat.one_pos, hin.1.2, hin.2.2⟩)]
      rfl
    · rw [dif_neg (show ¬ ((2 ≤ ((ix3 (⟨b, h.1⟩ : Fin 4) (⟨r, h.2.1⟩ : Fin 364) (⟨col, h.2.2⟩ : Fin 1220)) 1).val
            ∧ ((ix3 (⟨b, h.1⟩ : Fin 4) (⟨r, h.2.1⟩ : Fin 364) (⟨col, h.2.2⟩ : Fin 1220)) 1).val - 2 < 352)
          ∧ (2 ≤ ((ix3 (⟨b, h.1⟩ : Fin 4) (⟨r, h.2.1⟩ : Fin 364) (⟨col, h.2.2⟩ : Fin 1220)) 2).val
            ∧ ((ix3 (⟨b, h.1⟩ : Fin 4) (⟨r, h.2.1⟩ : Fin 364) (⟨col, h.2.2⟩ : Fin 1220)) 2).val - 2 < 1216)) from hin),
        fill_zero]
      by_cases h2 : 2 ≤ r ∧ 2 ≤ col
      · rw [if_pos h2, dif_neg (show ¬ (b < 4 ∧ 0 < 1 ∧ r - 2 < 352 ∧ col - 2 < 1216) from
          fun hh => hin ⟨⟨h2.1, hh.2.2.1⟩, ⟨h2.2, hh.2.2.2⟩⟩)]
      · rw [if_neg h2]
  · rw [dif_neg h]
    by_cases h2 : 2 ≤ r ∧ 2 ≤ col
    · rw [if_pos h2, dif_neg (show ¬ (b < 4 ∧ 0 < 1 ∧ r - 2 < 352 ∧ col - 2 < 1216) from
        fun hh => h ⟨hh.1, by omega, by omega⟩)]
    · rw [if_neg h2]

theorem Vin_v3_eq (c : Dev nD) :
    (Vin m c main_v3 : S4x364x1220.Idx → EReal)
      = pad S4x364x1220 ![0, 2, 2] ![0, 10, 2] ![0, 0, 0]
          (shapeCast S4x352x1216 (m ((c : Thread nD τ).loc main_arg1)) shapeCasts_S4x1x352x1216_S4x352x1216)
          (sitofp (F := Ideal) .f32 (constantI S_ 32 0#32)) pads_S4x352x1216_S4x364x1220_000_2100_220 h_S_ := by
  dsimp only [Vin, W6, W5, W4, W3, W2, W1, W0]
  after_results
  rfl

theorem Vin_v3 (c : Dev nD) (b r col : Nat) :
    Cert.Spec.at3 (Vin m c main_v3) b r col = Cert.Spec.padAt (m ((c : Thread nD τ).loc main_arg1)) b r col :=
  padded_src_at _ _ (Vin_v3_eq m c) b r col

theorem Vin_v4_eq (c : Dev nD) :
    (Vin m c main_v4 : S4x364x1220.Idx → EReal)
      = pad S4x364x1220 ![0, 2, 2] ![0, 10, 2] ![0, 0, 0]
          (shapeCast S4x352x1216 (m ((c : Thread nD τ).loc main_arg2)) shapeCasts_S4x1x352x1216_S4x352x1216)
          (sitofp (F := Ideal) .f32 (constantI S_ 32 0#32)) pads_S4x352x1216_S4x364x1220_000_2100_220 h_S_ := by
  dsimp only [Vin, W6, W5, W4, W3, W2, W1, W0]
  after_results
  rfl

theorem Vin_v4 (c : Dev nD) (b r col : Nat) :
    Cert.Spec.at3 (Vin m c main_v4) b r col = Cert.Spec.padAt (m ((c : Thread nD τ).loc main_arg2)) b r col :=
  padded_src_at _ _ (Vin_v4_eq m c) b r col

theorem W8_v6 (c : Dev nD) (i : S4x1x352x1216.Idx) :
    W8 m c (Proc.devRef .tc main_v6) i = W7 m c (Proc.devRef .tc main_v5) (ix3 (i 0) (i 2) (i 3)) := by
  have e : (W8 m c (Proc.devRef .tc main_v6) : S4x1x352x1216.Idx → EReal)
      = broadcastInDim S4x1x352x1216 ![0, 2, 3] bcast_S4x352x1216_S4x1x352x1216_0_2_3 (W7 m c (Proc.devRef .tc main_v5)) := by
    dsimp only [W8]
    after_results
  rw [e]
  refine broadcastInDim_apply _ _ _ i _ (fun a => ?_)
  match a with
  | ⟨0, _⟩ => show (i 0).val = if (4 : Nat) = 1 then 0 else (i 0).val; rw [if_neg (by decide)]
  | ⟨1, _⟩ => show (i 2).val = if (352 : Nat) = 1 then 0 else (i 2).val; rw [if_neg (by decide)]
  | ⟨2, _⟩ => show (i 3).val = if (1216 : Nat) = 1 then 0 else (i 3).val; rw [if_neg (by decide)]

end Cert.KernelIdeal.Shift

end
-- ==== Proof.KI.Payload.lean ====
/-
  The block one grid point stores, read at an index over the extended reals: entry (0, y, x) is the sum over the
  25 taps of the re-joined weight block at (tap, y + 2, x + 2) times the re-joined source block at
  (y + 4 − tap / 5, x + 4 − tap % 5), the centre tap reading the second source.
-/
import proofs.«154281_j25374666784912_1_alg».proof.Proof.KI.Out
import proofs.«154281_j25374666784912_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Shift

open Idealize.ShloMosaic Idealize.ShloMosaic.ValueIdx
open Cert.KernelIdeal Cert.KernelIdeal.Gen Cert.Spec

variable {α : Type}

/-- Rows `o …` of a matrix `A` followed by the first `o` rows of a matrix `B`, read at `(r, c)`: row `r + o` of `A`
    while that is a row of `A`, and row `r + o - n` of `B` past it. -/
theorem join2_apply {n m p o w : Nat} (A : (⟨2, ![n, w]⟩ : Shape).Idx → α) (B : (⟨2, ![m, w]⟩ : Shape).Idx → α)
    (hA : (⟨2, ![n, w]⟩ : Shape).Slices ![o, 0] ⟨2, ![p, w]⟩) (hB : (⟨2, ![m, w]⟩ : Shape).Slices ![0, 0] ⟨2, ![o, w]⟩)
    (hC : Shape.Concatenates [(⟨2, ![p, w]⟩ : Shape), ⟨2, ![o, w]⟩] ⟨2, ![n, w]⟩ 0) (hpo : p + o = n) (hom : o ≤ m)
    (r : Fin n) (c : Fin w) :
    concatenate (⟨2, ![n, w]⟩ : Shape) 0
        [⟨(⟨2, ![p, w]⟩ : Shape), extractStridedSlice ⟨2, ![p, w]⟩ ![o, 0] A hA⟩,
         ⟨(⟨2, ![o, w]⟩ : Shape), extractStridedSlice ⟨2, ![o, w]⟩ ![0, 0] B hB⟩] hC (ix2 r c)
      = if h : r.val + o < n then A (ix2 ⟨r.val + o, h⟩ c) else B (ix2 ⟨r.val + o - n, by omega⟩ c) := by
  by_cases h : r.val + o < n
  · rw [dif_pos h]
    have hrp : r.val < p := by omega
    refine (concatenate_pair_apply_left (t := ⟨2, ![n, w]⟩) (s₁ := ⟨2, ![p, w]⟩) (s₂ := ⟨2, ![o, w]⟩) (0 : Fin 2) _ _ hC (ix2 r c) rfl (ix2 (⟨r.val, hrp⟩ : Fin p) c) ?_).trans ?_
    · intro b
      match b with
      | ⟨0, _⟩ => rfl
      | ⟨1, _⟩ => rfl
    · exact slice2_axis0_apply o A hA ⟨r.val, hrp⟩ c ⟨r.val + o, h⟩ (Nat.add_comm _ _)
  · rw [dif_neg h]
    have hro : r.val + o - n < o := by omega
    refine (concatenate_pair_apply_right (t := ⟨2, ![n, w]⟩) (s₁ := ⟨2, ![p, w]⟩) (s₂ := ⟨2, ![o, w]⟩) (0 : Fin 2) _ _ hC (ix2 r c) rfl rfl (ix2 (⟨r.val + o - n, hro⟩ : Fin o) c) ?_ ?_).trans ?_
    · intro b hb
      match b, hb with
      | ⟨0, _⟩, hb => exact absurd rfl hb
      | ⟨1, _⟩, _ => rfl
    · show r.val + o - n + p = r.val
      omega
    · exact slice2_axis0_apply 0 B hB ⟨r.val + o - n, hro⟩ c ⟨r.val + o - n, by omega⟩ (Nat.zero_add _).symm

/-- A row-shifted source window read at `(r, c)`: the two source blocks joined along the rows, at row `r + o`. -/
theorem win_apply {p o : Nat} (a : Vec Ideal S1x32x1220 .f32) (b : Vec Ideal S1x8x1220 .f32)
    (hA : S32x1220.Slices ![o, 0] ⟨2, ![p, 1220]⟩) (hB : S8x1220.Slices ![0, 0] ⟨2, ![o, 1220]⟩)
    (hC : Shape.Concatenates [(⟨2, ![p, 1220]⟩ : Shape), ⟨2, ![o, 1220]⟩] S32x1220 0) (hpo : p + o = 32) (hom : o ≤ 8)
    (r : Fin 32) (c : Fin 1220) :
    concatenate S32x1220 0
        [⟨(⟨2, ![p, 1220]⟩ : Shape), extractStridedSlice ⟨2, ![p, 1220]⟩ ![o, 0] (k0_pay2 (F := Ideal) a) hA⟩,
         ⟨(⟨2, ![o, 1220]⟩ : Shape), extractStridedSlice ⟨2, ![o, 1220]⟩ ![0, 0] (k0_pay3 (F := Ideal) b) hB⟩] hC (ix2 r c)
      = cat3 a b (r.val + o) c.val := by
  refine (join2_apply (k0_pay2 (F := Ideal) a) (k0_pay3 (F := Ideal) b) hA hB hC hpo hom r c).trans ?_
  unfold cat3
  by_cases h : r.val + o < 32
  · rw [dif_pos h, if_pos h]
    refine (shapeCast_1ab_ab_apply a _ ⟨r.val + o, h⟩ c).trans ?_
    exact (at3_eq a (0 : Fin 1) ⟨r.val + o, h⟩ c).symm
  · rw [dif_neg h, if_neg h]
    refine (shapeCast_1ab_ab_apply b _ ⟨r.val + o - 32, by omega⟩ c).trans ?_
    exact (at3_eq b (0 : Fin 1) ⟨r.val + o - 32, by omega⟩ c).symm

theorem pay5_apply (a : Vec Ideal S1x32x1220 .f32) (b : Vec Ideal S1x8x1220 .f32) (r : Fin 32) (c : Fin 1220) :
    k0_pay5 (F := Ideal) a b (ix2 r c) = cat3 a b (r.val + 4) c.val :=
  win_apply a b slices_S32x1220_o4_0_S28x1220 slices_S8x1220_o0_0_S4x1220 concatenates_S28x1220_S4x1220_S32x1220_d0 (by norm_num) (by norm_num) r c

theorem pay6_apply (a : Vec Ideal S1x32x1220 .f32) (b : Vec Ideal S1x8x1220 .f32) (r : Fin 32) (c : Fin 1220) :
    k0_pay6 (F := Ideal) a b (ix2 r c) = cat3 a b (r.val + 3) c.val :=
  win_apply a b slices_S32x1220_o3_0_S29x1220 slices_S8x1220_o0_0_S3x1220 concatenates_S29x1220_S3x1220_S32x1220_d0 (by norm_num) (by norm_num) r c

theorem pay7_apply (a : Vec Ideal S1x32x1220 .f32) (b : Vec Ideal S1x8x1220 .f32) (r : Fin 32) (c : Fin 1220) :
    k0_pay7 (F := Ideal) a b (ix2 r c) = cat3 a b (r.val + 2) c.val :=
  win_apply a b slices_S32x1220_o2_0_S30x1220 slices_S8x1220_o0_0_S2x1220 concatenates_S30x1220_S2x1220_S32x1220_d0 (by norm_num) (by norm_num) r c

theorem pay8_apply (a : Vec Ideal S1x32x1220 .f32) (b : Vec Ideal S1x8x1220 .f32) (r : Fin 32) (c : Fin 1220) :
    k0_pay8 (F := Ideal) a b (ix2 r c) = cat3 a b (r.val + 1) c.val :=
  win_apply a b slices_S32x1220_o1_0_S31x1220 slices_S8x1220_o0_0_S1x1220 concatenates_S31x1220_S1x1220_S32x1220_d0 (by norm_num) (by norm_num) r c

theorem pay9_apply (a : Vec Ideal S1x32x1220 .f32) (b : Vec Ideal S1x8x1220 .f32) (r : Fin 32) (c : Fin 1220) :
    k0_pay9 (F := Ideal) a b (ix2 r c) = cat3 a b (r.val + 2) c.val :=
  win_apply a b slices_S32x1220_o2_0_S30x1220 slices_S8x1220_o0_0_S2x1220 concatenates_S30x1220_S2x1220_S32x1220_d0 (by norm_num) (by norm_num) r c

theorem pay2_apply (a : Vec Ideal S1x32x1220 .f32) (b : Vec Ideal S1x8x1220 .f32) (r : Fin 32) (c : Fin 1220) :
    k0_pay2 (F := Ideal) a (ix2 r c) = cat3 a b (r.val + 0) c.val := by
  unfold cat3
  rw [if_pos (by have := r.isLt; omega)]
  refine (shapeCast_1ab_ab_apply a _ r c).trans ?_
  exact (at3_eq a (0 : Fin 1) r c).symm

/-- The re-joined and cropped weight block read at `(t, r, c)`: the two weight blocks joined along the rows, at
    row `r + 2` and column `c + 2`. -/
theorem pay4_apply (a : Vec Ideal S1x25x32x1220 .f32) (b : Vec Ideal S1x25x8x1220 .f32) (t : Fin 25) (r : Fin 32) (c : Fin 1216) :
    k0_pay4 (F := Ideal) a b (ix3 t r c) = cat4 a b t.val (r.val + 2) (c.val + 2) := by
  have hc : c.val + 2 < 1220 := by have := c.isLt; omega
  unfold k0_pay4
  refine (extractStridedSlice_apply (s := S25x32x1220) (t := S25x32x1216) ![0, 0, 2] _ slices_S25x32x1220_o0_0_2_S25x32x1216
    (ix3 t r c) (ix3 t r (⟨c.val + 2, hc⟩ : Fin 1220)) ?_).trans ?_
  · intro ax
    match ax with
    | ⟨0, _⟩ => exact (Nat.zero_add _).symm
    | ⟨1, _⟩ => exact (Nat.zero_add _).symm
    | ⟨2, _⟩ => exact Nat.add_comm _ _
  unfold cat4
  by_cases h : r.val + 2 < 32
  · rw [if_pos h]
    have hr : r.val < 30 := by omega
    refine (concatenate_pair_apply_left (t := S25x32x1220) (s₁ := S25x30x1220) (s₂ := S25x2x1220) (1 : Fin 3) _ _
      concatenates_S25x30x1220_S25x2x1220_S25x32x1220_d1 (ix3 t r (⟨c.val + 2, hc⟩ : Fin 1220)) rfl
      (ix3 t (⟨r.val, hr⟩ : Fin 30) (⟨c.val + 2, hc⟩ : Fin 1220)) ?_).trans ?_
    · intro bx
      match bx with
      | ⟨0, _⟩ => rfl
      | ⟨1, _⟩ => rfl
      | ⟨2, _⟩ => rfl
    refine (slice3_axis1_apply 2 _ slices_S25x32x1220_o0_2_0_S25x30x1220 t (⟨r.val, hr⟩ : Fin 30) (⟨c.val + 2, hc⟩ : Fin 1220)
      (⟨r.val + 2, h⟩ : Fin 32) (Nat.add_comm _ _)).trans ?_
    refine (shapeCast_1abc_abc_apply a _ t (⟨r.val + 2, h⟩ : Fin 32) (⟨c.val + 2, hc⟩ : Fin 1220)).trans ?_
    exact (at4_eq a (0 : Fin 1) t (⟨r.val + 2, h⟩ : Fin 32) (⟨c.val + 2, hc⟩ : Fin 1220)).symm
  · rw [if_neg h]
    have hr : r.val + 2 - 32 < 2 := by have := r.isLt; omega
    have hr8 : r.val + 2 - 32 < 8 := by omega
    refine (concatenate_pair_apply_right (t := S25x32x1220) (s₁ := S25x30x1220) (s₂ := S25x2x1220) (1 : Fin 3) _ _
      concatenates_S25x30x1220_S25x2x1220_S25x32x1220_d1 (ix3 t r (⟨c.val + 2, hc⟩ : Fin 1220)) rfl rfl
      (ix3 t (⟨r.val + 2 - 32, hr⟩ : Fin 2) (⟨c.val + 2, hc⟩ : Fin 1220)) ?_ ?_).trans ?_
    · intro bx hb
      match bx, hb with
      | ⟨0, _⟩, _ => rfl
      | ⟨1, _⟩, hb => exact absurd rfl hb
      | ⟨2, _⟩, _ => rfl
    · show r.val + 2 - 32 + 30 = r.val
      omega
    refine (slice3_axis1_apply 0 _ slices_S25x8x1220_o0_0_0_S25x2x1220 t (⟨r.val + 2 - 32, hr⟩ : Fin 2) (⟨c.val + 2, hc⟩ : Fin 1220)
      (⟨r.val + 2 - 32, hr8⟩ : Fin 8) (Nat.zero_add _).symm).trans ?_
    refine (shapeCast_1abc_abc_apply b _ t (⟨r.val + 2 - 32, hr8⟩ : Fin 8) (⟨c.val + 2, hc⟩ : Fin 1220)).trans ?_
    exact (at4_eq b (0 : Fin 1) t (⟨r.val + 2 - 32, hr8⟩ : Fin 8) (⟨c.val + 2, hc⟩ : Fin 1220)).symm

/-- One tap of the stencil as the common specification writes it, at output pixel `(y, x)`. -/
def specTerm (x0 : Vec Ideal S1x25x32x1220 .f32) (x1 : Vec Ideal S1x25x8x1220 .f32) (x2 : Vec Ideal S1x32x1220 .f32)
    (x3 : Vec Ideal S1x8x1220 .f32) (x4 : Vec Ideal S1x32x1220 .f32) (x5 : Vec Ideal S1x8x1220 .f32) (y x t : Nat) : EReal :=
  cat4 x0 x1 t (y + 2) (x + 2) * (if t = 12 then cat3 x4 x5 else cat3 x2 x3) (y + 4 - t / 5) (x + 4 - t % 5)

/-- One multiply of the accumulation read at `(y, x)`: plane `t` of the weight stack at `(y, x)` times the source
    window at `(y, x + ox)`. -/
theorem tap_apply (t ox : Nat) (W : FVec Ideal S25x32x1216 .f32) (S : FVec Ideal S32x1220 .f32)
    (hW : S25x32x1216.Slices ![t, 0, 0] S1x32x1216) (hS : S32x1220.Slices ![0, ox] S32x1216)
    (hsc : S1x32x1216.ShapeCasts S32x1216) (ht : t < 25) (hox : ox ≤ 4) (y : Fin 32) (x : Fin 1216) :
    mulf (shapeCast S32x1216 (extractStridedSlice S1x32x1216 ![t, 0, 0] W hW) hsc)
        (extractStridedSlice S32x1216 ![0, ox] S hS) (ix2 y x)
      = W (ix3 (⟨t, ht⟩ : Fin 25) y x) * S (ix2 y (⟨x.val + ox, by have := x.isLt; omega⟩ : Fin 1220)) := by
  refine (mulf_apply _ _ _).trans (congrArg₂ (· * ·) ?_ ?_)
  · refine (shapeCast_1ab_ab_apply _ hsc y x).trans ?_
    refine extractStridedSlice_apply _ _ _ _ _ (fun ax => ?_)
    match ax with
    | ⟨0, _⟩ => exact (Nat.add_zero _).symm
    | ⟨1, _⟩ => exact (Nat.zero_add _).symm
    | ⟨2, _⟩ => exact (Nat.zero_add _).symm
  · exact slice2_axis1_apply ox S hS y x _ (Nat.add_comm _ _)

/-- The same multiply when the weight stack and the window are the re-joined blocks: the specification's tap `t`. -/
theorem tap_spec (x0 : Vec Ideal S1x25x32x1220 .f32) (x1 : Vec Ideal S1x25x8x1220 .f32) (x2 : Vec Ideal S1x32x1220 .f32)
    (x3 : Vec Ideal S1x8x1220 .f32) (x4 : Vec Ideal S1x32x1220 .f32) (x5 : Vec Ideal S1x8x1220 .f32)
    (W : FVec Ideal S25x32x1216 .f32) (S : FVec Ideal S32x1220 .f32)
    (a : Vec Ideal S1x32x1220 .f32) (b : Vec Ideal S1x8x1220 .f32) (t ox oy : Nat)
    (hW : S25x32x1216.Slices ![t, 0, 0] S1x32x1216) (hS : S32x1220.Slices ![0, ox] S32x1216)
    (hsc : S1x32x1216.ShapeCasts S32x1216) (ht : t < 25)
    (hWv : ∀ (t : Fin 25) (r : Fin 32) (c : Fin 1216), W (ix3 t r c) = cat4 x0 x1 t.val (r.val + 2) (c.val + 2))
    (hSv : ∀ (r : Fin 32) (c : Fin 1220), S (ix2 r c) = cat3 a b (r.val + oy) c.val)
    (hsel : (if t = 12 then cat3 x4 x5 else cat3 x2 x3) = cat3 a b)
    (hy : 4 - t / 5 = oy) (hx : 4 - t % 5 = ox) (y : Fin 32) (x : Fin 1216) :
    mulf (shapeCast S32x1216 (extractStridedSlice S1x32x1216 ![t, 0, 0] W hW) hsc)
        (extractStridedSlice S32x1216 ![0, ox] S hS) (ix2 y x)
      = specTerm x0 x1 x2 x3 x4 x5 y.val x.val t := by
  refine (tap_apply t ox W S hW hS hsc ht (by omega) y x).trans ?_
  rw [hWv, hSv]
  unfold specTerm
  rw [hsel]
  have h1 : y.val + 4 - t / 5 = y.val + oy := by omega
  have h2 : x.val + 4 - t % 5 = x.val + ox := by omega
  rw [h1, h2]

/-- The first multiply-add (tap 0, onto the zero block) read at `(y, x)`. -/
theorem pay10_apply (x0 : Vec Ideal S1x25x32x1220 .f32) (x1 : Vec Ideal S1x25x8x1220 .f32) (x2 : Vec Ideal S1x32x1220 .f32)
    (x3 : Vec Ideal S1x8x1220 .f32) (x4 : Vec Ideal S1x32x1220 .f32) (x5 : Vec Ideal S1x8x1220 .f32) (y : Fin 32) (x : Fin 1216) :
    k0_pay10 (F := Ideal) x0 x1 x2 x3 (ix2 y x) = 0 + specTerm x0 x1 x2 x3 x4 x5 y.val x.val 0 := by
  unfold k0_pay10
  refine (addf_apply _ _ _).trans (congrArg₂ (· + ·) ?_ (tap_spec x0 x1 x2 x3 x4 x5 (k0_pay4 (F := Ideal) x0 x1) (k0_pay5 (F := Ideal) x2 x3) x2 x3 0 4 4
    slices_S25x32x1216_o0_0_0_S1x32x1216 slices_S32x1220_o0_4_S32x1216 shapeCasts_S1x32x1216_S32x1216 (by norm_num) (pay4_apply x0 x1) (pay5_apply x2 x3)
    (if_neg (by decide)) (by norm_num) (by norm_num) y x))
  exact Ideal.ofBits_zero_f32

/-- The second stretch of the accumulation (taps 1 … 12) read at `(y, x)`, over a weight stack and windows that
    read as the re-joined blocks. -/
theorem pay11_apply (x0 : Vec Ideal S1x25x32x1220 .f32) (x1 : Vec Ideal S1x25x8x1220 .f32) (x2 : Vec Ideal S1x32x1220 .f32)
    (x3 : Vec Ideal S1x8x1220 .f32) (x4 : Vec Ideal S1x32x1220 .f32) (x5 : Vec Ideal S1x8x1220 .f32)
    (v15 : FVec Ideal S25x32x1216 .f32) (v18 v21 v24 v30 : FVec Ideal S32x1220 .f32) (v36 : FVec Ideal S32x1216 .f32)
    (hW : ∀ (t : Fin 25) (r : Fin 32) (c : Fin 1216), v15 (ix3 t r c) = cat4 x0 x1 t.val (r.val + 2) (c.val + 2))
    (h18 : ∀ (r : Fin 32) (c : Fin 1220), v18 (ix2 r c) = cat3 x2 x3 (r.val + 4) c.val)
    (h21 : ∀ (r : Fin 32) (c : Fin 1220), v21 (ix2 r c) = cat3 x2 x3 (r.val + 3) c.val)
    (h24 : ∀ (r : Fin 32) (c : Fin 1220), v24 (ix2 r c) = cat3 x2 x3 (r.val + 2) c.val)
    (h30 : ∀ (r : Fin 32) (c : Fin 1220), v30 (ix2 r c) = cat3 x4 x5 (r.val + 2) c.val)
    (y : Fin 32) (x : Fin 1216) :
    k0_pay11 (F := Ideal) v15 v18 v21 v24 v30 v36 (ix2 y x)
      = v36 (ix2 y x) + specTerm x0 x1 x2 x3 x4 x5 y.val x.val 1 + specTerm x0 x1 x2 x3 x4 x5 y.val x.val 2 + specTerm x0 x1 x2 x3 x4 x5 y.val x.val 3 + specTerm x0 x1 x2 x3 x4 x5 y.val x.val 4 + specTerm x0 x1 x2 x3 x4 x5 y.val x.val 5 + specTerm x0 x1 x2 x3 x4 x5 y.val x.val 6
          + specTerm x0 x1 x2 x3 x4 x5 y.val x.val 7 + specTerm x0 x1 x2 x3 x4 x5 y.val x.val 8 + specTerm x0 x1 x2 x3 x4 x5 y.val x.val 9 + specTerm x0 x1 x2 x3 x4 x5 y.val x.val 10 + specTerm x0 x1 x2 x3 x4 x5 y.val x.val 11 + specTerm x0 x1 x2 x3 x4 x5 y.val x.val 12 := by
  unfold k0_pay11
  refine (addf_apply _ _ _).trans (congrArg₂ (· + ·) ?_ (tap_spec x0 x1 x2 x3 x4 x5 v15 v30 x4 x5 12 2 2
    slices_S25x32x1216_o12_0_0_S1x32x1216 slices_S32x1220_o0_2_S32x1216 shapeCasts_S1x32x1216_S32x1216 (by norm_num) hW h30
    (if_pos rfl) (by norm_num) (by norm_num) y x))
  refine (addf_apply _ _ _).trans (congrArg₂ (· + ·) ?_ (tap_spec x0 x1 x2 x3 x4 x5 v15 v24 x2 x3 11 3 2
    slices_S25x32x1216_o11_0_0_S1x32x1216 slices_S32x1220_o0_3_S32x1216 shapeCasts_S1x32x1216_S32x1216 (by norm_num) hW h24
    (if_neg (by decide)) (by norm_num) (by norm_num) y x))
  refine (addf_apply _ _ _).trans (congrArg₂ (· + ·) ?_ (tap_spec x0 x1 x2 x3 x4 x5 v15 v24 x2 x3 10 4 2
    slices_S25x32x1216_o10_0_0_S1x32x1216 slices_S32x1220_o0_4_S32x1216 shapeCasts_S1x32x1216_S32x1216 (by norm_num) hW h24
    (if_neg (by decide)) (by norm_num) (by norm_num) y x))
  refine (addf_apply _ _ _).trans (congrArg₂ (· + ·) ?_ (tap_spec x0 x1 x2 x3 x4 x5 v15 v21 x2 x3 9 0 3
    slices_S25x32x1216_o9_0_0_S1x32x1216 slices_S32x1220_o0_0_S32x1216 shapeCasts_S1x32x1216_S32x1216 (by norm_num) hW h21
    (if_neg (by decide)) (by norm_num) (by norm_num) y x))
  refine (addf_apply _ _ _).trans (congrArg₂ (· + ·) ?_ (tap_spec x0 x1 x2 x3 x4 x5 v15 v21 x2 x3 8 1 3
    slices_S25x32x1216_o8_0_0_S1x32x1216 slices_S32x1220_o0_1_S32x1216 shapeCasts_S1x32x1216_S32x1216 (by norm_num) hW h21
    (if_neg (by decide)) (by norm_num) (by norm_num) y x))
  refine (addf_apply _ _ _).trans (congrArg₂ (· + ·) ?_ (tap_spec x0 x1 x2 x3 x4 x5 v15 v21 x2 x3 7 2 3
    slices_S25x32x1216_o7_0_0_S1x32x1216 slices_S32x1220_o0_2_S32x1216 shapeCasts_S1x32x1216_S32x1216 (by norm_num) hW h21
    (if_neg (by decide)) (by norm_num) (by norm_num) y x))
  refine (addf_apply _ _ _).trans (congrArg₂ (· + ·) ?_ (tap_spec x0 x1 x2 x3 x4 x5 v15 v21 x2 x3 6 3 3
    slices_S25x32x1216_o6_0_0_S1x32x1216 slices_S32x1220_o0_3_S32x1216 shapeCasts_S1x32x1216_S32x1216 (by norm_num) hW h21
    (if_neg (by decide)) (by norm_num) (by norm_num) y x))
  refine (addf_apply _ _ _).trans (congrArg₂ (· + ·) ?_ (tap_spec x0 x1 x2 x3 x4 x5 v15 v21 x2 x3 5 4 3
    slices_S25x32x1216_o5_0_0_S1x32x1216 slices_S32x1220_o0_4_S32x1216 shapeCasts_S1x32x1216_S32x1216 (by norm_num) hW h21
    (if_neg (by decide)) (by norm_num) (by norm_num) y x))
  refine (addf_apply _ _ _).trans (congrArg₂ (· + ·) ?_ (tap_spec x0 x1 x2 x3 x4 x5 v15 v18 x2 x3 4 0 4
    slices_S25x32x1216_o4_0_0_S1x32x1216 slices_S32x1220_o0_0_S32x1216 shapeCasts_S1x32x1216_S32x1216 (by norm_num) hW h18
    (if_neg (by decide)) (by norm_num) (by norm_num) y x))
  refine (addf_apply _ _ _).trans (congrArg₂ (· + ·) ?_ (tap_spec x0 x1 x2 x3 x4 x5 v15 v18 x2 x3 3 1 4
    slices_S25x32x1216_o3_0_0_S1x32x1216 slices_S32x1220_o0_1_S32x1216 shapeCasts_S1x32x1216_S32x1216 (by norm_num) hW h18
    (if_neg (by decide)) (by norm_num) (by norm_num) y x))
  refine (addf_apply _ _ _).trans (congrArg₂ (· + ·) ?_ (tap_spec x0 x1 x2 x3 x4 x5 v15 v18 x2 x3 2 2 4
    slices_S25x32x1216_o2_0_0_S1x32x1216 slices_S32x1220_o0_2_S32x1216 shapeCasts_S1x32x1216_S32x1216 (by norm_num) hW h18
    (if_neg (by decide)) (by norm_num) (by norm_num) y x))
  refine (addf_apply _ _ _).trans (congrArg₂ (· + ·) ?_ (tap_spec x0 x1 x2 x3 x4 x5 v15 v18 x2 x3 1 3 4
    slices_S25x32x1216_o1_0_0_S1x32x1216 slices_S32x1220_o0_3_S32x1216 shapeCasts_S1x32x1216_S32x1216 (by norm_num) hW h18
    (if_neg (by decide)) (by norm_num) (by norm_num) y x))
  rfl

/-- The third stretch of the accumulation (taps 13 … 24) read at `(y, x)`. -/
theorem pay12_apply (x0 : Vec Ideal S1x25x32x1220 .f32) (x1 : Vec Ideal S1x25x8x1220 .f32) (x2 : Vec Ideal S1x32x1220 .f32)
    (x3 : Vec Ideal S1x8x1220 .f32) (x4 : Vec Ideal S1x32x1220 .f32) (x5 : Vec Ideal S1x8x1220 .f32)
    (v5 : FVec Ideal S32x1220 .f32) (v15 : FVec Ideal S25x32x1216 .f32) (v24 v27 : FVec Ideal S32x1220 .f32) (v96 : FVec Ideal S32x1216 .f32)
    (hW : ∀ (t : Fin 25) (r : Fin 32) (c : Fin 1216), v15 (ix3 t r c) = cat4 x0 x1 t.val (r.val + 2) (c.val + 2))
    (h5 : ∀ (r : Fin 32) (c : Fin 1220), v5 (ix2 r c) = cat3 x2 x3 (r.val + 0) c.val)
    (h24 : ∀ (r : Fin 32) (c : Fin 1220), v24 (ix2 r c) = cat3 x2 x3 (r.val + 2) c.val)
    (h27 : ∀ (r : Fin 32) (c : Fin 1220), v27 (ix2 r c) = cat3 x2 x3 (r.val + 1) c.val)
    (y : Fin 32) (x : Fin 1216) :
    k0_pay12 (F := Ideal) v5 v15 v24 v27 v96 (ix2 y x)
      = v96 (ix2 y x) + specTerm x0 x1 x2 x3 x4 x5 y.val x.val 13 + specTerm x0 x1 x2 x3 x4 x5 y.val x.val 14 + specTerm x0 x1 x2 x3 x4 x5 y.val x.val 15 + specTerm x0 x1 x2 x3 x4 x5 y.val x.val 16 + specTerm x0 x1 x2 x3 x4 x5 y.val x.val 17 + specTerm x0 x1 x2 x3 x4 x5 y.val x.val 18
          + specTerm x0 x1 x2 x3 x4 x5 y.val x.val 19 + specTerm x0 x1 x2 x3 x4 x5 y.val x.val 20 + specTerm x0 x1 x2 x3 x4 x5 y.val x.val 21 + specTerm x0 x1 x2 x3 x4 x5 y.val x.val 22 + specTerm x0 x1 x2 x3 x4 x5 y.val x.val 23 + specTerm x0 x1 x2 x3 x4 x5 y.val x.val 24 := by
  unfold k0_pay12
  refine (addf_apply _ _ _).trans (congrArg₂ (· + ·) ?_ (tap_spec x0 x1 x2 x3 x4 x5 v15 v5 x2 x3 24 0 0
    slices_S25x32x1216_o24_0_0_S1x32x1216 slices_S32x1220_o0_0_S32x1216 shapeCasts_S1x32x1216_S32x1216 (by norm_num) hW h5
    (if_neg (by decide)) (by norm_num) (by norm_num) y x))
  refine (addf_apply _ _ _).trans (congrArg₂ (· + ·) ?_ (tap_spec x0 x1 x2 x3 x4 x5 v15 v5 x2 x3 23 1 0
    slices_S25x32x1216_o23_0_0_S1x32x1216 slices_S32x1220_o0_1_S32x1216 shapeCasts_S1x32x1216_S32x1216 (by norm_num) hW h5
    (if_neg (by decide)) (by norm_num) (by norm_num) y x))
  refine (addf_apply _ _ _).trans (congrArg₂ (· + ·) ?_ (tap_spec x0 x1 x2 x3 x4 x5 v15 v5 x2 x3 22 2 0
    slices_S25x32x1216_o22_0_0_S1x32x1216 slices_S32x1220_o0_2_S32x1216 shapeCasts_S1x32x1216_S32x1216 (by norm_num) hW h5
    (if_neg (by decide)) (by norm_num) (by norm_num) y x))
  refine (addf_apply _ _ _).trans (congrArg₂ (· + ·) ?_ (tap_spec x0 x1 x2 x3 x4 x5 v15 v5 x2 x3 21 3 0
    slices_S25x32x1216_o21_0_0_S1x32x1216 slices_S32x1220_o0_3_S32x1216 shapeCasts_S1x32x1216_S32x1216 (by norm_num) hW h5
    (if_neg (by decide)) (by norm_num) (by norm_num) y x))
  refine (addf_apply _ _ _).trans (congrArg₂ (· + ·) ?_ (tap_spec x0 x1 x2 x3 x4 x5 v15 v5 x2 x3 20 4 0
    slices_S25x32x1216_o20_0_0_S1x32x1216 slices_S32x1220_o0_4_S32x1216 shapeCasts_S1x32x1216_S32x1216 (by norm_num) hW h5
    (if_neg (by decide)) (by norm_num) (by norm_num) y x))
  refine (addf_apply _ _ _).trans (congrArg₂ (· + ·) ?_ (tap_spec x0 x1 x2 x3 x4 x5 v15 v27 x2 x3 19 0 1
    slices_S25x32x1216_o19_0_0_S1x32x1216 slices_S32x1220_o0_0_S32x1216 shapeCasts_S1x32x1216_S32x1216 (by norm_num) hW h27
    (if_neg (by decide)) (by norm_num) (by norm_num) y x))
  refine (addf_apply _ _ _).trans (congrArg₂ (· + ·) ?_ (tap_spec x0 x1 x2 x3 x4 x5 v15 v27 x2 x3 18 1 1
    slices_S25x32x1216_o18_0_0_S1x32x1216 slices_S32x1220_o0_1_S32x1216 shapeCasts_S1x32x1216_S32x1216 (by norm_num) hW h27
    (if_neg (by decide)) (by norm_num) (by norm_num) y x))
  refine (addf_apply _ _ _).trans (congrArg₂ (· + ·) ?_ (tap_spec x0 x1 x2 x3 x4 x5 v15 v27 x2 x3 17 2 1
    slices_S25x32x1216_o17_0_0_S1x32x1216 slices_S32x1220_o0_2_S32x1216 shapeCasts_S1x32x1216_S32x1216 (by norm_num) hW h27
    (if_neg (by decide)) (by norm_num) (by norm_num) y x))
  refine (addf_apply _ _ _).trans (congrArg₂ (· + ·) ?_ (tap_spec x0 x1 x2 x3 x4 x5 v15 v27 x2 x3 16 3 1
    slices_S25x32x1216_o16_0_0_S1x32x1216 slices_S32x1220_o0_3_S32x1216 shapeCasts_S1x32x1216_S32x1216 (by norm_num) hW h27
    (if_neg (by decide)) (by norm_num) (by norm_num) y x))
  refine (addf_apply _ _ _).trans (congrArg₂ (· + ·) ?_ (tap_spec x0 x1 x2 x3 x4 x5 v15 v27 x2 x3 15 4 1
    slices_S25x32x1216_o15_0_0_S1x32x1216 slices_S32x1220_o0_4_S32x1216 shapeCasts_S1x32x1216_S32x1216 (by norm_num) hW h27
    (if_neg (by decide)) (by norm_num) (by norm_num) y x))
  refine (addf_apply _ _ _).trans (congrArg₂ (· + ·) ?_ (tap_spec x0 x1 x2 x3 x4 x5 v15 v24 x2 x3 14 0 2
    slices_S25x32x1216_o14_0_0_S1x32x1216 slices_S32x1220_o0_0_S32x1216 shapeCasts_S1x32x1216_S32x1216 (by norm_num) hW h24
    (if_neg (by decide)) (by norm_num) (by norm_num) y x))
  refine (addf_apply _ _ _).trans (congrArg₂ (· + ·) ?_ (tap_spec x0 x1 x2 x3 x4 x5 v15 v24 x2 x3 13 1 2
    slices_S25x32x1216_o13_0_0_S1x32x1216 slices_S32x1220_o0_1_S32x1216 shapeCasts_S1x32x1216_S32x1216 (by norm_num) hW h24
    (if_neg (by decide)) (by norm_num) (by norm_num) y x))
  rfl

/-- The block one grid point stores, read at `(0, y, x)`: the specification's sum over the 25 taps, the weights read
    from the two weight blocks joined along the rows and the sources from the two source blocks joined likewise. -/
theorem stored_apply (x0 : Vec Ideal S1x25x32x1220 .f32) (x1 : Vec Ideal S1x25x8x1220 .f32) (x2 : Vec Ideal S1x32x1220 .f32)
    (x3 : Vec Ideal S1x8x1220 .f32) (x4 : Vec Ideal S1x32x1220 .f32) (x5 : Vec Ideal S1x8x1220 .f32)
    (y : Fin 32) (x : Fin 1216) :
    stored (F := Ideal) x0 x1 x2 x3 x4 x5 (ix3 (0 : Fin 1) y x)
      = ∑ t ∈ Finset.range 25, Cert.Spec.cat4 x0 x1 t ((y : Nat) + 2) ((x : Nat) + 2)
          * (if t = 12 then Cert.Spec.cat3 x4 x5 else Cert.Spec.cat3 x2 x3) ((y : Nat) + 4 - t / 5) ((x : Nat) + 4 - t % 5) := by
  show _ = ∑ t ∈ Finset.range 25, specTerm x0 x1 x2 x3 x4 x5 y.val x.val t
  unfold stored k0_pay1
  refine (shapeCast_ab_1ab_apply _ _ (0 : Fin 1) y x).trans ?_
  rw [pay12_apply x0 x1 x2 x3 x4 x5 _ _ _ _ _ (pay4_apply x0 x1) (pay2_apply x2 x3) (pay7_apply x2 x3) (pay8_apply x2 x3) y x,
    pay11_apply x0 x1 x2 x3 x4 x5 _ _ _ _ _ _ (pay4_apply x0 x1) (pay5_apply x2 x3) (pay6_apply x2 x3) (pay7_apply x2 x3)
      (pay9_apply x4 x5) y x,
    pay10_apply x0 x1 x2 x3 x4 x5 y x]
  simp only [Finset.sum_range_succ, Finset.sum_range_zero]

end Cert.KernelIdeal.Shift

end
-- ==== Proof.KI.Final.lean ====
/-
  From blocks to the array: the output array after the region is the stencil `Cert.Spec.Gpad` of the three padded
  arrays the region was entered with. Point (b, h) of the 4 × 11 grid writes rows 32 h … 32 h + 31 of batch b, from
  rows 32 h … 32 h + 39 of the padded arrays (a 32-row main block and the 8-row block that follows it).
-/
import proofs.«154281_j25374666784912_1_alg».proof.Proof.KI.Data
import proofs.«154281_j25374666784912_1_alg».proof.Proof.KI.Payload
import proofs.«154281_j25374666784912_1_alg».proof.Proof.Spec
import Idealize.ShloMosaic.Lib.ValueIdx
import Idealize.ShloMosaic.Lib.Pipeline.Value

set_option maxRecDepth 16384

noncomputable section

open scoped BigOperators

namespace Cert.KernelIdeal.Shift

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The index maps, decided once over the grid: every input window's block indices in terms of the output
    window's (batch, row tile), and the output's ranges. -/
theorem idx_facts : ∀ t : Fin cfg0.N,
    win0_0.index t (0 : Fin 4) = win0_6.index t (0 : Fin 3) ∧ win0_0.index t (1 : Fin 4) = 0
      ∧ win0_0.index t (2 : Fin 4) = win0_6.index t (1 : Fin 3) ∧ win0_0.index t (3 : Fin 4) = 0
    ∧ win0_1.index t (0 : Fin 4) = win0_6.index t (0 : Fin 3) ∧ win0_1.index t (1 : Fin 4) = 0
      ∧ win0_1.index t (2 : Fin 4) = 4 * (win0_6.index t (1 : Fin 3) + 1) ∧ win0_1.index t (3 : Fin 4) = 0
    ∧ win0_2.index t (0 : Fin 3) = win0_6.index t (0 : Fin 3) ∧ win0_2.index t (1 : Fin 3) = win0_6.index t (1 : Fin 3)
      ∧ win0_2.index t (2 : Fin 3) = 0
    ∧ win0_3.index t (0 : Fin 3) = win0_6.index t (0 : Fin 3) ∧ win0_3.index t (1 : Fin 3) = 4 * (win0_6.index t (1 : Fin 3) + 1)
      ∧ win0_3.index t (2 : Fin 3) = 0
    ∧ win0_4.index t (0 : Fin 3) = win0_6.index t (0 : Fin 3) ∧ win0_4.index t (1 : Fin 3) = win0_6.index t (1 : Fin 3)
      ∧ win0_4.index t (2 : Fin 3) = 0
    ∧ win0_5.index t (0 : Fin 3) = win0_6.index t (0 : Fin 3) ∧ win0_5.index t (1 : Fin 3) = 4 * (win0_6.index t (1 : Fin 3) + 1)
      ∧ win0_5.index t (2 : Fin 3) = 0
    ∧ win0_6.index t (0 : Fin 3) < 4 ∧ win0_6.index t (1 : Fin 3) < 11 ∧ win0_6.index t (2 : Fin 3) = 0 :=
  (by decide +kernel : ∀ t : Fin grid0.N, _)

/-- Every (batch, row tile) is some point's. -/
theorem idx_onto : ∀ (q0 : Fin 4) (q1 : Fin 11), ∃ t : Fin cfg0.N, win0_6.index t = ![q0.val, q1.val, 0] :=
  (by decide +kernel : ∀ (q0 : Fin 4) (q1 : Fin 11), ∃ t : Fin grid0.N, win0_6.index t = ![q0.val, q1.val, 0])

/-- A block read at an index of the whole staging block: nothing is cut, so it is the array's block read there. -/
theorem iblk_apply (c : Dev nD) (w : Fin cfg0.W) (t : Fin cfg0.N) (j : (cfg0.win w).block.Idx)
    (h : ∀ a, (j a).val < (cfg0.win w).xsize (cfg0.grid.coords t) a) :
    iblk V c w t j = ((cfg0.win w).blk t).view.read (Elt Ideal) (V c (Pipeline.arrRef spec0 w)) (fun a => ⟨(j a).val, h a⟩) := by
  have hm : (cfg0.win w).moved (cfg0.grid.coords t) j = true := ((cfg0.win w).moved_iff _ j).mpr h
  unfold iblk Window.fill
  rw [dif_pos hm]

theorem xsize_eq (w : Fin cfg0.W) (t : Fin cfg0.N) (a : Fin (cfg0.win w).shape.rank) :
    (cfg0.win w).xsize (cfg0.grid.coords t) a = (cfg0.win w).size a := by
  unfold Window.xsize; rw [clip_none w t a]

theorem at4_of_lt {n0 n1 n2 n3 : Nat} (f : (⟨4, ![n0, n1, n2, n3]⟩ : Shape).Idx → EReal) (a b c d : Nat)
    (ha : a < n0) (hb : b < n1) (hc : c < n2) (hd : d < n3) :
    at4 f a b c d = f (ix4 ⟨a, ha⟩ ⟨b, hb⟩ ⟨c, hc⟩ ⟨d, hd⟩) := by
  unfold at4; rw [dif_pos ⟨ha, hb, hc, hd⟩]

theorem at3_of_lt {n0 n1 n2 : Nat} (f : (⟨3, ![n0, n1, n2]⟩ : Shape).Idx → EReal) (a b c : Nat)
    (ha : a < n0) (hb : b < n1) (hc : c < n2) :
    at3 f a b c = f (ix3 ⟨a, ha⟩ ⟨b, hb⟩ ⟨c, hc⟩) := by
  unfold at3; rw [dif_pos ⟨ha, hb, hc⟩]

/-- The main weight block at a point, read at an index, is the padded weight array at the point's batch and rows. -/
theorem iblk0_at (c : Dev nD) (t : Fin cfg0.N) (k : Fin 25) (r : Fin 32) (x : Fin 1220) :
    iblk V c 0 t (ix4 (0 : Fin 1) k r x)
      = at4 (V c main_v0) (win0_6.index t (0 : Fin 3)) k (32 * win0_6.index t (1 : Fin 3) + r) x := by
  obtain ⟨e00, e01, e02, e03, -, -, -, -, -, -, -, -, -, -, -, -, -, -, -, -, hb, hh, -⟩ := idx_facts t
  rw [iblk_apply V c 0 t _ (fun a => by rw [xsize_eq]; exact (ix4 (0 : Fin 1) k r x a).isLt)]
  rw [at4_of_lt _ _ _ _ _ hb k.isLt (by omega) x.isLt]
  show V c main_v0 (((cfg0.win 0).blk t).view.emb _) = _
  congr 1
  funext a; apply Fin.ext
  match a with
  | ⟨0, _⟩ => show win0_0.index t (0 : Fin 4) * 1 + 1 * 0 = win0_6.index t (0 : Fin 3); omega
  | ⟨1, _⟩ => show win0_0.index t (1 : Fin 4) * 25 + 1 * k.val = k.val; omega
  | ⟨2, _⟩ => show win0_0.index t (2 : Fin 4) * 32 + 1 * r.val = 32 * win0_6.index t (1 : Fin 3) + r.val; omega
  | ⟨3, _⟩ => show win0_0.index t (3 : Fin 4) * 1220 + 1 * x.val = x.val; omega

/-- The overflow weight block (the eight rows after the main block). -/
theorem iblk1_at (c : Dev nD) (t : Fin cfg0.N) (k : Fin 25) (r : Fin 8) (x : Fin 1220) :
    iblk V c 1 t (ix4 (0 : Fin 1) k r x)
      = at4 (V c main_v0) (win0_6.index t (0 : Fin 3)) k (32 * win0_6.index t (1 : Fin 3) + 32 + r) x := by
  obtain ⟨-, -, -, -, e10, e11, e12, e13, -, -, -, -, -, -, -, -, -, -, -, -, hb, hh, -⟩ := idx_facts t
  rw [iblk_apply V c 1 t _ (fun a => by rw [xsize_eq]; exact (ix4 (0 : Fin 1) k r x a).isLt)]
  rw [at4_of_lt _ _ _ _ _ hb k.isLt (by omega) x.isLt]
  show V c main_v0 (((cfg0.win 1).blk t).view.emb _) = _
  congr 1
  funext a; apply Fin.ext
  match a with
  | ⟨0, _⟩ => show win0_1.index t (0 : Fin 4) * 1 + 1 * 0 = win0_6.index t (0 : Fin 3); omega
  | ⟨1, _⟩ => show win0_1.index t (1 : Fin 4) * 25 + 1 * k.val = k.val; omega
  | ⟨2, _⟩ => show win0_1.index t (2 : Fin 4) * 8 + 1 * r.val = 32 * win0_6.index t (1 : Fin 3) + 32 + r.val; omega
  | ⟨3, _⟩ => show win0_1.index t (3 : Fin 4) * 1220 + 1 * x.val = x.val; omega

/-- The first source's main block. -/
theorem iblk2_at (c : Dev nD) (t : Fin cfg0.N) (r : Fin 32) (x : Fin 1220) :
    iblk V c 2 t (ix3 (0 : Fin 1) r x)
      = at3 (V c main_v3) (win0_6.index t (0 : Fin 3)) (32 * win0_6.index t (1 : Fin 3) + r) x := by
  obtain ⟨-, -, -, -, -, -, -, -, e0, e1, e2, -, -, -, -, -, -, -, -, -, hb, hh, -⟩ := idx_facts t
  rw [iblk_apply V c 2 t _ (fun a => by rw [xsize_eq]; exact (ix3 (0 : Fin 1) r x a).isLt)]
  rw [at3_of_lt _ _ _ _ hb (by omega) x.isLt]
  show V c main_v3 (((cfg0.win 2).blk t).view.emb _) = _
  congr 1
  funext a; apply Fin.ext
  match a with
  | ⟨0, _⟩ => show win0_2.index t (0 : Fin 3) * 1 + 1 * 0 = win0_6.index t (0 : Fin 3); omega
  | ⟨1, _⟩ => show win0_2.index t (1 : Fin 3) * 32 + 1 * r.val = 32 * win0_6.index t (1 : Fin 3) + r.val; omega
  | ⟨2, _⟩ => show win0_2.index t (2 : Fin 3) * 1220 + 1 * x.val = x.val; omega

/-- The first source's overflow block. -/
theorem iblk3_at (c : Dev nD) (t : Fin cfg0.N) (r : Fin 8) (x : Fin 1220) :
    iblk V c 3 t (ix3 (0 : Fin 1) r x)
      = at3 (V c main_v3) (win0_6.index t (0 : Fin 3)) (32 * win0_6.index t (1 : Fin 3) + 32 + r) x := by
  obtain ⟨-, -, -, -, -, -, -, -, -, -, -, e0, e1, e2, -, -, -, -, -, -, hb, hh, -⟩ := idx_facts t
  rw [iblk_apply V c 3 t _ (fun a => by rw [xsize_eq]; exact (ix3 (0 : Fin 1) r x a).isLt)]
  rw [at3_of_lt _ _ _ _ hb (by omega) x.isLt]
  show V c main_v3 (((cfg0.win 3).blk t).view.emb _) = _
  congr 1
  funext a; apply Fin.ext
  match a with
  | ⟨0, _⟩ => show win0_3.index t (0 : Fin 3) * 1 + 1 * 0 = win0_6.index t (0 : Fin 3); omega
  | ⟨1, _⟩ => show win0_3.index t (1 : Fin 3) * 8 + 1 * r.val = 32 * win0_6.index t (1 : Fin 3) + 32 + r.val; omega
  | ⟨2, _⟩ => show win0_3.index t (2 : Fin 3) * 1220 + 1 * x.val = x.val; omega

/-- The second source's main block. -/
theorem iblk4_at (c : Dev nD) (t : Fin cfg0.N) (r : Fin 32) (x : Fin 1220) :
    iblk V c 4 t (ix3 (0 : Fin 1) r x)
      = at3 (V c main_v4) (win0_6.index t (0 : Fin 3)) (32 * win0_6.index t (1 : Fin 3) + r) x := by
  obtain ⟨-, -, -, -, -, -, -, -, -, -, -, -, -, -, e0, e1, e2, -, -, -, hb, hh, -⟩ := idx_facts t
  rw [iblk_apply V c 4 t _ (fun a => by rw [xsize_eq]; exact (ix3 (0 : Fin 1) r x a).isLt)]
  rw [at3_of_lt _ _ _ _ hb (by omega) x.isLt]
  show V c main_v4 (((cfg0.win 4).blk t).view.emb _) = _
  congr 1
  funext a; apply Fin.ext
  match a with
  | ⟨0, _⟩ => show win0_4.index t (0 : Fin 3) * 1 + 1 * 0 = win0_6.index t (0 : Fin 3); omega
  | ⟨1, _⟩ => show win0_4.index t (1 : Fin 3) * 32 + 1 * r.val = 32 * win0_6.index t (1 : Fin 3) + r.val; omega
  | ⟨2, _⟩ => show win0_4.index t (2 : Fin 3) * 1220 + 1 * x.val = x.val; omega

/-- The second source's overflow block. -/
theorem iblk5_at (c : Dev nD) (t : Fin cfg0.N) (r : Fin 8) (x : Fin 1220) :
    iblk V c 5 t (ix3 (0 : Fin 1) r x)
      = at3 (V c main_v4) (win0_6.index t (0 : Fin 3)) (32 * win0_6.index t (1 : Fin 3) + 32 + r) x := by
  obtain ⟨-, -, -, -, -, -, -, -, -, -, -, -, -, -, -, -, -, e0, e1, e2, hb, hh, -⟩ := idx_facts t
  rw [iblk_apply V c 5 t _ (fun a => by rw [xsize_eq]; exact (ix3 (0 : Fin 1) r x a).isLt)]
  rw [at3_of_lt _ _ _ _ hb (by omega) x.isLt]
  show V c main_v4 (((cfg0.win 5).blk t).view.emb _) = _
  congr 1
  funext a; apply Fin.ext
  match a with
  | ⟨0, _⟩ => show win0_5.index t (0 : Fin 3) * 1 + 1 * 0 = win0_6.index t (0 : Fin 3); omega
  | ⟨1, _⟩ => show win0_5.index t (1 : Fin 3) * 8 + 1 * r.val = 32 * win0_6.index t (1 : Fin 3) + 32 + r.val; omega
  | ⟨2, _⟩ => show win0_5.index t (2 : Fin 3) * 1220 + 1 * x.val = x.val; omega

theorem at4_of_not {n0 n1 n2 n3 : Nat} (f : (⟨4, ![n0, n1, n2, n3]⟩ : Shape).Idx → EReal) (a b c d : Nat)
    (h : ¬(b < n1 ∧ d < n3)) : at4 f a b c d = 0 := by
  unfold at4; rw [dif_neg (fun hh => h ⟨hh.2.1, hh.2.2.2⟩)]

theorem at3_of_not {n0 n1 n2 : Nat} (f : (⟨3, ![n0, n1, n2]⟩ : Shape).Idx → EReal) (a b c : Nat)
    (h : ¬c < n2) : at3 f a b c = 0 := by
  unfold at3; rw [dif_neg (fun hh => h hh.2.2)]

/-- Two blocks that are rows 32 h … 32 h + 31 and 32 h + 32 … 32 h + 39 of batch b of a rank-4 array, joined,
    are rows 32 h … 32 h + 39 of it. -/
theorem cat4_of {H : Nat} (x0 : (⟨4, ![1, 25, 32, 1220]⟩ : Shape).Idx → EReal) (x1 : (⟨4, ![1, 25, 8, 1220]⟩ : Shape).Idx → EReal)
    (P : (⟨4, ![4, 25, H, 1220]⟩ : Shape).Idx → EReal) (b h : Nat)
    (h0 : ∀ (k : Fin 25) (r : Fin 32) (x : Fin 1220), x0 (ix4 (0 : Fin 1) k r x) = at4 P b k (32 * h + r) x)
    (h1 : ∀ (k : Fin 25) (r : Fin 8) (x : Fin 1220), x1 (ix4 (0 : Fin 1) k r x) = at4 P b k (32 * h + 32 + r) x)
    (k r x : Nat) (hr : r < 40) : cat4 x0 x1 k r x = at4 P b k (32 * h + r) x := by
  unfold cat4
  by_cases hkx : k < 25 ∧ x < 1220
  · obtain ⟨hk, hx⟩ := hkx
    by_cases h32 : r < 32
    · rw [if_pos h32, at4_of_lt _ _ _ _ _ (by omega : 0 < 1) hk h32 hx]
      exact h0 ⟨k, hk⟩ ⟨r, h32⟩ ⟨x, hx⟩
    · rw [if_neg h32, at4_of_lt _ _ _ _ _ (by omega : 0 < 1) hk (by omega : r - 32 < 8) hx]
      refine (h1 ⟨k, hk⟩ ⟨r - 32, by omega⟩ ⟨x, hx⟩).trans ?_
      show at4 P b k (32 * h + 32 + (r - 32)) x = _
      rw [show 32 * h + 32 + (r - 32) = 32 * h + r from by omega]
  · rw [at4_of_not P _ _ _ _ hkx]
    split
    · exact at4_of_not _ _ _ _ _ hkx
    · exact at4_of_not _ _ _ _ _ hkx

/-- The same for rank-3 sources. -/
theorem cat3_of {H : Nat} (x0 : (⟨3, ![1, 32, 1220]⟩ : Shape).Idx → EReal) (x1 : (⟨3, ![1, 8, 1220]⟩ : Shape).Idx → EReal)
    (P : (⟨3, ![4, H, 1220]⟩ : Shape).Idx → EReal) (b h : Nat)
    (h0 : ∀ (r : Fin 32) (x : Fin 1220), x0 (ix3 (0 : Fin 1) r x) = at3 P b (32 * h + r) x)
    (h1 : ∀ (r : Fin 8) (x : Fin 1220), x1 (ix3 (0 : Fin 1) r x) = at3 P b (32 * h + 32 + r) x)
    (r x : Nat) (hr : r < 40) : cat3 x0 x1 r x = at3 P b (32 * h + r) x := by
  unfold cat3
  by_cases hx : x < 1220
  · by_cases h32 : r < 32
    · rw [if_pos h32, at3_of_lt _ _ _ _ (by omega : 0 < 1) h32 hx]
      exact h0 ⟨r, h32⟩ ⟨x, hx⟩
    · rw [if_neg h32, at3_of_lt _ _ _ _ (by omega : 0 < 1) (by omega : r - 32 < 8) hx]
      refine (h1 ⟨r - 32, by omega⟩ ⟨x, hx⟩).trans ?_
      show at3 P b (32 * h + 32 + (r - 32)) x = _
      rw [show 32 * h + 32 + (r - 32) = 32 * h + r from by omega]
  · rw [at3_of_not P _ _ _ hx]
    split
    · exact at3_of_not _ _ _ _ hx
    · exact at3_of_not _ _ _ _ hx

/-- The stencil at an index whose coordinates are known as natural numbers. -/
theorem Gpad_apply {H0 H1 W : Nat} (P0 : (⟨4, ![4, 25, H0, 1220]⟩ : Shape).Idx → EReal)
    (P3 P4 : (⟨3, ![4, H1, W]⟩ : Shape).Idx → EReal) (i : (⟨3, ![4, 352, 1216]⟩ : Shape).Idx) (b Y X : Nat)
    (h0 : ((i 0 : Fin 4) : Nat) = b) (h1 : ((i 1 : Fin 352) : Nat) = Y) (h2 : ((i 2 : Fin 1216) : Nat) = X) :
    Gpad P0 P3 P4 i = ∑ k ∈ Finset.range 25,
      at4 P0 b k (Y + 2) (X + 2) * at3 (if k = 12 then P4 else P3) b (Y + 4 - k / 5) (X + 4 - k % 5) := by
  subst h0 h1 h2; rfl

/-- What a point writes back is its block of the stencil of the three padded arrays. -/
theorem flushed_eq (c : Dev nD) (t : Fin cfg0.N) :
    (dat (F := Ideal) V c).flushed 6 t
      = ((cfg0.win 6).blk t).view.read (Elt Ideal) (Gpad (V c main_v0) (V c main_v3) (V c main_v4)) := by
  obtain ⟨-, -, -, -, -, -, -, -, -, -, -, -, -, -, -, -, -, -, -, -, hb, hh, e62⟩ := idx_facts t
  funext j
  show (dat (F := Ideal) V c).after 6 t j
    = Gpad (V c main_v0) (V c main_v3) (V c main_v4) (((cfg0.win 6).blk t).view.emb j)
  rw [after_6]
  have hj0 : (j 0).val < 1 := (j 0).isLt
  have hj1 : (j 1).val < 32 := (j 1).isLt
  have hj2 : (j 2).val < 1216 := (j 2).isLt
  have ej : j = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  rw [Gpad_apply _ _ _ (((cfg0.win 6).blk t).view.emb j) (win0_6.index t (0 : Fin 3))
    (32 * win0_6.index t (1 : Fin 3) + (j 1).val) (j 2).val
    (by show win0_6.index t (0 : Fin 3) * 1 + 1 * (j 0).val = _; omega)
    (by show win0_6.index t (1 : Fin 3) * 32 + 1 * (j 1).val = _; omega)
    (by show win0_6.index t (2 : Fin 3) * 1216 + 1 * (j 2).val = _; omega)]
  refine (congrArg _ ej).trans ?_
  rw [stored_apply]
  show (_ : EReal) = _
  refine Finset.sum_congr rfl fun k hk => ?_
  have hk25 : k < 25 := Finset.mem_range.mp hk
  have c4 := cat4_of (iblk V c 0 t) (iblk V c 1 t) (V c main_v0) (win0_6.index t (0 : Fin 3)) (win0_6.index t (1 : Fin 3))
    (iblk0_at V c t) (iblk1_at V c t)
  have c3 := cat3_of (iblk V c 2 t) (iblk V c 3 t) (V c main_v3) (win0_6.index t (0 : Fin 3)) (win0_6.index t (1 : Fin 3))
    (iblk2_at V c t) (iblk3_at V c t)
  have c5 := cat3_of (iblk V c 4 t) (iblk V c 5 t) (V c main_v4) (win0_6.index t (0 : Fin 3)) (win0_6.index t (1 : Fin 3))
    (iblk4_at V c t) (iblk5_at V c t)
  show cat4 (iblk V c 0 t) (iblk V c 1 t) k ((j 1).val + 2) ((j 2).val + 2)
      * (if k = 12 then cat3 (iblk V c 4 t) (iblk V c 5 t) else cat3 (iblk V c 2 t) (iblk V c 3 t))
          ((j 1).val + 4 - k / 5) ((j 2).val + 4 - k % 5) = _
  rw [c4 k _ _ (by omega), show 32 * win0_6.index t (1 : Fin 3) + ((j 1).val + 2) = 32 * win0_6.index t (1 : Fin 3) + (j 1).val + 2 from by omega]
  by_cases h12 : k = 12
  · rw [if_pos h12, if_pos h12, c5 _ _ (by omega),
      show 32 * win0_6.index t (1 : Fin 3) + ((j 1).val + 4 - k / 5) = 32 * win0_6.index t (1 : Fin 3) + (j 1).val + 4 - k / 5 from by omega]
  · rw [if_neg h12, if_neg h12, c3 _ _ (by omega),
      show 32 * win0_6.index t (1 : Fin 3) + ((j 1).val + 4 - k / 5) = 32 * win0_6.index t (1 : Fin 3) + (j 1).val + 4 - k / 5 from by omega]

/-- An index of the output array is in a point's block iff each coordinate is in the block's range on its axis. -/
theorem mem_blk6 (t : Fin cfg0.N) (i : S4x352x1216.Idx) :
    i ∈ ((cfg0.win 6).blk t).view.set ↔ ∀ a : Fin 3, win0_6.index t a * S1x32x1216.size a ≤ (i a).val
      ∧ (i a).val < win0_6.index t a * S1x32x1216.size a + S1x32x1216.size a := by
  show i ∈ ((View.whole main_v5).slice (win0_6.rect t)).set ↔ _
  rw [View.set_slice_whole, Rect.mem_set_unit]
  exact Iff.rfl

/-- Every index (b, Y, x) of the output array lies in the block of the point (b, Y / 32). -/
theorem cover (i : S4x352x1216.Idx) :
    ∃ t : Fin cfg0.N, (cfg0.win 6).flush t = true ∧ i ∈ ((cfg0.win 6).blk t).view.set := by
  have hi0 : (i 0).val < 4 := (i 0).isLt
  have hi1 : (i 1).val < 352 := (i 1).isLt
  have hi2 : (i 2).val < 1216 := (i 2).isLt
  obtain ⟨t, ht⟩ := idx_onto ⟨(i 0).val, hi0⟩ ⟨(i 1).val / 32, by omega⟩
  have q0 : win0_6.index t (0 : Fin 3) = (i 0).val := congrFun ht 0
  have q1 : win0_6.index t (1 : Fin 3) = (i 1).val / 32 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 32 ≤ (i 1).val ∧ (i 1).val < win0_6.index t (1 : Fin 3) * 32 + 32; omega
  | ⟨2, _⟩ => show win0_6.index t (2 : Fin 3) * 1216 ≤ (i 2).val ∧ (i 2).val < win0_6.index t (2 : Fin 3) * 1216 + 1216; omega

theorem arrAt_final (c : Dev nD) :
    (dat (F := Ideal) V c).arrAt 6 cfg0.N = Cert.Spec.Gpad (V c main_v0) (V c main_v3) (V c main_v4) :=
  (dat (F := Ideal) V c).arrAt_eq_of_cover 6 _ (fun t _ => flushed_eq V c t) cover

end Cert.KernelIdeal.Shift

end
-- ==== Proof.KI.Value.lean ====
/-
  The returned array is the stencil of the arguments: the final broadcast reads the region's output array, which is
  the stencil over the three padded arrays the region was entered with; the padded weights agree with the weights
  at every coordinate, and each padded source read at natural coordinates is its source zero-padded by two, so the
  stencil over the padded arrays is, tap by tap, the stencil over the arguments.
-/
import proofs.«154281_j25374666784912_1_alg».proof.Proof.KI.Host
import proofs.«154281_j25374666784912_1_alg».proof.Proof.KI.Final
import proofs.«154281_j25374666784912_1_alg».proof.Proof.Spec

set_option maxRecDepth 16384

noncomputable section

open scoped BigOperators

namespace Cert.KernelIdeal.Shift

open Idealize.ShloMosaic Idealize.ShloMosaic.TcCoe Idealize.ShloMosaic.ValueIdx
open Idealize.SL Idealize.SL.Sem
open Cert.KernelIdeal Cert.KernelIdeal.Gen Cert.Spec

theorem result_is_G (m : (ℓ : Loc nD τ sig) → Buf (Elt Ideal) ℓ) (c : Dev nD) :
    W8 m c (Proc.devRef .tc main_v6)
      = Cert.Spec.G (m ((c : Thread nD τ).loc main_arg0)) (m ((c : Thread nD τ).loc main_arg1)) (m ((c : Thread nD τ).loc main_arg2)) := by
  have key : ∀ i : S4x1x352x1216.Idx,
      @Eq EReal (W8 m c (Proc.devRef .tc main_v6) i)
        (Cert.Spec.G (m ((c : Thread nD τ).loc main_arg0)) (m ((c : Thread nD τ).loc main_arg1)) (m ((c : Thread nD τ).loc main_arg2)) i) := by
    intro i
    rw [W8_v6, W7_v5, arrAt_final (Vin m) c]
    unfold Cert.Spec.Gpad Cert.Spec.G
    refine Finset.sum_congr rfl (fun t _ => ?_)
    show Cert.Spec.at4 (Vin m c main_v0) (i 0) t ((i 2 : Nat) + 2) ((i 3 : Nat) + 2)
        * Cert.Spec.at3 (if t = 12 then Vin m c main_v4 else Vin m c main_v3) (i 0) ((i 2 : Nat) + 4 - t / 5) ((i 3 : Nat) + 4 - t % 5)
      = _
    rw [Vin_v0]
    by_cases ht : t = 12
    · rw [if_pos ht, if_pos ht, Vin_v4]
    · rw [if_neg ht, if_neg ht, Vin_v3]
  exact funext key

end Cert.KernelIdeal.Shift

end
-- ==== Proof.Ref.RefPad.lean ====
/-
  A rank-3 array zero-padded by two rows and two columns on every side, read at an index.
-/
import Idealize.ShloMosaic.Lib.ValueIdx
import Idealize.ShloMosaic.Lib.KernelVsHost
import Idealize.ShloMosaic.Lib.Pipeline.Value
import Idealize.ShloMosaic.PureOps.Ideal.Laws

noncomputable section

namespace Cert.RefSide

open Idealize.ShloMosaic Idealize.ShloMosaic.ValueIdx

/-- A rank-3 array zero-padded by two rows and two columns on every side, read at an index: the array two rows
    and two columns back when that is inside it, the padding value otherwise. -/
theorem pad_read {α : Type} (y : (⟨3, ![4, 352, 1216]⟩ : Shape).Idx → α) (v : (⟨0, ![]⟩ : Shape).Idx → α)
    (h : (⟨3, ![4, 352, 1216]⟩ : Shape).Pads (![0, 2, 2] : Fin 3 → Nat) ![0, 2, 2] ![0, 0, 0] ⟨3, ![4, 356, 1220]⟩)
    (hu : 0 < (⟨0, ![]⟩ : Shape).numel) (j : (⟨3, ![4, 356, 1220]⟩ : Shape).Idx) :
    pad ⟨3, ![4, 356, 1220]⟩ ![0, 2, 2] ![0, 2, 2] ![0, 0, 0] y v h hu j
      = if hin : (2 ≤ (j 1).val ∧ (j 1).val - 2 < 352) ∧ (2 ≤ (j 2).val ∧ (j 2).val - 2 < 1216)
        then y (ix3 (j 0) ⟨(j 1).val - 2, hin.1.2⟩ ⟨(j 2).val - 2, hin.2.2⟩) else v (Shape.Idx.first hu) := by
  by_cases hin : (2 ≤ (j 1).val ∧ (j 1).val - 2 < 352) ∧ (2 ≤ (j 2).val ∧ (j 2).val - 2 < 1216)
  · rw [dif_pos hin]
    refine pad_apply_of_inside _ _ _ y v h hu j _ (fun a => ?_)
    match a with
    | ⟨0, _⟩ => show (j 0).val = 0 + (j 0).val * (0 + 1); omega
    | ⟨1, _⟩ => show (j 1).val = 2 + ((j 1).val - 2) * (0 + 1); omega
    | ⟨2, _⟩ => show (j 2).val = 2 + ((j 2).val - 2) * (0 + 1); omega
  · rw [dif_neg hin]
    by_cases hr : 2 ≤ (j 1).val ∧ (j 1).val - 2 < 352
    · have hc : ¬(2 ≤ (j 2).val ∧ (j 2).val - 2 < 1216) := fun hc => hin ⟨hr, hc⟩
      refine pad_apply_of_not_inside _ _ _ y v h hu j (2 : Fin 3) (fun hh => hc ?_)
      have h1 : 2 ≤ (j 2).val := hh.1
      have h3 : ((j 2).val - 2) / (0 + 1) < 1216 := hh.2.2
      exact ⟨h1, by omega⟩
    · refine pad_apply_of_not_inside _ _ _ y v h hu j (1 : Fin 3) (fun hh => hr ?_)
      have h1 : 2 ≤ (j 1).val := hh.1
      have h3 : ((j 1).val - 2) / (0 + 1) < 352 := hh.2.2
      exact ⟨h1, by omega⟩

end Cert.RefSide

end
-- ==== Proof.Ref.RefStack.lean ====
/-
  The 25 broadcast slices joined along the tap axis (16, then 9, then the two groups), read at an index:
  at tap coordinate k the result is the k-th piece at the same batch, row and column.
-/
import proofs.«154281_j25374666784912_1_alg».proof.Proof.Gen.ReferenceIdeal.Run
import proofs.«154281_j25374666784912_1_alg».proof.Proof.Gen.ReferenceIdeal.Read
import Idealize.ShloMosaic.Lib.ValueIdx
import Idealize.ShloMosaic.Lib.Pipeline.Value

noncomputable section

namespace Cert.RefSide

open Cert.ReferenceIdeal Cert.ReferenceIdeal.Gen Cert.ReferenceIdeal.Read Idealize.ShloMosaic Idealize.ShloMosaic.ValueIdx

variable {F : FTy → Type} [FloatOps F]

/-! ## The first group: taps 0 to 15 -/

theorem v54_tap0 (x1 x2 : (⟨S4x1x352x1216, .f32⟩ : BufTy).Contents (Elt F)) (j : S4x16x352x1216.Idx) (hj : (j 1).val = 0) :
    val_main_v54 (F := F) x1 x2 j = val_main_v29 (F := F) x1 (ix4 (j 0) 0 (j 2) (j 3)) := by
  unfold val_main_v54
  exact concatenate_apply_piece 1 _ _ j 0 (by simp) S4x1x352x1216 (val_main_v29 (F := F) x1) rfl rfl 0 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 0 + 0 = (j 1).val; omega)

theorem v54_tap1 (x1 x2 : (⟨S4x1x352x1216, .f32⟩ : BufTy).Contents (Elt F)) (j : S4x16x352x1216.Idx) (hj : (j 1).val = 1) :
    val_main_v54 (F := F) x1 x2 j = val_main_v30 (F := F) x1 (ix4 (j 0) 0 (j 2) (j 3)) := by
  unfold val_main_v54
  exact concatenate_apply_piece 1 _ _ j 1 (by simp) S4x1x352x1216 (val_main_v30 (F := F) x1) rfl rfl 1 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 1 + 0 = (j 1).val; omega)

theorem v54_tap2 (x1 x2 : (⟨S4x1x352x1216, .f32⟩ : BufTy).Contents (Elt F)) (j : S4x16x352x1216.Idx) (hj : (j 1).val = 2) :
    val_main_v54 (F := F) x1 x2 j = val_main_v31 (F := F) x1 (ix4 (j 0) 0 (j 2) (j 3)) := by
  unfold val_main_v54
  exact concatenate_apply_piece 1 _ _ j 2 (by simp) S4x1x352x1216 (val_main_v31 (F := F) x1) rfl rfl 2 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 2 + 0 = (j 1).val; omega)

theorem v54_tap3 (x1 x2 : (⟨S4x1x352x1216, .f32⟩ : BufTy).Contents (Elt F)) (j : S4x16x352x1216.Idx) (hj : (j 1).val = 3) :
    val_main_v54 (F := F) x1 x2 j = val_main_v32 (F := F) x1 (ix4 (j 0) 0 (j 2) (j 3)) := by
  unfold val_main_v54
  exact concatenate_apply_piece 1 _ _ j 3 (by simp) S4x1x352x1216 (val_main_v32 (F := F) x1) rfl rfl 3 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 3 + 0 = (j 1).val; omega)

theorem v54_tap4 (x1 x2 : (⟨S4x1x352x1216, .f32⟩ : BufTy).Contents (Elt F)) (j : S4x16x352x1216.Idx) (hj : (j 1).val = 4) :
    val_main_v54 (F := F) x1 x2 j = val_main_v33 (F := F) x1 (ix4 (j 0) 0 (j 2) (j 3)) := by
  unfold val_main_v54
  exact concatenate_apply_piece 1 _ _ j 4 (by simp) S4x1x352x1216 (val_main_v33 (F := F) x1) rfl rfl 4 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 4 + 0 = (j 1).val; omega)

theorem v54_tap5 (x1 x2 : (⟨S4x1x352x1216, .f32⟩ : BufTy).Contents (Elt F)) (j : S4x16x352x1216.Idx) (hj : (j 1).val = 5) :
    val_main_v54 (F := F) x1 x2 j = val_main_v34 (F := F) x1 (ix4 (j 0) 0 (j 2) (j 3)) := by
  unfold val_main_v54
  exact concatenate_apply_piece 1 _ _ j 5 (by simp) S4x1x352x1216 (val_main_v34 (F := F) x1) rfl rfl 5 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 5 + 0 = (j 1).val; omega)

theorem v54_tap6 (x1 x2 : (⟨S4x1x352x1216, .f32⟩ : BufTy).Contents (Elt F)) (j : S4x16x352x1216.Idx) (hj : (j 1).val = 6) :
    val_main_v54 (F := F) x1 x2 j = val_main_v35 (F := F) x1 (ix4 (j 0) 0 (j 2) (j 3)) := by
  unfold val_main_v54
  exact concatenate_apply_piece 1 _ _ j 6 (by simp) S4x1x352x1216 (val_main_v35 (F := F) x1) rfl rfl 6 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 6 + 0 = (j 1).val; omega)

theorem v54_tap7 (x1 x2 : (⟨S4x1x352x1216, .f32⟩ : BufTy).Contents (Elt F)) (j : S4x16x352x1216.Idx) (hj : (j 1).val = 7) :
    val_main_v54 (F := F) x1 x2 j = val_main_v36 (F := F) x1 (ix4 (j 0) 0 (j 2) (j 3)) := by
  unfold val_main_v54
  exact concatenate_apply_piece 1 _ _ j 7 (by simp) S4x1x352x1216 (val_main_v36 (F := F) x1) rfl rfl 7 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 7 + 0 = (j 1).val; omega)

theorem v54_tap8 (x1 x2 : (⟨S4x1x352x1216, .f32⟩ : BufTy).Contents (Elt F)) (j : S4x16x352x1216.Idx) (hj : (j 1).val = 8) :
    val_main_v54 (F := F) x1 x2 j = val_main_v37 (F := F) x1 (ix4 (j 0) 0 (j 2) (j 3)) := by
  unfold val_main_v54
  exact concatenate_apply_piece 1 _ _ j 8 (by simp) S4x1x352x1216 (val_main_v37 (F := F) x1) rfl rfl 8 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 8 + 0 = (j 1).val; omega)

theorem v54_tap9 (x1 x2 : (⟨S4x1x352x1216, .f32⟩ : BufTy).Contents (Elt F)) (j : S4x16x352x1216.Idx) (hj : (j 1).val = 9) :
    val_main_v54 (F := F) x1 x2 j = val_main_v38 (F := F) x1 (ix4 (j 0) 0 (j 2) (j 3)) := by
  unfold val_main_v54
  exact concatenate_apply_piece 1 _ _ j 9 (by simp) S4x1x352x1216 (val_main_v38 (F := F) x1) rfl rfl 9 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 9 + 0 = (j 1).val; omega)

theorem v54_tap10 (x1 x2 : (⟨S4x1x352x1216, .f32⟩ : BufTy).Contents (Elt F)) (j : S4x16x352x1216.Idx) (hj : (j 1).val = 10) :
    val_main_v54 (F := F) x1 x2 j = val_main_v39 (F := F) x1 (ix4 (j 0) 0 (j 2) (j 3)) := by
  unfold val_main_v54
  exact concatenate_apply_piece 1 _ _ j 10 (by simp) S4x1x352x1216 (val_main_v39 (F := F) x1) rfl rfl 10 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 10 + 0 = (j 1).val; omega)

theorem v54_tap11 (x1 x2 : (⟨S4x1x352x1216, .f32⟩ : BufTy).Contents (Elt F)) (j : S4x16x352x1216.Idx) (hj : (j 1).val = 11) :
    val_main_v54 (F := F) x1 x2 j = val_main_v40 (F := F) x1 (ix4 (j 0) 0 (j 2) (j 3)) := by
  unfold val_main_v54
  exact concatenate_apply_piece 1 _ _ j 11 (by simp) S4x1x352x1216 (val_main_v40 (F := F) x1) rfl rfl 11 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 11 + 0 = (j 1).val; omega)

theorem v54_tap12 (x1 x2 : (⟨S4x1x352x1216, .f32⟩ : BufTy).Contents (Elt F)) (j : S4x16x352x1216.Idx) (hj : (j 1).val = 12) :
    val_main_v54 (F := F) x1 x2 j = val_main_v41 (F := F) x2 (ix4 (j 0) 0 (j 2) (j 3)) := by
  unfold val_main_v54
  exact concatenate_apply_piece 1 _ _ j 12 (by simp) S4x1x352x1216 (val_main_v41 (F := F) x2) rfl rfl 12 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 12 + 0 = (j 1).val; omega)

theorem v54_tap13 (x1 x2 : (⟨S4x1x352x1216, .f32⟩ : BufTy).Contents (Elt F)) (j : S4x16x352x1216.Idx) (hj : (j 1).val = 13) :
    val_main_v54 (F := F) x1 x2 j = val_main_v42 (F := F) x1 (ix4 (j 0) 0 (j 2) (j 3)) := by
  unfold val_main_v54
  exact concatenate_apply_piece 1 _ _ j 13 (by simp) S4x1x352x1216 (val_main_v42 (F := F) x1) rfl rfl 13 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 13 + 0 = (j 1).val; omega)

theorem v54_tap14 (x1 x2 : (⟨S4x1x352x1216, .f32⟩ : BufTy).Contents (Elt F)) (j : S4x16x352x1216.Idx) (hj : (j 1).val = 14) :
    val_main_v54 (F := F) x1 x2 j = val_main_v43 (F := F) x1 (ix4 (j 0) 0 (j 2) (j 3)) := by
  unfold val_main_v54
  exact concatenate_apply_piece 1 _ _ j 14 (by simp) S4x1x352x1216 (val_main_v43 (F := F) x1) rfl rfl 14 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 14 + 0 = (j 1).val; omega)

theorem v54_tap15 (x1 x2 : (⟨S4x1x352x1216, .f32⟩ : BufTy).Contents (Elt F)) (j : S4x16x352x1216.Idx) (hj : (j 1).val = 15) :
    val_main_v54 (F := F) x1 x2 j = val_main_v44 (F := F) x1 (ix4 (j 0) 0 (j 2) (j 3)) := by
  unfold val_main_v54
  exact concatenate_apply_piece 1 _ _ j 15 (by simp) S4x1x352x1216 (val_main_v44 (F := F) x1) rfl rfl 15 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 15 + 0 = (j 1).val; omega)

/-! ## The second group: taps 16 to 24 -/

theorem v55_tap0 (x1 : (⟨S4x1x352x1216, .f32⟩ : BufTy).Contents (Elt F)) (j : S4x9x352x1216.Idx) (hj : (j 1).val = 0) :
    val_main_v55 (F := F) x1 j = val_main_v45 (F := F) x1 (ix4 (j 0) 0 (j 2) (j 3)) := by
  unfold val_main_v55
  exact concatenate_apply_piece 1 _ _ j 0 (by simp) S4x1x352x1216 (val_main_v45 (F := F) x1) rfl rfl 0 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 0 + 0 = (j 1).val; omega)

theorem v55_tap1 (x1 : (⟨S4x1x352x1216, .f32⟩ : BufTy).Contents (Elt F)) (j : S4x9x352x1216.Idx) (hj : (j 1).val = 1) :
    val_main_v55 (F := F) x1 j = val_main_v46 (F := F) x1 (ix4 (j 0) 0 (j 2) (j 3)) := by
  unfold val_main_v55
  exact concatenate_apply_piece 1 _ _ j 1 (by simp) S4x1x352x1216 (val_main_v46 (F := F) x1) rfl rfl 1 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 1 + 0 = (j 1).val; omega)

theorem v55_tap2 (x1 : (⟨S4x1x352x1216, .f32⟩ : BufTy).Contents (Elt F)) (j : S4x9x352x1216.Idx) (hj : (j 1).val = 2) :
    val_main_v55 (F := F) x1 j = val_main_v47 (F := F) x1 (ix4 (j 0) 0 (j 2) (j 3)) := by
  unfold val_main_v55
  exact concatenate_apply_piece 1 _ _ j 2 (by simp) S4x1x352x1216 (val_main_v47 (F := F) x1) rfl rfl 2 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 2 + 0 = (j 1).val; omega)

theorem v55_tap3 (x1 : (⟨S4x1x352x1216, .f32⟩ : BufTy).Contents (Elt F)) (j : S4x9x352x1216.Idx) (hj : (j 1).val = 3) :
    val_main_v55 (F := F) x1 j = val_main_v48 (F := F) x1 (ix4 (j 0) 0 (j 2) (j 3)) := by
  unfold val_main_v55
  exact concatenate_apply_piece 1 _ _ j 3 (by simp) S4x1x352x1216 (val_main_v48 (F := F) x1) rfl rfl 3 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 3 + 0 = (j 1).val; omega)

theorem v55_tap4 (x1 : (⟨S4x1x352x1216, .f32⟩ : BufTy).Contents (Elt F)) (j : S4x9x352x1216.Idx) (hj : (j 1).val = 4) :
    val_main_v55 (F := F) x1 j = val_main_v49 (F := F) x1 (ix4 (j 0) 0 (j 2) (j 3)) := by
  unfold val_main_v55
  exact concatenate_apply_piece 1 _ _ j 4 (by simp) S4x1x352x1216 (val_main_v49 (F := F) x1) rfl rfl 4 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 4 + 0 = (j 1).val; omega)

theorem v55_tap5 (x1 : (⟨S4x1x352x1216, .f32⟩ : BufTy).Contents (Elt F)) (j : S4x9x352x1216.Idx) (hj : (j 1).val = 5) :
    val_main_v55 (F := F) x1 j = val_main_v50 (F := F) x1 (ix4 (j 0) 0 (j 2) (j 3)) := by
  unfold val_main_v55
  exact concatenate_apply_piece 1 _ _ j 5 (by simp) S4x1x352x1216 (val_main_v50 (F := F) x1) rfl rfl 5 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 5 + 0 = (j 1).val; omega)

theorem v55_tap6 (x1 : (⟨S4x1x352x1216, .f32⟩ : BufTy).Contents (Elt F)) (j : S4x9x352x1216.Idx) (hj : (j 1).val = 6) :
    val_main_v55 (F := F) x1 j = val_main_v51 (F := F) x1 (ix4 (j 0) 0 (j 2) (j 3)) := by
  unfold val_main_v55
  exact concatenate_apply_piece 1 _ _ j 6 (by simp) S4x1x352x1216 (val_main_v51 (F := F) x1) rfl rfl 6 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 6 + 0 = (j 1).val; omega)

theorem v55_tap7 (x1 : (⟨S4x1x352x1216, .f32⟩ : BufTy).Contents (Elt F)) (j : S4x9x352x1216.Idx) (hj : (j 1).val = 7) :
    val_main_v55 (F := F) x1 j = val_main_v52 (F := F) x1 (ix4 (j 0) 0 (j 2) (j 3)) := by
  unfold val_main_v55
  exact concatenate_apply_piece 1 _ _ j 7 (by simp) S4x1x352x1216 (val_main_v52 (F := F) x1) rfl rfl 7 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 7 + 0 = (j 1).val; omega)

theorem v55_tap8 (x1 : (⟨S4x1x352x1216, .f32⟩ : BufTy).Contents (Elt F)) (j : S4x9x352x1216.Idx) (hj : (j 1).val = 8) :
    val_main_v55 (F := F) x1 j = val_main_v53 (F := F) x1 (ix4 (j 0) 0 (j 2) (j 3)) := by
  unfold val_main_v55
  exact concatenate_apply_piece 1 _ _ j 8 (by simp) S4x1x352x1216 (val_main_v53 (F := F) x1) rfl rfl 8 (by simp)
    (ix4 (j 0) 0 (j 2) (j 3)) (fun b hb => by
      match b with
      | ⟨0, _⟩ => rfl
      | ⟨1, _⟩ => exact absurd rfl hb
      | ⟨2, _⟩ => rfl
      | ⟨3, _⟩ => rfl)
    (by show 8 + 0 = (j 1).val; omega)

/-! ## The two groups joined -/

theorem v56_left (x1 x2 : (⟨S4x1x352x1216, .f32⟩ : BufTy).Contents (Elt F)) (j : S4x25x352x1216.Idx) (hj : (j 1).val < 16) :
    val_main_v56 (F := F) x1 x2 j = val_main_v54 (F := F) x1 x2 (ix4 (j 0) ⟨(j 1).val, hj⟩ (j 2) (j 3)) := by
  unfold val_main_v56
  exact concatenate_pair_apply_left 1 (val_main_v54 (F := F) x1 x2) (val_main_v55 (F := F) x1) _ j rfl _ (fun b => by
      match b with
      | ⟨0, _⟩ => rfl
      | ⟨1, _⟩ => rfl
      | ⟨2, _⟩ => rfl
      | ⟨3, _⟩ => rfl)

theorem v56_right (x1 x2 : (⟨S4x1x352x1216, .f32⟩ : BufTy).Contents (Elt F)) (j : S4x25x352x1216.Idx) (hj : 16 ≤ (j 1).val) :
    val_main_v56 (F := F) x1 x2 j = val_main_v55 (F := F) x1
      (ix4 (j 0) ⟨(j 1).val - 16, by have h25 : (j 1).val < 25 := (j 1).isLt; omega⟩ (j 2) (j 3)) := by
  unfold val_main_v56
  exact concatenate_pair_apply_right 1 (val_main_v54 (F := F) x1 x2) (val_main_v55 (F := F) x1) _ j rfl rfl _ (fun b hb => by
      match b with
      | ⟨0, _⟩ => rfl
      | ⟨1, _⟩ => exact absurd rfl hb
      | ⟨2, _⟩ => rfl
      | ⟨3, _⟩ => rfl)
    (by show (j 1).val - 16 + 16 = (j 1).val; omega)

/-! ## Tap k of the joined array is the k-th piece -/

theorem stack_tap0 (x1 x2 : (⟨S4x1x352x1216, .f32⟩ : BufTy).Contents (Elt F)) (j : S4x25x352x1216.Idx) (hj : (j 1).val = 0) :
    val_main_v56 (F := F) x1 x2 j = val_main_v29 (F := F) x1 (ix4 (j 0) 0 (j 2) (j 3)) :=
  (v56_left x1 x2 j (by omega)).trans (v54_tap0 x1 x2 _ hj)

theorem stack_tap1 (x1 x2 : (⟨S4x1x352x1216, .f32⟩ : BufTy).Contents (Elt F)) (j : S4x25x352x1216.Idx) (hj : (j 1).val = 1) :
    val_main_v56 (F := F) x1 x2 j = val_main_v30 (F := F) x1 (ix4 (j 0) 0 (j 2) (j 3)) :=
  (v56_left x1 x2 j (by omega)).trans (v54_tap1 x1 x2 _ hj)

theorem stack_tap2 (x1 x2 : (⟨S4x1x352x1216, .f32⟩ : BufTy).Contents (Elt F)) (j : S4x25x352x1216.Idx) (hj : (j 1).val = 2) :
    val_main_v56 (F := F) x1 x2 j = val_main_v31 (F := F) x1 (ix4 (j 0) 0 (j 2) (j 3)) :=
  (v56_left x1 x2 j (by omega)).trans (v54_tap2 x1 x2 _ hj)

theorem stack_tap3 (x1 x2 : (⟨S4x1x352x1216, .f32⟩ : BufTy).Contents (Elt F)) (j : S4x25x352x1216.Idx) (hj : (j 1).val = 3) :
    val_main_v56 (F := F) x1 x2 j = val_main_v32 (F := F) x1 (ix4 (j 0) 0 (j 2) (j 3)) :=
  (v56_left x1 x2 j (by omega)).trans (v54_tap3 x1 x2 _ hj)

theorem stack_tap4 (x1 x2 : (⟨S4x1x352x1216, .f32⟩ : BufTy).Contents (Elt F)) (j : S4x25x352x1216.Idx) (hj : (j 1).val = 4) :
    val_main_v56 (F := F) x1 x2 j = val_main_v33 (F := F) x1 (ix4 (j 0) 0 (j 2) (j 3)) :=
  (v56_left x1 x2 j (by omega)).trans (v54_tap4 x1 x2 _ hj)

theorem stack_tap5 (x1 x2 : (⟨S4x1x352x1216, .f32⟩ : BufTy).Contents (Elt F)) (j : S4x25x352x1216.Idx) (hj : (j 1).val = 5) :
    val_main_v56 (F := F) x1 x2 j = val_main_v34 (F := F) x1 (ix4 (j 0) 0 (j 2) (j 3)) :=
  (v56_left x1 x2 j (by omega)).trans (v54_tap5 x1 x2 _ hj)

theorem stack_tap6 (x1 x2 : (⟨S4x1x352x1216, .f32⟩ : BufTy).Contents (Elt F)) (j : S4x25x352x1216.Idx) (hj : (j 1).val = 6) :
    val_main_v56 (F := F) x1 x2 j = val_main_v35 (F := F) x1 (ix4 (j 0) 0 (j 2) (j 3)) :=
  (v56_left x1 x2 j (by omega)).trans (v54_tap6 x1 x2 _ hj)

theorem stack_tap7 (x1 x2 : (⟨S4x1x352x1216, .f32⟩ : BufTy).Contents (Elt F)) (j : S4x25x352x1216.Idx) (hj : (j 1).val = 7) :
    val_main_v56 (F := F) x1 x2 j = val_main_v36 (F := F) x1 (ix4 (j 0) 0 (j 2) (j 3)) :=
  (v56_left x1 x2 j (by omega)).trans (v54_tap7 x1 x2 _ hj)

theorem stack_tap8 (x1 x2 : (⟨S4x1x352x1216, .f32⟩ : BufTy).Contents (Elt F)) (j : S4x25x352x1216.Idx) (hj : (j 1).val = 8) :
    val_main_v56 (F := F) x1 x2 j = val_main_v37 (F := F) x1 (ix4 (j 0) 0 (j 2) (j 3)) :=
  (v56_left x1 x2 j (by omega)).trans (v54_tap8 x1 x2 _ hj)

theorem stack_tap9 (x1 x2 : (⟨S4x1x352x1216, .f32⟩ : BufTy).Contents (Elt F)) (j : S4x25x352x1216.Idx) (hj : (j 1).val = 9) :
    val_main_v56 (F := F) x1 x2 j = val_main_v38 (F := F) x1 (ix4 (j 0) 0 (j 2) (j 3)) :=
  (v56_left x1 x2 j (by omega)).trans (v54_tap9 x1 x2 _ hj)

theorem stack_tap10 (x1 x2 : (⟨S4x1x352x1216, .f32⟩ : BufTy).Contents (Elt F)) (j : S4x25x352x1216.Idx) (hj : (j 1).val = 10) :
    val_main_v56 (F := F) x1 x2 j = val_main_v39 (F := F) x1 (ix4 (j 0) 0 (j 2) (j 3)) :=
  (v56_left x1 x2 j (by omega)).trans (v54_tap10 x1 x2 _ hj)

theorem stack_tap11 (x1 x2 : (⟨S4x1x352x1216, .f32⟩ : BufTy).Contents (Elt F)) (j : S4x25x352x1216.Idx) (hj : (j 1).val = 11) :
    val_main_v56 (F := F) x1 x2 j = val_main_v40 (F := F) x1 (ix4 (j 0) 0 (j 2) (j 3)) :=
  (v56_left x1 x2 j (by omega)).trans (v54_tap11 x1 x2 _ hj)

theorem stack_tap12 (x1 x2 : (⟨S4x1x352x1216, .f32⟩ : BufTy).Contents (Elt F)) (j : S4x25x352x1216.Idx) (hj : (j 1).val = 12) :
    val_main_v56 (F := F) x1 x2 j = val_main_v41 (F := F) x2 (ix4 (j 0) 0 (j 2) (j 3)) :=
  (v56_left x1 x2 j (by omega)).trans (v54_tap12 x1 x2 _ hj)

theorem stack_tap13 (x1 x2 : (⟨S4x1x352x1216, .f32⟩ : BufTy).Contents (Elt F)) (j : S4x25x352x1216.Idx) (hj : (j 1).val = 13) :
    val_main_v56 (F := F) x1 x2 j = val_main_v42 (F := F) x1 (ix4 (j 0) 0 (j 2) (j 3)) :=
  (v56_left x1 x2 j (by omega)).trans (v54_tap13 x1 x2 _ hj)

theorem stack_tap14 (x1 x2 : (⟨S4x1x352x1216, .f32⟩ : BufTy).Contents (Elt F)) (j : S4x25x352x1216.Idx) (hj : (j 1).val = 14) :
    val_main_v56 (F := F) x1 x2 j = val_main_v43 (F := F) x1 (ix4 (j 0) 0 (j 2) (j 3)) :=
  (v56_left x1 x2 j (by omega)).trans (v54_tap14 x1 x2 _ hj)

theorem stack_tap15 (x1 x2 : (⟨S4x1x352x1216, .f32⟩ : BufTy).Contents (Elt F)) (j : S4x25x352x1216.Idx) (hj : (j 1).val = 15) :
    val_main_v56 (F := F) x1 x2 j = val_main_v44 (F := F) x1 (ix4 (j 0) 0 (j 2) (j 3)) :=
  (v56_left x1 x2 j (by omega)).trans (v54_tap15 x1 x2 _ hj)

theorem stack_tap16 (x1 x2 : (⟨S4x1x352x1216, .f32⟩ : BufTy).Contents (Elt F)) (j : S4x25x352x1216.Idx) (hj : (j 1).val = 16) :
    val_main_v56 (F := F) x1 x2 j = val_main_v45 (F := F) x1 (ix4 (j 0) 0 (j 2) (j 3)) :=
  (v56_right x1 x2 j (by omega)).trans (v55_tap0 x1 _ (by show (j 1).val - 16 = 0; omega))

theorem stack_tap17 (x1 x2 : (⟨S4x1x352x1216, .f32⟩ : BufTy).Contents (Elt F)) (j : S4x25x352x1216.Idx) (hj : (j 1).val = 17) :
    val_main_v56 (F := F) x1 x2 j = val_main_v46 (F := F) x1 (ix4 (j 0) 0 (j 2) (j 3)) :=
  (v56_right x1 x2 j (by omega)).trans (v55_tap1 x1 _ (by show (j 1).val - 16 = 1; omega))

theorem stack_tap18 (x1 x2 : (⟨S4x1x352x1216, .f32⟩ : BufTy).Contents (Elt F)) (j : S4x25x352x1216.Idx) (hj : (j 1).val = 18) :
    val_main_v56 (F := F) x1 x2 j = val_main_v47 (F := F) x1 (ix4 (j 0) 0 (j 2) (j 3)) :=
  (v56_right x1 x2 j (by omega)).trans (v55_tap2 x1 _ (by show (j 1).val - 16 = 2; omega))

theorem stack_tap19 (x1 x2 : (⟨S4x1x352x1216, .f32⟩ : BufTy).Contents (Elt F)) (j : S4x25x352x1216.Idx) (hj : (j 1).val = 19) :
    val_main_v56 (F := F) x1 x2 j = val_main_v48 (F := F) x1 (ix4 (j 0) 0 (j 2) (j 3)) :=
  (v56_right x1 x2 j (by omega)).trans (v55_tap3 x1 _ (by show (j 1).val - 16 = 3; omega))

theorem stack_tap20 (x1 x2 : (⟨S4x1x352x1216, .f32⟩ : BufTy).Contents (Elt F)) (j : S4x25x352x1216.Idx) (hj : (j 1).val = 20) :
    val_main_v56 (F := F) x1 x2 j = val_main_v49 (F := F) x1 (ix4 (j 0) 0 (j 2) (j 3)) :=
  (v56_right x1 x2 j (by omega)).trans (v55_tap4 x1 _ (by show (j 1).val - 16 = 4; omega))

theorem stack_tap21 (x1 x2 : (⟨S4x1x352x1216, .f32⟩ : BufTy).Contents (Elt F)) (j : S4x25x352x1216.Idx) (hj : (j 1).val = 21) :
    val_main_v56 (F := F) x1 x2 j = val_main_v50 (F := F) x1 (ix4 (j 0) 0 (j 2) (j 3)) :=
  (v56_right x1 x2 j (by omega)).trans (v55_tap5 x1 _ (by show (j 1).val - 16 = 5; omega))

theorem stack_tap22 (x1 x2 : (⟨S4x1x352x1216, .f32⟩ : BufTy).Contents (Elt F)) (j : S4x25x352x1216.Idx) (hj : (j 1).val = 22) :
    val_main_v56 (F := F) x1 x2 j = val_main_v51 (F := F) x1 (ix4 (j 0) 0 (j 2) (j 3)) :=
  (v56_right x1 x2 j (by omega)).trans (v55_tap6 x1 _ (by show (j 1).val - 16 = 6; omega))

theorem stack_tap23 (x1 x2 : (⟨S4x1x352x1216, .f32⟩ : BufTy).Contents (Elt F)) (j : S4x25x352x1216.Idx) (hj : (j 1).val = 23) :
    val_main_v56 (F := F) x1 x2 j = val_main_v52 (F := F) x1 (ix4 (j 0) 0 (j 2) (j 3)) :=
  (v56_right x1 x2 j (by omega)).trans (v55_tap7 x1 _ (by show (j 1).val - 16 = 7; omega))

theorem stack_tap24 (x1 x2 : (⟨S4x1x352x1216, .f32⟩ : BufTy).Contents (Elt F)) (j : S4x25x352x1216.Idx) (hj : (j 1).val = 24) :
    val_main_v56 (F := F) x1 x2 j = val_main_v53 (F := F) x1 (ix4 (j 0) 0 (j 2) (j 3)) :=
  (v56_right x1 x2 j (by omega)).trans (v55_tap8 x1 _ (by show (j 1).val - 16 = 8; omega))

end Cert.RefSide

end
-- ==== Proof.Ref.RefValue.lean ====
/-
  The reference's result, read index by index, is the stencil `Cert.Spec.G` of the arguments.
-/
import proofs.«154281_j25374666784912_1_alg».proof.Proof.Gen.ReferenceIdeal.Run
import proofs.«154281_j25374666784912_1_alg».proof.Proof.Gen.ReferenceIdeal.Read
import proofs.«154281_j25374666784912_1_alg».proof.Proof.Spec
import proofs.«154281_j25374666784912_1_alg».proof.Proof.Ref.RefPad
import proofs.«154281_j25374666784912_1_alg».proof.Proof.Ref.RefStack
import Idealize.ShloMosaic.Lib.ValueIdx
import Idealize.ShloMosaic.Lib.Pipeline.Value
import Idealize.ShloMosaic.PureOps.Ideal.Laws
import Mathlib.Algebra.BigOperators.Fin

noncomputable section

open scoped BigOperators

namespace Cert.RefSide

open Cert.ReferenceIdeal Cert.ReferenceIdeal.Gen Cert.ReferenceIdeal.Read Idealize.ShloMosaic Idealize.ShloMosaic.ValueIdx Cert.Spec

/-! ## The padded sources -/

/-- The padding value, the integer 0 converted, is the extended real 0. -/
theorem fill_zero : val_main_call0_v0 (F := Ideal) (Shape.Idx.first h_S_) = 0 := by
  rw [val_main_call0_v0_apply, val_main_c_apply]
  show (((0#32 : BitVec 32).toInt : ℝ) : EReal) = 0
  simp

/-- The padded first source at an index is the source read two rows and two columns back, 0 in the border. -/
theorem padded_read (x : (⟨S4x1x352x1216, .f32⟩ : BufTy).Contents (Elt Ideal)) (j : S4x356x1220.Idx) :
    val_main_v1 (F := Ideal) x j = padAt (n0 := 4) (n2 := 352) (n3 := 1216) x (j 0).val (j 1).val (j 2).val := by
  have h0 : (j 0).val < 4 := (j 0).isLt
  unfold val_main_v1
  refine (pad_read (α := EReal) _ _ _ _ j).trans ?_
  unfold padAt at4
  by_cases hin : (2 ≤ (j 1).val ∧ (j 1).val - 2 < 352) ∧ (2 ≤ (j 2).val ∧ (j 2).val - 2 < 1216)
  · rw [dif_pos hin, if_pos ⟨hin.1.1, hin.2.1⟩, dif_pos ⟨h0, Nat.one_pos, hin.1.2, hin.2.2⟩, val_main_v0_apply]
    refine congrArg x (funext fun a => Fin.ext ?_)
    match a with
    | ⟨0, _⟩ =>
      show (((j 0).val * 352 + ((j 1).val - 2)) * 1216 + ((j 2).val - 2)) / 428032 = (j 0).val
      omega
    | ⟨1, _⟩ => rfl
    | ⟨2, _⟩ =>
      show (((j 0).val * 352 + ((j 1).val - 2)) * 1216 + ((j 2).val - 2)) / 1216 % 352 = (j 1).val - 2
      omega
    | ⟨3, _⟩ =>
      show (((j 0).val * 352 + ((j 1).val - 2)) * 1216 + ((j 2).val - 2)) % 1216 = (j 2).val - 2
      omega
  · rw [dif_neg hin, fill_zero]
    by_cases h2 : 2 ≤ (j 1).val ∧ 2 ≤ (j 2).val
    · rw [if_pos h2, dif_neg (fun h => hin ⟨⟨h2.1, h.2.2.1⟩, ⟨h2.2, h.2.2.2⟩⟩)]
    · rw [if_neg h2]

/-- The padded second source likewise (the same operations on the other argument). -/
theorem padded_read' (x : (⟨S4x1x352x1216, .f32⟩ : BufTy).Contents (Elt Ideal)) (j : S4x356x1220.Idx) :
    val_main_v3 (F := Ideal) x j = padAt (n0 := 4) (n2 := 352) (n3 := 1216) x (j 0).val (j 1).val (j 2).val :=
  padded_read x j

/-! ## Each tap of the joined array is a padded source, shifted -/

theorem tap_read0 (x1 x2 : (⟨S4x1x352x1216, .f32⟩ : BufTy).Contents (Elt Ideal)) (j : S4x25x352x1216.Idx) (hj : (j 1).val = 0) :
    val_main_v56 (F := Ideal) x1 x2 j = padAt (n0 := 4) (n2 := 352) (n3 := 1216) x1 (j 0).val (4 + (j 2).val) (4 + (j 3).val) := by
  rw [stack_tap0 x1 x2 j hj, val_main_v29_apply, val_main_v4_apply, padded_read]

theorem tap_read1 (x1 x2 : (⟨S4x1x352x1216, .f32⟩ : BufTy).Contents (Elt Ideal)) (j : S4x25x352x1216.Idx) (hj : (j 1).val = 1) :
    val_main_v56 (F := Ideal) x1 x2 j = padAt (n0 := 4) (n2 := 352) (n3 := 1216) x1 (j 0).val (4 + (j 2).val) (3 + (j 3).val) := by
  rw [stack_tap1 x1 x2 j hj, val_main_v30_apply, val_main_v5_apply, padded_read]

theorem tap_read2 (x1 x2 : (⟨S4x1x352x1216, .f32⟩ : BufTy).Contents (Elt Ideal)) (j : S4x25x352x1216.Idx) (hj : (j 1).val = 2) :
    val_main_v56 (F := Ideal) x1 x2 j = padAt (n0 := 4) (n2 := 352) (n3 := 1216) x1 (j 0).val (4 + (j 2).val) (2 + (j 3).val) := by
  rw [stack_tap2 x1 x2 j hj, val_main_v31_apply, val_main_v6_apply, padded_read]

theorem tap_read3 (x1 x2 : (⟨S4x1x352x1216, .f32⟩ : BufTy).Contents (Elt Ideal)) (j : S4x25x352x1216.Idx) (hj : (j 1).val = 3) :
    val_main_v56 (F := Ideal) x1 x2 j = padAt (n0 := 4) (n2 := 352) (n3 := 1216) x1 (j 0).val (4 + (j 2).val) (1 + (j 3).val) := by
  rw [stack_tap3 x1 x2 j hj, val_main_v32_apply, val_main_v7_apply, padded_read]

theorem tap_read4 (x1 x2 : (⟨S4x1x352x1216, .f32⟩ : BufTy).Contents (Elt Ideal)) (j : S4x25x352x1216.Idx) (hj : (j 1).val = 4) :
    val_main_v56 (F := Ideal) x1 x2 j = padAt (n0 := 4) (n2 := 352) (n3 := 1216) x1 (j 0).val (4 + (j 2).val) (j 3).val := by
  rw [stack_tap4 x1 x2 j hj, val_main_v33_apply, val_main_v8_apply, padded_read]

theorem tap_read5 (x1 x2 : (⟨S4x1x352x1216, .f32⟩ : BufTy).Contents (Elt Ideal)) (j : S4x25x352x1216.Idx) (hj : (j 1).val = 5) :
    val_main_v56 (F := Ideal) x1 x2 j = padAt (n0 := 4) (n2 := 352) (n3 := 1216) x1 (j 0).val (3 + (j 2).val) (4 + (j 3).val) := by
  rw [stack_tap5 x1 x2 j hj, val_main_v34_apply, val_main_v9_apply, padded_read]

theorem tap_read6 (x1 x2 : (⟨S4x1x352x1216, .f32⟩ : BufTy).Contents (Elt Ideal)) (j : S4x25x352x1216.Idx) (hj : (j 1).val = 6) :
    val_main_v56 (F := Ideal) x1 x2 j = padAt (n0 := 4) (n2 := 352) (n3 := 1216) x1 (j 0).val (3 + (j 2).val) (3 + (j 3).val) := by
  rw [stack_tap6 x1 x2 j hj, val_main_v35_apply, val_main_v10_apply, padded_read]

theorem tap_read7 (x1 x2 : (⟨S4x1x352x1216, .f32⟩ : BufTy).Contents (Elt Ideal)) (j : S4x25x352x1216.Idx) (hj : (j 1).val = 7) :
    val_main_v56 (F := Ideal) x1 x2 j = padAt (n0 := 4) (n2 := 352) (n3 := 1216) x1 (j 0).val (3 + (j 2).val) (2 + (j 3).val) := by
  rw [stack_tap7 x1 x2 j hj, val_main_v36_apply, val_main_v11_apply, padded_read]

theorem tap_read8 (x1 x2 : (⟨S4x1x352x1216, .f32⟩ : BufTy).Contents (Elt Ideal)) (j : S4x25x352x1216.Idx) (hj : (j 1).val = 8) :
    val_main_v56 (F := Ideal) x1 x2 j = padAt (n0 := 4) (n2 := 352) (n3 := 1216) x1 (j 0).val (3 + (j 2).val) (1 + (j 3).val) := by
  rw [stack_tap8 x1 x2 j hj, val_main_v37_apply, val_main_v12_apply, padded_read]

theorem tap_read9 (x1 x2 : (⟨S4x1x352x1216, .f32⟩ : BufTy).Contents (Elt Ideal)) (j : S4x25x352x1216.Idx) (hj : (j 1).val = 9) :
    val_main_v56 (F := Ideal) x1 x2 j = padAt (n0 := 4) (n2 := 352) (n3 := 1216) x1 (j 0).val (3 + (j 2).val) (j 3).val := by
  rw [stack_tap9 x1 x2 j hj, val_main_v38_apply, val_main_v13_apply, padded_read]

theorem tap_read10 (x1 x2 : (⟨S4x1x352x1216, .f32⟩ : BufTy).Contents (Elt Ideal)) (j : S4x25x352x1216.Idx) (hj : (j 1).val = 10) :
    val_main_v56 (F := Ideal) x1 x2 j = padAt (n0 := 4) (n2 := 352) (n3 := 1216) x1 (j 0).val (2 + (j 2).val) (4 + (j 3).val) := by
  rw [stack_tap10 x1 x2 j hj, val_main_v39_apply, val_main_v14_apply, padded_read]

theorem tap_read11 (x1 x2 : (⟨S4x1x352x1216, .f32⟩ : BufTy).Contents (Elt Ideal)) (j : S4x25x352x1216.Idx) (hj : (j 1).val = 11) :
    val_main_v56 (F := Ideal) x1 x2 j = padAt (n0 := 4) (n2 := 352) (n3 := 1216) x1 (j 0).val (2 + (j 2).val) (3 + (j 3).val) := by
  rw [stack_tap11 x1 x2 j hj, val_main_v40_apply, val_main_v15_apply, padded_read]

theorem tap_read12 (x1 x2 : (⟨S4x1x352x1216, .f32⟩ : BufTy).Contents (Elt Ideal)) (j : S4x25x352x1216.Idx) (hj : (j 1).val = 12) :
    val_main_v56 (F := Ideal) x1 x2 j = padAt (n0 := 4) (n2 := 352) (n3 := 1216) x2 (j 0).val (2 + (j 2).val) (2 + (j 3).val) := by
  rw [stack_tap12 x1 x2 j hj, val_main_v41_apply, val_main_v16_apply, padded_read']

theorem tap_read13 (x1 x2 : (⟨S4x1x352x1216, .f32⟩ : BufTy).Contents (Elt Ideal)) (j : S4x25x352x1216.Idx) (hj : (j 1).val = 13) :
    val_main_v56 (F := Ideal) x1 x2 j = padAt (n0 := 4) (n2 := 352) (n3 := 1216) x1 (j 0).val (2 + (j 2).val) (1 + (j 3).val) := by
  rw [stack_tap13 x1 x2 j hj, val_main_v42_apply, val_main_v17_apply, padded_read]

theorem tap_read14 (x1 x2 : (⟨S4x1x352x1216, .f32⟩ : BufTy).Contents (Elt Ideal)) (j : S4x25x352x1216.Idx) (hj : (j 1).val = 14) :
    val_main_v56 (F := Ideal) x1 x2 j = padAt (n0 := 4) (n2 := 352) (n3 := 1216) x1 (j 0).val (2 + (j 2).val) (j 3).val := by
  rw [stack_tap14 x1 x2 j hj, val_main_v43_apply, val_main_v18_apply, padded_read]

theorem tap_read15 (x1 x2 : (⟨S4x1x352x1216, .f32⟩ : BufTy).Contents (Elt Ideal)) (j : S4x25x352x1216.Idx) (hj : (j 1).val = 15) :
    val_main_v56 (F := Ideal) x1 x2 j = padAt (n0 := 4) (n2 := 352) (n3 := 1216) x1 (j 0).val (1 + (j 2).val) (4 + (j 3).val) := by
  rw [stack_tap15 x1 x2 j hj, val_main_v44_apply, val_main_v19_apply, padded_read]

theorem tap_read16 (x1 x2 : (⟨S4x1x352x1216, .f32⟩ : BufTy).Contents (Elt Ideal)) (j : S4x25x352x1216.Idx) (hj : (j 1).val = 16) :
    val_main_v56 (F := Ideal) x1 x2 j = padAt (n0 := 4) (n2 := 352) (n3 := 1216) x1 (j 0).val (1 + (j 2).val) (3 + (j 3).val) := by
  rw [stack_tap16 x1 x2 j hj, val_main_v45_apply, val_main_v20_apply, padded_read]

theorem tap_read17 (x1 x2 : (⟨S4x1x352x1216, .f32⟩ : BufTy).Contents (Elt Ideal)) (j : S4x25x352x1216.Idx) (hj : (j 1).val = 17) :
    val_main_v56 (F := Ideal) x1 x2 j = padAt (n0 := 4) (n2 := 352) (n3 := 1216) x1 (j 0).val (1 + (j 2).val) (2 + (j 3).val) := by
  rw [stack_tap17 x1 x2 j hj, val_main_v46_apply, val_main_v21_apply, padded_read]

theorem tap_read18 (x1 x2 : (⟨S4x1x352x1216, .f32⟩ : BufTy).Contents (Elt Ideal)) (j : S4x25x352x1216.Idx) (hj : (j 1).val = 18) :
    val_main_v56 (F := Ideal) x1 x2 j = padAt (n0 := 4) (n2 := 352) (n3 := 1216) x1 (j 0).val (1 + (j 2).val) (1 + (j 3).val) := by
  rw [stack_tap18 x1 x2 j hj, val_main_v47_apply, val_main_v22_apply, padded_read]

theorem tap_read19 (x1 x2 : (⟨S4x1x352x1216, .f32⟩ : BufTy).Contents (Elt Ideal)) (j : S4x25x352x1216.Idx) (hj : (j 1).val = 19) :
    val_main_v56 (F := Ideal) x1 x2 j = padAt (n0 := 4) (n2 := 352) (n3 := 1216) x1 (j 0).val (1 + (j 2).val) (j 3).val := by
  rw [stack_tap19 x1 x2 j hj, val_main_v48_apply, val_main_v23_apply, padded_read]

theorem tap_read20 (x1 x2 : (⟨S4x1x352x1216, .f32⟩ : BufTy).Contents (Elt Ideal)) (j : S4x25x352x1216.Idx) (hj : (j 1).val = 20) :
    val_main_v56 (F := Ideal) x1 x2 j = padAt (n0 := 4) (n2 := 352) (n3 := 1216) x1 (j 0).val (j 2).val (4 + (j 3).val) := by
  rw [stack_tap20 x1 x2 j hj, val_main_v49_apply, val_main_v24_apply, padded_read]

theorem tap_read21 (x1 x2 : (⟨S4x1x352x1216, .f32⟩ : BufTy).Contents (Elt Ideal)) (j : S4x25x352x1216.Idx) (hj : (j 1).val = 21) :
    val_main_v56 (F := Ideal) x1 x2 j = padAt (n0 := 4) (n2 := 352) (n3 := 1216) x1 (j 0).val (j 2).val (3 + (j 3).val) := by
  rw [stack_tap21 x1 x2 j hj, val_main_v50_apply, val_main_v25_apply, padded_read]

theorem tap_read22 (x1 x2 : (⟨S4x1x352x1216, .f32⟩ : BufTy).Contents (Elt Ideal)) (j : S4x25x352x1216.Idx) (hj : (j 1).val = 22) :
    val_main_v56 (F := Ideal) x1 x2 j = padAt (n0 := 4) (n2 := 352) (n3 := 1216) x1 (j 0).val (j 2).val (2 + (j 3).val) := by
  rw [stack_tap22 x1 x2 j hj, val_main_v51_apply, val_main_v26_apply, padded_read]

theorem tap_read23 (x1 x2 : (⟨S4x1x352x1216, .f32⟩ : BufTy).Contents (Elt Ideal)) (j : S4x25x352x1216.Idx) (hj : (j 1).val = 23) :
    val_main_v56 (F := Ideal) x1 x2 j = padAt (n0 := 4) (n2 := 352) (n3 := 1216) x1 (j 0).val (j 2).val (1 + (j 3).val) := by
  rw [stack_tap23 x1 x2 j hj, val_main_v52_apply, val_main_v27_apply, padded_read]

theorem tap_read24 (x1 x2 : (⟨S4x1x352x1216, .f32⟩ : BufTy).Contents (Elt Ideal)) (j : S4x25x352x1216.Idx) (hj : (j 1).val = 24) :
    val_main_v56 (F := Ideal) x1 x2 j = padAt (n0 := 4) (n2 := 352) (n3 := 1216) x1 (j 0).val (j 2).val (j 3).val := by
  rw [stack_tap24 x1 x2 j hj, val_main_v53_apply, val_main_v28_apply, padded_read]

/-- The joined array at an index: the padded source of its tap, at the row and column the tap shifts to. -/
theorem stack_read (x1 x2 : (⟨S4x1x352x1216, .f32⟩ : BufTy).Contents (Elt Ideal)) (j : S4x25x352x1216.Idx) :
    val_main_v56 (F := Ideal) x1 x2 j
      = padAt (n0 := 4) (n2 := 352) (n3 := 1216) (if (j 1).val = 12 then x2 else x1) (j 0).val
          ((j 2).val + 4 - (j 1).val / 5) ((j 3).val + 4 - (j 1).val % 5) := by
  have hlt : (j 1).val < 25 := (j 1).isLt
  obtain ⟨k, hk⟩ : ∃ k, (j 1).val = k := ⟨_, rfl⟩
  rw [hk] at hlt ⊢
  interval_cases k
  · exact (tap_read0 x1 x2 j hk).trans (by
      rw [if_neg (by decide)]
      exact congrArg₂ (padAt (n0 := 4) (n2 := 352) (n3 := 1216) x1 (j 0).val) (by omega) (by omega))
  · exact (tap_read1 x1 x2 j hk).trans (by
      rw [if_neg (by decide)]
      exact congrArg₂ (padAt (n0 := 4) (n2 := 352) (n3 := 1216) x1 (j 0).val) (by omega) (by omega))
  · exact (tap_read2 x1 x2 j hk).trans (by
      rw [if_neg (by decide)]
      exact congrArg₂ (padAt (n0 := 4) (n2 := 352) (n3 := 1216) x1 (j 0).val) (by omega) (by omega))
  · exact (tap_read3 x1 x2 j hk).trans (by
      rw [if_neg (by decide)]
      exact congrArg₂ (padAt (n0 := 4) (n2 := 352) (n3 := 1216) x1 (j 0).val) (by omega) (by omega))
  · exact (tap_read4 x1 x2 j hk).trans (by
      rw [if_neg (by decide)]
      exact congrArg₂ (padAt (n0 := 4) (n2 := 352) (n3 := 1216) x1 (j 0).val) (by omega) (by omega))
  · exact (tap_read5 x1 x2 j hk).trans (by
      rw [if_neg (by decide)]
      exact congrArg₂ (padAt (n0 := 4) (n2 := 352) (n3 := 1216) x1 (j 0).val) (by omega) (by omega))
  · exact (tap_read6 x1 x2 j hk).trans (by
      rw [if_neg (by decide)]
      exact congrArg₂ (padAt (n0 := 4) (n2 := 352) (n3 := 1216) x1 (j 0).val) (by omega) (by omega))
  · exact (tap_read7 x1 x2 j hk).trans (by
      rw [if_neg (by decide)]
      exact congrArg₂ (padAt (n0 := 4) (n2 := 352) (n3 := 1216) x1 (j 0).val) (by omega) (by omega))
  · exact (tap_read8 x1 x2 j hk).trans (by
      rw [if_neg (by decide)]
      exact congrArg₂ (padAt (n0 := 4) (n2 := 352) (n3 := 1216) x1 (j 0).val) (by omega) (by omega))
  · exact (tap_read9 x1 x2 j hk).trans (by
      rw [if_neg (by decide)]
      exact congrArg₂ (padAt (n0 := 4) (n2 := 352) (n3 := 1216) x1 (j 0).val) (by omega) (by omega))
  · exact (tap_read10 x1 x2 j hk).trans (by
      rw [if_neg (by decide)]
      exact congrArg₂ (padAt (n0 := 4) (n2 := 352) (n3 := 1216) x1 (j 0).val) (by omega) (by omega))
  · exact (tap_read11 x1 x2 j hk).trans (by
      rw [if_neg (by decide)]
      exact congrArg₂ (padAt (n0 := 4) (n2 := 352) (n3 := 1216) x1 (j 0).val) (by omega) (by omega))
  · exact (tap_read12 x1 x2 j hk).trans (by
      rw [if_pos rfl]
      exact congrArg₂ (padAt (n0 := 4) (n2 := 352) (n3 := 1216) x2 (j 0).val) (by omega) (by omega))
  · exact (tap_read13 x1 x2 j hk).trans (by
      rw [if_neg (by decide)]
      exact congrArg₂ (padAt (n0 := 4) (n2 := 352) (n3 := 1216) x1 (j 0).val) (by omega) (by omega))
  · exact (tap_read14 x1 x2 j hk).trans (by
      rw [if_neg (by decide)]
      exact congrArg₂ (padAt (n0 := 4) (n2 := 352) (n3 := 1216) x1 (j 0).val) (by omega) (by omega))
  · exact (tap_read15 x1 x2 j hk).trans (by
      rw [if_neg (by decide)]
      exact congrArg₂ (padAt (n0 := 4) (n2 := 352) (n3 := 1216) x1 (j 0).val) (by omega) (by omega))
  · exact (tap_read16 x1 x2 j hk).trans (by
      rw [if_neg (by decide)]
      exact congrArg₂ (padAt (n0 := 4) (n2 := 352) (n3 := 1216) x1 (j 0).val) (by omega) (by omega))
  · exact (tap_read17 x1 x2 j hk).trans (by
      rw [if_neg (by decide)]
      exact congrArg₂ (padAt (n0 := 4) (n2 := 352) (n3 := 1216) x1 (j 0).val) (by omega) (by omega))
  · exact (tap_read18 x1 x2 j hk).trans (by
      rw [if_neg (by decide)]
      exact congrArg₂ (padAt (n0 := 4) (n2 := 352) (n3 := 1216) x1 (j 0).val) (by omega) (by omega))
  · exact (tap_read19 x1 x2 j hk).trans (by
      rw [if_neg (by decide)]
      exact congrArg₂ (padAt (n0 := 4) (n2 := 352) (n3 := 1216) x1 (j 0).val) (by omega) (by omega))
  · exact (tap_read20 x1 x2 j hk).trans (by
      rw [if_neg (by decide)]
      exact congrArg₂ (padAt (n0 := 4) (n2 := 352) (n3 := 1216) x1 (j 0).val) (by omega) (by omega))
  · exact (tap_read21 x1 x2 j hk).trans (by
      rw [if_neg (by decide)]
      exact congrArg₂ (padAt (n0 := 4) (n2 := 352) (n3 := 1216) x1 (j 0).val) (by omega) (by omega))
  · exact (tap_read22 x1 x2 j hk).trans (by
      rw [if_neg (by decide)]
      exact congrArg₂ (padAt (n0 := 4) (n2 := 352) (n3 := 1216) x1 (j 0).val) (by omega) (by omega))
  · exact (tap_read23 x1 x2 j hk).trans (by
      rw [if_neg (by decide)]
      exact congrArg₂ (padAt (n0 := 4) (n2 := 352) (n3 := 1216) x1 (j 0).val) (by omega) (by omega))
  · exact (tap_read24 x1 x2 j hk).trans (by
      rw [if_neg (by decide)]
      exact congrArg₂ (padAt (n0 := 4) (n2 := 352) (n3 := 1216) x1 (j 0).val) (by omega) (by omega))

/-! ## The weights -/

/-- The sliced weights at tap k and the output's row and column: the weights two rows and two columns on. -/
theorem gw_read (x0 : (⟨S4x25x356x1220, .f32⟩ : BufTy).Contents (Elt Ideal)) (i : S4x1x352x1216.Idx) (k : Fin 25) :
    x0 (idx_main_v57 (idx_main_v59 (idx_main_v60 i) k))
      = at4 (n0 := 4) (n1 := 25) (n2 := 356) (n3 := 1220) x0 (i 0).val k.val ((i 2).val + 2) ((i 3).val + 2) := by
  have h0 : (i 0).val < 4 := (i 0).isLt
  have h2 : (i 2).val < 352 := (i 2).isLt
  have h3 : (i 3).val < 1216 := (i 3).isLt
  unfold at4
  rw [dif_pos ⟨h0, k.isLt, by omega, by omega⟩]
  refine congrArg x0 (funext fun a => Fin.ext ?_)
  match a with
  | ⟨0, _⟩ => rfl
  | ⟨1, _⟩ => rfl
  | ⟨2, _⟩ => show 2 + (i 2).val = (i 2).val + 2; omega
  | ⟨3, _⟩ => show 2 + (i 3).val = (i 3).val + 2; omega

/-! ## The result -/

theorem ref_is_G (x0 : (⟨S4x25x356x1220, .f32⟩ : BufTy).Contents (Elt Ideal)) (x1 x2 : (⟨S4x1x352x1216, .f32⟩ : BufTy).Contents (Elt Ideal)) :
    val_main_v60 (F := Ideal) x0 x1 x2 = Cert.Spec.G x0 x1 x2 := by
  funext i
  rw [val_main_v60_apply, val_main_v59_apply, val_main_cst_apply, Ideal.ofBits_def, Ideal.ofBits_zero_f32, zero_add]
  refine Eq.trans ?_ (Fin.sum_univ_eq_sum_range (fun t =>
    at4 (n0 := 4) (n1 := 25) (n2 := 356) (n3 := 1220) x0 (i 0).val t ((i 2).val + 2) ((i 3).val + 2)
      * padAt (n0 := 4) (n2 := 352) (n3 := 1216) (if t = 12 then x2 else x1) (i 0).val
          ((i 2).val + 4 - t / 5) ((i 3).val + 4 - t % 5)) 25)
  refine Finset.sum_congr rfl fun k _ => ?_
  rw [val_main_v58_apply, Ideal.mulf_def, val_main_v57_apply, gw_read x0 i k, stack_read]

end Cert.RefSide

end
-- ==== Proof.lean ====
/-
  The certificate of a 5 × 5 spatially varying stencil ("shift and weight"): output pixel (b, y, x) is the sum over
  the 25 taps of a per-pixel weight times a source map shifted by the tap, the centre tap reading a second map.

  The kernel pads the weights by eight zero rows and each source by two zeros on every side (and ten more rows
  below), and runs ONE pallas_call over a 4 × 11 grid whose every point receives, of each padded array, a 32-row
  block and the 8-row block that follows it — two windows over one array —, re-joins them, and accumulates the 25
  products; a final broadcast restores the unit channel axis. The reference pads by two, takes the 25 shifted
  slices, stacks them, multiplies by the cropped weights and reduces over the tap axis.

  Both results are the function `Cert.Spec.G` of the arguments, index by index, over the extended reals: the
  kernel's by the run of @main read at the result array (Proof/KI), the reference's by its run read one operation
  at a time (Proof/Ref). No law of arithmetic beyond re-association of a 25-term sum written in one order on both
  sides is used, so the precondition is never opened. The frames are the same runs read at the argument arrays,
  which nothing writes; the printed kernel's frame (Proof/K) is the idealized one's text at the word-level instance.
  The ideal pass rewrote nothing, so `preserves` is trivial.
-/
import proofs.«154281_j25374666784912_1_alg».proof.Defs
import proofs.«154281_j25374666784912_1_alg».proof.Proof.Gen.Kernel
import proofs.«154281_j25374666784912_1_alg».proof.Proof.Gen.KernelIdeal
import proofs.«154281_j25374666784912_1_alg».proof.Proof.Gen.ReferenceIdeal
import proofs.«154281_j25374666784912_1_alg».proof.Proof.Gen.Pre_finite_inputs
import proofs.«154281_j25374666784912_1_alg».proof.Proof.Gen.ReferenceIdeal.Run
import proofs.«154281_j25374666784912_1_alg».proof.Proof.Gen.ReferenceIdeal.Read
import proofs.«154281_j25374666784912_1_alg».proof.Proof.K.Run
import proofs.«154281_j25374666784912_1_alg».proof.Proof.KI.Run
import proofs.«154281_j25374666784912_1_alg».proof.Proof.KI.Value
import proofs.«154281_j25374666784912_1_alg».proof.Proof.Ref.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Shift.frame (F := Bits) m ρ

theorem frame_ki : Cert.frame_KernelIdeal := fun m ρ _ => Cert.KernelIdeal.Shift.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the stencil of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Shift.run_main (F := Ideal) m ρ)
    · exact (h c _ (Cert.KernelIdeal.Shift.mem_uc Cert.KernelIdeal.main_v6 (by decide))).trans (Cert.KernelIdeal.Shift.result_is_G m c)
    · exact (h c _ (Cert.KernelIdeal.Shift.mem_uc Cert.KernelIdeal.main_arg0 (by decide))).trans (Cert.KernelIdeal.Shift.W8_arg0 m c)
    · exact (h c _ (Cert.KernelIdeal.Shift.mem_uc Cert.KernelIdeal.main_arg1 (by decide))).trans (Cert.KernelIdeal.Shift.W8_arg1 m c)
    · exact (h c _ (Cert.KernelIdeal.Shift.mem_uc Cert.KernelIdeal.main_arg2 (by decide))).trans (Cert.KernelIdeal.Shift.W8_arg2 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v60_eq, Cert.RefSide.ref_is_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
